-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024 : Shape := ⟨1, ![1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S3072x1024 .f32) (main_arg2 : FVec F S3072 .f32) (main_arg3 : FVec F S1024 .f32) (main_arg4 : FVec F S1024x1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024 : Shape := ⟨1, ![1024]⟩
abbrev S1024x1024 : Shape := ⟨2, ![1024, 1024]⟩
abbrev S1024x3072 : Shape := ⟨2, ![1024, 3072]⟩
abbrev S1x3072 : Shape := ⟨2, ![1, 3072]⟩
abbrev S1x1024 : Shape := ⟨2, ![1, 1024]⟩
abbrev S4x2048x3072 : Shape := ⟨3, ![4, 2048, 3072]⟩
abbrev S1x512x1024 : Shape := ⟨3, ![1, 512, 1024]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x3072, .f32⟩
  | .hbm, ⟨7, _⟩ => ⟨S1024x3072, .bf16⟩
  | .hbm, ⟨8, _⟩ => ⟨S1x3072, .f32⟩
  | .hbm, ⟨9, _⟩ => ⟨S1x1024, .f32⟩
  | .hbm, ⟨10, _⟩ => ⟨S4x2048x3072, .bf16⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x3072, .f32⟩
  | .local _ .vmem, ⟨4, _⟩ => ⟨S1x1024, .f32⟩
  | .local _ .vmem, ⟨5, _⟩ => ⟨S1x512x3072, .bf16⟩
  | .local _ .vmem, ⟨6, _⟩ => ⟨S1x512x3072, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1024x1024, .bf16⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S3072x1024_S1024x3072_1_0 : S3072x1024.Transposes [1, 0] S1024x3072
  bitsLt_bf16_f32 : FTy.bits .bf16 < FTy.bits .f32
  shapeCasts_S3072_S1x3072 : S3072.ShapeCasts S1x3072
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  broadcasts_S1x1024_S512x1024 : S1x1024.Broadcasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S3072 : S1x3072.ShapeCasts S3072
  broadcasts_S1x3072_S512x3072 : S1x3072.Broadcasts S512x3072
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  shapeCasts_S512x3072_S1x512x3072 : S512x3072.ShapeCasts S1x512x3072
  packedbf16_S1x512x3072_S1x512x3072_0_0_0 : (Rect.unit (s := S1x512x3072) ![0, 0, 0] S1x512x3072.size inb_S1x512x3072_S1x512x3072_0_0_0).PackedRows (EltTy.packing .bf16)
  transposes_S1024x1024_S1024x1024_1_0 : S1024x1024.Transposes [1, 0] S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S256x1024_o0_0_S256x64 : S256x1024.Slices ![0, 0] S256x64
  slices_S2048x1024_o0_0_S2048x64 : S2048x1024.Slices ![0, 0] S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  slices_S256x1024_o0_64_S256x64 : S256x1024.Slices ![0, 64] S256x64
  slices_S2048x1024_o0_64_S2048x64 : S2048x1024.Slices ![0, 64] S2048x64
  slices_S256x1024_o0_128_S256x64 : S256x1024.Slices ![0, 128] S256x64
  slices_S2048x1024_o0_128_S2048x64 : S2048x1024.Slices ![0, 128] S2048x64
  slices_S256x1024_o0_192_S256x64 : S256x1024.Slices ![0, 192] S256x64
  slices_S2048x1024_o0_192_S2048x64 : S2048x1024.Slices ![0, 192] S2048x64
  slices_S256x1024_o0_256_S256x64 : S256x1024.Slices ![0, 256] S256x64
  slices_S2048x1024_o0_256_S2048x64 : S2048x1024.Slices ![0, 256] S2048x64
  slices_S256x1024_o0_320_S256x64 : S256x1024.Slices ![0, 320] S256x64
  slices_S2048x1024_o0_320_S2048x64 : S2048x1024.Slices ![0, 320] S2048x64
  slices_S256x1024_o0_384_S256x64 : S256x1024.Slices ![0, 384] S256x64
  slices_S2048x1024_o0_384_S2048x64 : S2048x1024.Slices ![0, 384] S2048x64
  slices_S256x1024_o0_448_S256x64 : S256x1024.Slices ![0, 448] S256x64
  slices_S2048x1024_o0_448_S2048x64 : S2048x1024.Slices ![0, 448] S2048x64
  slices_S256x1024_o0_512_S256x64 : S256x1024.Slices ![0, 512] S256x64
  slices_S2048x1024_o0_512_S2048x64 : S2048x1024.Slices ![0, 512] S2048x64
  slices_S256x1024_o0_576_S256x64 : S256x1024.Slices ![0, 576] S256x64
  slices_S2048x1024_o0_576_S2048x64 : S2048x1024.Slices ![0, 576] S2048x64
  slices_S256x1024_o0_640_S256x64 : S256x1024.Slices ![0, 640] S256x64
  slices_S2048x1024_o0_640_S2048x64 : S2048x1024.Slices ![0, 640] S2048x64
  slices_S256x1024_o0_704_S256x64 : S256x1024.Slices ![0, 704] S256x64
  slices_S2048x1024_o0_704_S2048x64 : S2048x1024.Slices ![0, 704] S2048x64
  slices_S256x1024_o0_768_S256x64 : S256x1024.Slices ![0, 768] S256x64
  slices_S2048x1024_o0_768_S2048x64 : S2048x1024.Slices ![0, 768] S2048x64
  slices_S256x1024_o0_832_S256x64 : S256x1024.Slices ![0, 832] S256x64
  slices_S2048x1024_o0_832_S2048x64 : S2048x1024.Slices ![0, 832] S2048x64
  slices_S256x1024_o0_896_S256x64 : S256x1024.Slices ![0, 896] S256x64
  slices_S2048x1024_o0_896_S2048x64 : S2048x1024.Slices ![0, 896] S2048x64
  slices_S256x1024_o0_960_S256x64 : S256x1024.Slices ![0, 960] S256x64
  slices_S2048x1024_o0_960_S2048x64 : S2048x1024.Slices ![0, 960] S2048x64
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S256x1024 : S1x1024.Broadcasts S256x1024
  shapeCasts_S256x1024_S1x256x1024 : S256x1024.ShapeCasts S1x256x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x3072.size a ≤ S4x2048x3072.size a
  hwx0_4 : ∀ i : grid0.Coords, EltTy.bits .bf16 = 32 ∨ (Rect.block (s := S4x2048x3072) S1x512x3072.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x3072.size a
  hwx1_0 : ∀ i : grid1.Coords, EltTy.bits .bf16 = 32 ∨ (Rect.block (s := S4x2048x3072) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x3072.size a
  hwx1_1 : ∀ i : grid1.Coords, EltTy.bits .bf16 = 32 ∨ (Rect.block (s := S4x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x3072.size a
  hwx1_2 : ∀ i : grid1.Coords, EltTy.bits .bf16 = 32 ∨ (Rect.block (s := S4x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S4x2048x1024.size a
  hwx1_5 : ∀ i : grid1.Coords, EltTy.bits .f32 = 32 ∨ (Rect.block (s := S4x2048x1024) S1x256x1024.size (cc1_transform_5 i) (hinb1_5 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x3072.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024 : Shape := ⟨1, ![1024]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x3072 : Shape := ⟨3, ![4, 2048, 3072]⟩
abbrev S1x1x3072 : Shape := ⟨3, ![1, 1, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 60
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x3072, .f32⟩
  | .hbm, ⟨23, _⟩ => ⟨S1x1x3072, .f32⟩
  | .hbm, ⟨24, _⟩ => ⟨S4x2048x3072, .f32⟩
  | .hbm, ⟨25, _⟩ => ⟨S4x2048x3072, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x16x64, .f32⟩
  | .hbm, ⟨30, _⟩ => ⟨S4x16x2048x64, .f32⟩
  | .hbm, ⟨31, _⟩ => ⟨S4x2048x16x64, .f32⟩
  | .hbm, ⟨32, _⟩ => ⟨S4x16x2048x64, .f32⟩
  | .hbm, ⟨33, _⟩ => ⟨S4x2048x16x64, .f32⟩
  | .hbm, ⟨34, _⟩ => ⟨S4x16x2048x64, .f32⟩
  | .hbm, ⟨35, _⟩ => ⟨S4x16x2048x2048, .f32⟩
  | .hbm, ⟨36, _⟩ => ⟨S_, .f32⟩
  | .hbm, ⟨37, _⟩ => ⟨S4x16x2048x2048, .f32⟩
  | .hbm, ⟨38, _⟩ => ⟨S4x16x2048x2048, .f32⟩
  | .hbm, ⟨39, _⟩ => ⟨S_, .f32⟩
  | .hbm, ⟨40, _⟩ => ⟨S4x16x2048, .f32⟩
  | .hbm, ⟨41, _⟩ => ⟨S_, .f32⟩
  | .hbm, ⟨42, _⟩ => ⟨S4x16x2048, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x16x2048x2048, .f32⟩
  | .hbm, ⟨48, _⟩ => ⟨S_, .f32⟩
  | .hbm, ⟨49, _⟩ => ⟨S4x16x2048, .f32⟩
  | .hbm, ⟨50, _⟩ => ⟨S4x16x2048x1, .f32⟩
  | .hbm, ⟨51, _⟩ => ⟨S4x16x2048x2048, .f32⟩
  | .hbm, ⟨52, _⟩ => ⟨S4x16x2048x2048, .f32⟩
  | .hbm, ⟨53, _⟩ => ⟨S4x16x2048x64, .f32⟩
  | .hbm, ⟨54, _⟩ => ⟨S4x2048x16x64, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Region0.lean ====
/-
  The first launch (row normalisation and the fused projection), one grid point at a time, at any float instance.
  A grid point (b, s) stages rows 512·s … 512·s + 511 of batch b of the activations, the whole transposed weight
  matrix, the bias row and the norm-weight row, and writes back one 512 × 3072 block of the projection: the
  single store's value `k0_pay1` of the four loaded blocks. The body neither owes nor signals anything.
-/
import proofs.«416334_j66056597012775_3_alg».proof.Proof.Gen.KernelIdeal.Launch
import proofs.«416334_j66056597012775_3_alg».proof.Proof.Gen.KernelIdeal.Skeleton
import proofs.«416334_j66056597012775_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input window's buffer -/

/-- Input window 0's current staging buffer holds its block at every grid point, whether or not the block was
    transferred there: where it was not, the window's block index has not moved since the previous point, and the
    body leaves the buffer as it found it. For any proof data whose array is `V`'s and whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every grid point, whether or not the block was
    transferred there: where it was not, the window's block index has not moved since the previous point, and the
    body leaves the buffer as it found it. For any proof data whose array is `V`'s and whose body keeps the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every grid point, whether or not the block was
    transferred there: where it was not, the window's block index has not moved since the previous point, and the
    body leaves the buffer as it found it. For any proof data whose array is `V`'s and whose body keeps the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every grid point, whether or not the block was
    transferred there: where it was not, the window's block index has not moved since the previous point, and the
    body leaves the buffer as it found it. For any proof data whose array is `V`'s and whose body keeps the block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole staging buffer -/

abbrev r0_0 : Rect S1x512x1024 := Rect.unit (s := S1x512x1024) ![0, 0, 0] S1x512x1024.size inb_S1x512x1024_S1x512x1024_0_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S1x1024 := Rect.unit (s := S1x1024) ![0, 0] S1x1024.size inb_S1x1024_S1x1024_0_0
abbrev r0_4 : Rect S1x512x3072 := Rect.unit (s := S1x512x3072) ![0, 0, 0] S1x512x3072.size inb_S1x512x3072_S1x512x3072_0_0_0

/-- The output window's staging buffer after the body: its one store, of the projection of the loaded blocks
    (activations `x0`, weights `x1`, bias `x2`, norm weights `x3`). -/
def out0_4 (x0 : Vec F S1x512x1024 .f32) (x1 : Vec F S1024x3072 .bf16) (x2 : Vec F S1x3072 .f32) (x3 : Vec F S1x1024 .f32) : Vec F S1x512x3072 .bf16 :=
  View.canon [⟨r0_4, k0_pay1 (View.ld x0 r0_0) (View.ld x3 r0_3) (View.ld x1 r0_1) (View.ld x2 r0_2)⟩]

/-- The one store is of the whole output buffer, so every index of it is written. -/
theorem cover0_4 (p0 : Vec F S1x512x3072 .bf16) (y : S1x512x3072.Idx) :
    ∃ pc ∈ ([⟨r0_4, p0⟩] : List (View.Piece (Elt F) S1x512x3072 .bf16)), y ∈ pc.1.set :=
  View.cover_of_tiled [⟨r0_4, p0⟩] S1x512x3072.size (by rfl) y

/-! ## The body's triple -/

set_option maxHeartbeats 1000000 in
/-- The kernel body on whole staging buffers — the four inputs' reading `x0 … x3`, the output's holding anything —
    runs to the continuation with the inputs' unchanged and the output's reading `out0_4 x0 x1 x2 x3`: four whole
    loads, a load of the output whose value is dropped, and one store over the whole output. -/
theorem sound_kernel0 (c : Dev nD) (E : Set ℕ) (i : grid0.Coords)
    (arg2 : Memref sig .tc .vmem S1x512x1024 .f32) (harg2 : arg2.IsWhole) (arg3 : Memref sig .tc .vmem S1024x3072 .bf16) (harg3 : arg3.IsWhole)
    (arg4 : Memref sig .tc .vmem S1x3072 .f32) (harg4 : arg4.IsWhole) (arg5 : Memref sig .tc .vmem S1x1024 .f32) (harg5 : arg5.IsWhole)
    (arg6 : Memref sig .tc .vmem S1x512x3072 .bf16) (harg6 : arg6.IsWhole)
    (x0 : Vec F S1x512x1024 .f32) (x1 : Vec F S1024x3072 .bf16) (x2 : Vec F S1x3072 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__qkv_rmsnorm_kernel i arg2 harg2 arg3 harg3 arg4 harg4 arg5 harg5 arg6 harg6) K := by
  simp only [cc0__qkv_rmsnorm_kernel_eq_skeleton]; unfold cc0__qkv_rmsnorm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The launch's proof data -/

/-- The arrays as the launch finds them; after the body at point `t` each input's buffer at its block and the
    output's at `out0_4` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is handed at point `t`: the invariant, nothing owed, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any grid point: the inputs' buffers hold their blocks, so the body's triple applies; the invariant
    and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body at every grid point takes the staged blocks to the staged blocks and the output block above. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second launch (attention over sixteen heads, then the output projection), one grid point at a time, at any
  float instance. A grid point (b, s) stages query rows 256·s … 256·s + 255 of batch b (columns 0 … 1023 of the
  fused projection), all 2048 key rows and all 2048 value rows of the batch (columns 1024 … 2047 and 2048 … 3071 of
  the SAME array), the transposed output weights and the bias row, and writes back one 256 × 1024 block. The three
  input windows on the fused projection read it at three disjoint shares of its buffer. The body neither owes nor
  signals anything.
-/
import proofs.«416334_j66056597012775_3_alg».proof.Proof.Gen.KernelIdeal.Launch
import proofs.«416334_j66056597012775_3_alg».proof.Proof.Gen.KernelIdeal.Skeleton
import proofs.«416334_j66056597012775_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the store take a whole staging buffer -/

abbrev r1_0 : Rect S1x256x1024 := Rect.unit (s := S1x256x1024) ![0, 0, 0] S1x256x1024.size inb_S1x256x1024_S1x256x1024_0_0_0
abbrev r1_1 : Rect S1x2048x1024 := Rect.unit (s := S1x2048x1024) ![0, 0, 0] S1x2048x1024.size inb_S1x2048x1024_S1x2048x1024_0_0_0
abbrev r1_3 : Rect S1024x1024 := Rect.unit (s := S1024x1024) ![0, 0] S1024x1024.size inb_S1024x1024_S1024x1024_0_0
abbrev r1_4 : Rect S1x1024 := Rect.unit (s := S1x1024) ![0, 0] S1x1024.size inb_S1x1024_S1x1024_0_0

/-! ## The stored value as one function of the five loaded blocks

The printed body is cut into six parts at fixed statement counts, so a head's computation may straddle two parts;
this is the parts' dataflow written out once: `v1`, `v3`, `v5` the query, key and value blocks as matrices, then
per head its 256 × 64 result (`v22`, `v39`, …, `v277`), their concatenation, and the projection. -/

/-- What the body stores into the output window's staging buffer, from the query block `v0`, the key block `v2`,
    the value block `v4`, the transposed output weights `v280` and the bias row `v283`. -/
def k1_store (v0 : Vec F S1x256x1024 .bf16) (v2 v4 : Vec F S1x2048x1024 .bf16) (v280 : Vec F S1024x1024 .bf16) (v283 : Vec F S1x1024 .f32) :
    FVec F S1x256x1024 .f32 :=
  have v1 : FVec F S256x1024 .bf16 := k1_pay4 v0
  have v3 : FVec F S2048x1024 .bf16 := k1_pay5 v2
  have v5 : FVec F S2048x1024 .bf16 := k1_pay6 v4
  have v22 : FVec F S256x64 .f32 := k1_pay7 v0 v2 v4
  have v37 : FVec F S256x64 .f32 := k1_pay9 v0 v2 v4
  have v38 : FVec F S256x64 .f32 := k1_pay10 v0 v2
  have v39 : FVec F S256x64 .f32 := k1_pay11 v37 v38
  have v56 : FVec F S256x64 .f32 := k1_pay12 v1 v3 v5
  have v73 : FVec F S256x64 .f32 := k1_pay13 v1 v3 v5
  have v76 : FVec F S2048x64 .bf16 := k1_pay14 v5
  have v84 : FVec F S256x2048 .f32 := k1_pay15 v1 v3
  have v90 : FVec F S256x64 .f32 := k1_pay16 v76 v84
  have v107 : FVec F S256x64 .f32 := k1_pay17 v1 v3 v5
  have v124 : FVec F S256x64 .f32 := k1_pay18 v1 v3 v5
  have v127 : FVec F S2048x64 .bf16 := k1_pay19 v5
  have v130 : FVec F S256x2048 .f32 := k1_pay20 v1 v3
  have v141 : FVec F S256x64 .f32 := k1_pay21 v127 v130
  have v158 : FVec F S256x64 .f32 := k1_pay22 v1 v3 v5
  have v175 : FVec F S256x64 .f32 := k1_pay23 v1 v3 v5
  have v176 : FVec F S256x64 .bf16 := k1_pay24 v1
  have v177 : FVec F S2048x64 .bf16 := k1_pay25 v3
  have v178 : FVec F S2048x64 .bf16 := k1_pay26 v5
  have v192 : FVec F S256x64 .f32 := k1_pay27 v176 v177 v178
  have v209 : FVec F S256x64 .f32 := k1_pay28 v1 v3 v5
  have v212 : FVec F S2048x64 .bf16 := k1_pay29 v5
  have v222 : FVec F S256x1 .f32 := k1_pay31 v1 v3
  have v223 : FVec F S256x2048 .bf16 := k1_pay32 v1 v3
  have cst_71 : FVec F S256x64 .f32 := constant S256x64 .f32 0x00000000#32
  have v226 : FVec F S256x64 .f32 := k1_pay33 v212 v222 v223 cst_71
  have v243 : FVec F S256x64 .f32 := k1_pay34 v1 v3 v5
  have v260 : FVec F S256x64 .f32 := k1_pay35 v1 v3 v5
  have v263 : FVec F S2048x64 .bf16 := k1_pay36 v5
  have v270 : FVec F S256x2048 .f32 := k1_pay37 v1 v3
  have v271 : FVec F S256x2048 .f32 := exp v270
  have v275 : FVec F S256x64 .f32 := k1_pay1 v263 v271
  have v277 : FVec F S256x64 .f32 := k1_pay2 v271 v275
  have v278 : FVec F S256x1024 .f32 := concatenate S256x1024 1 [⟨S256x64, v22⟩, ⟨S256x64, v39⟩, ⟨S256x64, v56⟩, ⟨S256x64, v73⟩, ⟨S256x64, v90⟩, ⟨S256x64, v107⟩, ⟨S256x64, v124⟩, ⟨S256x64, v141⟩, ⟨S256x64, v158⟩, ⟨S256x64, v175⟩, ⟨S256x64, v192⟩, ⟨S256x64, v209⟩, ⟨S256x64, v226⟩, ⟨S256x64, v243⟩, ⟨S256x64, v260⟩, ⟨S256x64, v277⟩] concatenates_S256x64_S256x64_S256x64_S256x64_S256x64_S256x64_S256x64_S256x64_S256x64_S256x64_S256x64_S256x64_S256x64_S256x64_S256x64_S256x64_S256x1024_d1
  k1_pay3 v278 v280 v283

/-- The output window's staging buffer after the body: its one store. (`x0` queries, `x1` keys, `x2` values,
    `x3` output weights, `x4` bias.) -/
def out1_5 (x0 : Vec F S1x256x1024 .bf16) (x1 x2 : Vec F S1x2048x1024 .bf16) (x3 : Vec F S1024x1024 .bf16) (x4 : Vec F S1x1024 .f32) : Vec F S1x256x1024 .f32 :=
  View.canon [⟨r1_0, k1_store (View.ld x0 r1_0) (View.ld x1 r1_1) (View.ld x2 r1_1) (View.ld x3 r1_3) (View.ld x4 r1_4)⟩]

/-! ## The launch's proof data -/

/-- The share of the fused projection's buffer each of its three input windows reads at: a half and two quarters. -/
def q1 : Fin cfg1.W → PosShare TreeShare
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- The arrays as the launch finds them; after the body at point `t` each input's buffer at its block and the
    output's at `out1_5` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## What an input window's staging buffer holds when the body is called

An input window is never written by the body and is never idle, and its blocks are not clipped; so whether or not the
pipeline fetched it at this point (windows 1 and 2 are fetched only when the batch changes, windows 3 and 4 once),
its current buffer holds its block at this point: unfetched, the block index has not moved since the last fetch. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The one store covers the output buffer -/

/-- The stored rectangle is the whole buffer. -/
theorem cover1_5 (p0 : Vec F S1x256x1024 .f32) (y : S1x256x1024.Idx) :
    ∃ pc ∈ ([⟨r1_0, p0⟩] : List (View.Piece (Elt F) S1x256x1024 .f32)), y ∈ pc.1.set :=
  View.cover_of_tiled [⟨r1_0, p0⟩] S1x256x1024.size (by rfl) y

/-! ## The body's triple -/

set_option maxHeartbeats 4000000 in
set_option maxRecDepth 65536 in
/-- On whole staging memrefs, the five inputs' at contents `x0 … x4` and the output's at anything, the body runs to
    the continuation holding the inputs' as they were and the output's at `out1_5 x0 x1 x2 x3 x4`: the first part
    loads the query, key and value buffers, the next five parts only compute, and the tail loads the weights and the
    bias and stores the projection over the whole output buffer. The stored value is `k1_store` of the five loads:
    both are the same applications of the same payloads, the parts' returns threaded through. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec F S1x256x1024 .bf16) (x1 x2 : Vec F S1x2048x1024 .bf16) (x3 : Vec F S1024x1024 .bf16) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__attn_outproj_kernel i arg2 harg2 arg3 harg3 arg4 harg4 arg5 harg5 arg6 harg6 arg7 harg7) K := by
  simp only [cc1__attn_outproj_kernel_eq_skeleton]; unfold cc1__attn_outproj_kernel_skel
  simp only [k1_part1_eq_skeleton, k1_part2_eq_skeleton, k1_part3_eq_skeleton, k1_part4_eq_skeleton, k1_part5_eq_skeleton,
    k1_part6_eq_skeleton]
  unfold k1_part1_skel k1_part2_skel k1_part3_skel k1_part4_skel k1_part5_skel k1_part6_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  sl_unfold_run_names
  refine (View.read_writes_eq_canon _ _ _ (cover1_5 _)).trans ?_
  unfold out1_5 k1_store
  first | rfl | fail "closing rfl failed"

/-! ## The body obligation -/

/-- What the body is called with at point `t`: the invariant, what the core owes, and each window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every grid point takes the staged blocks to the staged blocks and the output block above. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KDefs.lean ====
/-
  The buffers' contents at each boundary of the program, at any float instance: at launch; after the host operations
  before the first launch (the weight matrix transposed and narrowed, the bias and the norm weights as rows); after the
  first launch (only the fused projection's buffer has changed, to what the launch's write-backs leave); after the host
  operations before the second launch (the output weights transposed and narrowed, the bias as a row); after the second
  launch (only the result buffer has changed).
-/
import proofs.«416334_j66056597012775_3_alg».proof.Proof.Region0
import proofs.«416334_j66056597012775_3_alg».proof.Proof.Region1

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- At launch. -/
abbrev U0 (c : Dev nD) : Valuation τ sig (Elt F) := fun b => m (c, b)
/-- After the first host stretch: the first launch's entry. -/
abbrev U1 (c : Dev nD) : Valuation τ sig (Elt F) := StableHlo.after hostOps0 (U0 m c)
/-- The same read at the TensorCore's references. -/
abbrev V1 (c : Dev nD) (b : Ref sig .tc) : Buf (Elt F) ((c : Thread nD τ).loc b) := U1 m c b
/-- The fused projection's array as the first launch's write-backs leave it. -/
def qkvArr (c : Dev nD) : Buf (Elt F) ((c : Thread nD τ).loc main_v4) := (dat0 (V1 m) c).arrAt 4 cfg0.N
/-- After the first launch: only the fused projection's buffer has changed. -/
def U2 (c : Dev nD) : Valuation τ sig (Elt F) := Function.update (U1 m c) main_v4 (qkvArr m c)
/-- After the second host stretch: the second launch's entry. -/
abbrev U3 (c : Dev nD) : Valuation τ sig (Elt F) := StableHlo.after hostOps1 (U2 m c)
/-- The same read at the TensorCore's references. -/
abbrev V3 (c : Dev nD) (b : Ref sig .tc) : Buf (Elt F) ((c : Thread nD τ).loc b) := U3 m c b
/-- The result array as the second launch's write-backs leave it. -/
def outArr (c : Dev nD) : Buf (Elt F) ((c : Thread nD τ).loc main_v8) := (dat1 (V3 m) c).arrAt 5 cfg1.N
/-- After the second launch: only the result buffer has changed. -/
def U4 (c : Dev nD) : Valuation τ sig (Elt F) := Function.update (U3 m c) main_v8 (outArr m c)

end Cert.KernelIdeal.Hand

end
-- ==== Proof.HostVals.lean ====
/-
  The host operations between the launches, read at an index on the extended reals: the transposed and narrowed
  weight matrices are the argument matrices with the two coordinates exchanged (narrowing is the identity on the
  extended reals); a vector reshaped to a one-row matrix holds the vector's entries; the second launch finds the fused
  projection's buffer as the first launch left it; the activations reach the first launch as launched.
-/
import proofs.«416334_j66056597012775_3_alg».proof.Proof.KDefs
import proofs.«416334_j66056597012775_3_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- A buffer the first host stretch does not write holds what it was launched with. -/
theorem U1_keep (c : Dev nD) (r : Ref sig .tc) (h : r ∉ hostOps0_W) : U1 m c r = m ((c.tc : Thread nD τ).loc r) :=
  (StableHlo.after_of_writes_sub hostOps0 _ hostOps0_writes h).trans rfl

/-- A buffer other than the fused projection's is not changed by the first launch. -/
theorem U2_keep (c : Dev nD) (r : Ref sig .tc) (h : r ≠ main_v4) : U2 m c r = U1 m c r := by
  unfold U2
  exact Function.update_of_ne (StableHlo.devRef_ne_of_ne h : (Proc.devRef .tc r : DevRef τ sig) ≠ Proc.devRef .tc main_v4) _ _

/-- The activations reach the first launch as launched. -/
theorem V1_arg0 (c : Dev nD) : V1 m c main_arg0 = m ((c.tc : Thread nD τ).loc main_arg0) := by
  exact U1_keep m c main_arg0 (by decide)

/-- The first launch's weight block is the weight matrix transposed. -/
theorem V1_v1_apply (c : Dev nD) (d : Fin 1024) (e : Fin 3072) :
    (V1 m c main_v1 : S1024x3072.Idx → EReal) (ix2 d e) = (m ((c.tc : Thread nD τ).loc main_arg1) : S3072x1024.Idx → EReal) (ix2 e d) := by
  have e' : (V1 m c main_v1 : S1024x3072.Idx → EReal)
      = transpose S1024x3072 [1, 0] (m ((c.tc : Thread nD τ).loc main_arg1) : S3072x1024.Idx → EReal)
          transposes_S3072x1024_S1024x3072_1_0 := by
    dsimp only [V1, U1, U0, hostOps0]; after_results; rfl
  rw [e']
  exact transpose_apply [1, 0] _ transposes_S3072x1024_S1024x3072_1_0 (ix2 d e) (ix2 e d) (fun b => match b with
    | ⟨0, _⟩ => rfl
    | ⟨1, _⟩ => rfl)

/-- Its bias row is the bias vector. -/
theorem V1_v2_apply (c : Dev nD) (e : Fin 3072) :
    (V1 m c main_v2 : S1x3072.Idx → EReal) (ix2 0 e) = (m ((c.tc : Thread nD τ).loc main_arg2) : S3072.Idx → EReal) (ix1 e) := by
  have e' : (V1 m c main_v2 : S1x3072.Idx → EReal)
      = shapeCast S1x3072 (m ((c.tc : Thread nD τ).loc main_arg2) : S3072.Idx → EReal) shapeCasts_S3072_S1x3072 := by
    dsimp only [V1, U1, U0, hostOps0]; after_results; rfl
  rw [e']
  exact shapeCast_a_1a_apply _ _ 0 e

/-- Its norm-weight row is the norm-weight vector. -/
theorem V1_v3_apply (c : Dev nD) (d : Fin 1024) :
    (V1 m c main_v3 : S1x1024.Idx → EReal) (ix2 0 d) = (m ((c.tc : Thread nD τ).loc main_arg3) : S1024.Idx → EReal) (ix1 d) := by
  have e' : (V1 m c main_v3 : S1x1024.Idx → EReal)
      = shapeCast S1x1024 (m ((c.tc : Thread nD τ).loc main_arg3) : S1024.Idx → EReal) shapeCasts_S1024_S1x1024 := by
    dsimp only [V1, U1, U0, hostOps0]; after_results; rfl
  rw [e']
  exact shapeCast_a_1a_apply _ _ 0 d

/-- The second launch finds the fused projection as the first launch left it. -/
theorem V3_v4 (c : Dev nD) : V3 m c main_v4 = qkvArr m c := by
  refine (StableHlo.after_of_writes_sub hostOps1 _ hostOps1_writes (by decide)).trans ?_
  unfold U2
  exact Function.update_self _ _ _

/-- The second launch's weight block is the output weight matrix transposed. -/
theorem V3_v6_apply (c : Dev nD) (c' e : Fin 1024) :
    (V3 m c main_v6 : S1024x1024.Idx → EReal) (ix2 c' e) = (m ((c.tc : Thread nD τ).loc main_arg4) : S1024x1024.Idx → EReal) (ix2 e c') := by
  have hU : U2 m c main_arg4 = m ((c.tc : Thread nD τ).loc main_arg4) :=
    (U2_keep m c main_arg4 (by decide)).trans (U1_keep m c main_arg4 (by decide))
  have e' : (V3 m c main_v6 : S1024x1024.Idx → EReal)
      = transpose S1024x1024 [1, 0] (U2 m c main_arg4 : S1024x1024.Idx → EReal)
          transposes_S1024x1024_S1024x1024_1_0 := by
    dsimp only [V3, U3, hostOps1]; after_results; rfl
  rw [e', hU]
  exact transpose_apply [1, 0] _ transposes_S1024x1024_S1024x1024_1_0 (ix2 c' e) (ix2 e c') (fun b => match b with
    | ⟨0, _⟩ => rfl
    | ⟨1, _⟩ => rfl)

/-- Its bias row is the output bias vector. -/
theorem V3_v7_apply (c : Dev nD) (e : Fin 1024) :
    (V3 m c main_v7 : S1x1024.Idx → EReal) (ix2 0 e) = (m ((c.tc : Thread nD τ).loc main_arg5) : S1024.Idx → EReal) (ix1 e) := by
  have hU : U2 m c main_arg5 = m ((c.tc : Thread nD τ).loc main_arg5) :=
    (U2_keep m c main_arg5 (by decide)).trans (U1_keep m c main_arg5 (by decide))
  have e' : (V3 m c main_v7 : S1x1024.Idx → EReal)
      = shapeCast S1x1024 (U2 m c main_arg5 : S1024.Idx → EReal) shapeCasts_S1024_S1x1024 := by
    dsimp only [V3, U3, hostOps1]; after_results; rfl
  rw [e', hU]
  exact shapeCast_a_1a_apply _ _ 0 e

end Cert.KernelIdeal.Hand

end
-- ==== Proof.Spec.lean ====
/-
  The mathematics both programs compute, over plain functions of coordinates on the extended reals.

  An RMS-normalised row times a weight matrix plus a bias gives the fused projection `qkv`; its 3072 columns are
  three bands of 1024 (queries, keys, values), each band sixteen heads of 64 columns. For one query row, per head,
  the scores against every key row are scaled by 1/8, shifted by their maximum, exponentiated, and used as weights
  of the value rows; the sixteen heads' results side by side are the attention row, which a second weight matrix and
  bias project to the output row.

  The two programs differ in ONE place: where the weights are divided by their sum. `attnK` divides the weighted
  sum of value rows once (one quotient per entry); `attnR` divides every weight first (a softmax) and sums
  afterwards. Everything else is spelt identically, so the two output rows `outK` and `outR` share every other term.
  The attention part is stated for ONE query row `qrow` (1024 columns) against the key rows `krows` and value rows
  `vrows` (2048 rows of 1024 columns) of its batch; `outKQ` / `outRQ` read the three off the fused projection.
-/
import Idealize.ShloMosaic.PureOps.Ideal

noncomputable section

namespace Cert.Spec

open Idealize.ShloMosaic

/-- The additive constant under the reciprocal square root (the f32 nearest 1e-5). -/
def eps : EReal := Ideal.ofBits .f32 0x3727C5AC#32
/-- The row length 1024 as a float. -/
def c1024 : EReal := Ideal.ofBits .f32 0x44800000#32
/-- The score scale 1/8 as a float. -/
def scale : EReal := Ideal.ofBits .f32 0x3E000000#32

section Proj

variable (x : Fin 4 → Fin 2048 → Fin 1024 → EReal) (win : Fin 3072 → Fin 1024 → EReal) (bin : Fin 3072 → EReal)
  (wn : Fin 1024 → EReal)

/-- The reciprocal root of a row's mean square plus `eps`. -/
def inv (b : Fin 4) (s : Fin 2048) : EReal :=
  Ideal.rsqrt (Ideal.div (∑ d : Fin 1024, x b s d * x b s d) c1024 + eps)

/-- The normalised row entry: the entry times the row's `inv` times the norm weight. -/
def xn (b : Fin 4) (s : Fin 2048) (d : Fin 1024) : EReal := x b s d * inv x b s * wn d

/-- The fused projection: the normalised row against row `e` of the weight matrix, plus the bias. -/
def qkv (b : Fin 4) (s : Fin 2048) (e : Fin 3072) : EReal := (∑ d : Fin 1024, xn x wn b s d * win e d) + bin e

end Proj

/-- Column `d` of head `h` among a band's 1024 columns. -/
def hcol (h : Fin 16) (d : Fin 64) : Fin 1024 := ⟨64 * h.val + d.val, by omega⟩
/-- The head of a column and the column inside the head. -/
def headOf (c : Fin 1024) : Fin 16 := ⟨c.val / 64, by omega⟩
def withinHead (c : Fin 1024) : Fin 64 := ⟨c.val % 64, Nat.mod_lt _ (by decide)⟩

section Attn

variable (qrow : Fin 1024 → EReal) (krows vrows : Fin 2048 → Fin 1024 → EReal)
  (wout : Fin 1024 → Fin 1024 → EReal) (bout : Fin 1024 → EReal)

/-- The scaled score of the query row against key row `j` in head `h`. -/
def score (h : Fin 16) (j : Fin 2048) : EReal :=
  (∑ e : Fin 64, qrow (hcol h e) * krows j (hcol h e)) * scale

/-- The largest score in head `h` (the fold of `max` from `⊥` over the key rows). -/
def smax (h : Fin 16) : EReal :=
  (Finset.univ : Finset (Fin 2048)).fold max ⊥ (fun j => score qrow krows h j)

/-- The unnormalised weight of key row `j`. -/
def wgt (h : Fin 16) (j : Fin 2048) : EReal := Ideal.exp (score qrow krows h j - smax qrow krows h)

/-- The sum of the weights. -/
def den (h : Fin 16) : EReal := ∑ j : Fin 2048, wgt qrow krows h j

/-- One head's attention entry, the weighted sum divided once. -/
def attnK (h : Fin 16) (d : Fin 64) : EReal :=
  Ideal.div (∑ j : Fin 2048, wgt qrow krows h j * vrows j (hcol h d)) (den qrow krows h)

/-- One head's attention entry, every weight divided first. -/
def attnR (h : Fin 16) (d : Fin 64) : EReal :=
  ∑ j : Fin 2048, Ideal.div (wgt qrow krows h j) (den qrow krows h) * vrows j (hcol h d)

/-- The output entry over the once-divided attention row. -/
def outK (e : Fin 1024) : EReal :=
  (∑ c : Fin 1024, attnK qrow krows vrows (headOf c) (withinHead c) * wout e c) + bout e

/-- The output entry over the softmax-weighted attention row. -/
def outR (e : Fin 1024) : EReal :=
  (∑ c : Fin 1024, attnR qrow krows vrows (headOf c) (withinHead c) * wout e c) + bout e

end Attn

/-- Column `c` of the query, key and value band of the fused projection. -/
def band0 (c : Fin 1024) : Fin 3072 := ⟨c.val, by omega⟩
def band1 (c : Fin 1024) : Fin 3072 := ⟨1024 + c.val, by omega⟩
def band2 (c : Fin 1024) : Fin 3072 := ⟨2048 + c.val, by omega⟩

section OnQ

variable (Q : Fin 4 → Fin 2048 → Fin 3072 → EReal) (wout : Fin 1024 → Fin 1024 → EReal) (bout : Fin 1024 → EReal)

/-- The output entry (b, s, e) off the fused projection `Q`, once-divided. -/
def outKQ (b : Fin 4) (s : Fin 2048) (e : Fin 1024) : EReal :=
  outK (fun c => Q b s (band0 c)) (fun j c => Q b j (band1 c)) (fun j c => Q b j (band2 c)) wout bout e

/-- The output entry (b, s, e) off the fused projection `Q`, softmax-weighted. -/
def outRQ (b : Fin 4) (s : Fin 2048) (e : Fin 1024) : EReal :=
  outR (fun c => Q b s (band0 c)) (fun j c => Q b j (band1 c)) (fun j c => Q b j (band2 c)) wout bout e

end OnQ

end Cert.Spec

end
-- ==== Proof.Store0.lean ====
/-
  What the first launch stores, read at an index on the extended reals: row r of the stored block is the fused
  projection of row r of the loaded activations block — the row's squares summed over its 1024 columns, divided by
  1024, plus the constant, the reciprocal root broadcast along the row, the two products, the contraction with the
  loaded weight block over the 1024 columns, plus the loaded bias row.
-/
import proofs.«416334_j66056597012775_3_alg».proof.Proof.Gen.KernelIdeal.Skeleton
import proofs.«416334_j66056597012775_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Two layout operations along a kept unit column -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row's sum of squares -/

/-- The lane sum of the squared block at row `r` is the sum over the row's 1024 columns of the squares. -/
theorem rowSq_apply (v1 : FVec Ideal S512x1024 .f32) (r : Fin 512) :
    multiReduction (F := Ideal) .add [1] S512 (mulf v1 v1) 0x00000000#32 reduces_S512x1024_S512 (.inl rfl) rfl (ix1 r)
      = ∑ d : Fin 1024, v1 (ix2 r d) * v1 (ix2 r d) := by
  refine (Ideal.multiReduction_add_single (mulf v1 v1) 0x00000000#32 reduces_S512x1024_S512 (.inl rfl) rfl (ix1 r)).trans ?_
  show ∑ d : Fin 1024, mulf v1 v1 (reduces_S512x1024_S512.lift (ix1 r) d) = _
  refine Finset.sum_congr rfl fun d _ => ?_
  have e : reduces_S512x1024_S512.lift (ix1 r) d = ix2 r d :=
    funext fun a => Fin.ext (by match a with | ⟨0, _⟩ => rfl | ⟨1, _⟩ => rfl)
  rw [e]; rfl

/-- The reciprocal-root column at row `r`: the reciprocal root of the row's mean square plus the constant. -/
theorem invCol_apply (v1 : FVec Ideal S512x1024 .f32) (r : Fin 512) (u : Fin 1) :
    rsqrt (addf (divf (shapeCast S512x1 (multiReduction (F := Ideal) .add [1] S512 (mulf v1 v1) 0x00000000#32 reduces_S512x1024_S512 (.inl rfl) rfl) shapeCasts_S512_S512x1)
        (broadcast S512x1 (Scalar.ofBits .f32 0x44800000#32))) (broadcast S512x1 (Scalar.ofBits .f32 0x3727C5AC#32))) (ix2 r u)
      = Ideal.rsqrt (Ideal.div (∑ d : Fin 1024, v1 (ix2 r d) * v1 (ix2 r d)) Cert.Spec.c1024 + Cert.Spec.eps) := by
  show Ideal.rsqrt (Ideal.div (shapeCast S512x1 (multiReduction (F := Ideal) .add [1] S512 (mulf v1 v1) 0x00000000#32 reduces_S512x1024_S512 (.inl rfl) rfl) shapeCasts_S512_S512x1 (ix2 r u))
      Cert.Spec.c1024 + Cert.Spec.eps) = _
  rw [shapeCast_a_a1_apply, rowSq_apply]

/-! ## The contraction -/

theorem lhs_proj_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_proj_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_proj_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_proj_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product into a zero accumulator at `(r, e)`: row `r` of the left factor against column `e` of the right,
    summed over the 1024 shared coordinates. -/
theorem proj_matmul_apply (l : FVec Ideal S512x1024 .bf16) (w : FVec Ideal S1024x3072 .bf16) (r : Fin 512) (e : Fin 3072) :
    matmul dot_S512x1024_S1024x3072_S512x3072_1_0_0_1_n_n none l w (constant (F := Ideal) S512x3072 .f32 0x00000000#32) (ix2 r e)
      = ∑ k : Fin 1024, l (ix2 r k) * w (ix2 k e) := by
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r e) ((contrEquiv1 dot_S512x1024_S1024x3072_S512x3072_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S512x1024_S1024x3072_S512x3072_1_0_0_1_n_n.rhsIdx (ix2 r e) ((contrEquiv1 dot_S512x1024_S1024x3072_S512x3072_1_0_0_1_n_n 1024 rfl rfl).symm k) = ix2 k e := funext fun a => Fin.ext (by
    match a with
    | ⟨0, _⟩ => exact (rhs_proj_0 _ _).trans hk
    | ⟨1, _⟩ => exact rhs_proj_1 _ _)
  rw [el, er]

/-! ## The rows broadcast down the block -/

/-- A `[1, n]` row, flattened and restored, then broadcast down 512 rows, reads at `(r, k)` the row at `k`. -/
theorem rowDown1024_apply (v : Vec Ideal S1x1024 .f32) (r : Fin 512) (k : Fin 1024) :
    broadcastTo S512x1024 (shapeCast S1x1024 (shapeCast S1024 v shapeCasts_S1x1024_S1024) shapeCasts_S1024_S1x1024) broadcasts_S1x1024_S512x1024 (ix2 r k)
      = v (ix2 0 k) := by
  rw [broadcastTo_1b_ab_apply, shapeCast_a_1a_apply, shapeCast_1a_a_apply]
theorem rowDown3072_apply (v : Vec Ideal S1x3072 .f32) (r : Fin 512) (e : Fin 3072) :
    broadcastTo S512x3072 (shapeCast S1x3072 (shapeCast S3072 v shapeCasts_S1x3072_S3072) shapeCasts_S3072_S1x3072) broadcasts_S1x3072_S512x3072 (ix2 r e)
      = v (ix2 0 e) := by
  rw [broadcastTo_1b_ab_apply, shapeCast_a_1a_apply, shapeCast_1a_a_apply]

/-! ## The normalised block -/

/-- The normalised block at `(r, k)`: the entry times the row's reciprocal root times the norm weight. -/
theorem normRows_apply (v1 : FVec Ideal S512x1024 .f32) (v12 : Vec Ideal S1x1024 .f32) (r : Fin 512) (k : Fin 1024) :
    mulf (mulf v1 (broadcastTo S512x1024 (rsqrt (addf (divf (shapeCast S512x1 (multiReduction (F := Ideal) .add [1] S512 (mulf v1 v1) 0x00000000#32 reduces_S512x1024_S512 (.inl rfl) rfl) shapeCasts_S512_S512x1)
        (broadcast S512x1 (Scalar.ofBits .f32 0x44800000#32))) (broadcast S512x1 (Scalar.ofBits .f32 0x3727C5AC#32)))) broadcasts_S512x1_S512x1024))
      (broadcastTo S512x1024 (shapeCast S1x1024 (shapeCast S1024 v12 shapeCasts_S1x1024_S1024) shapeCasts_S1024_S1x1024) broadcasts_S1x1024_S512x1024) (ix2 r k)
      = v1 (ix2 r k) * Ideal.rsqrt (Ideal.div (∑ d : Fin 1024, v1 (ix2 r d) * v1 (ix2 r d)) Cert.Spec.c1024 + Cert.Spec.eps) * v12 (ix2 0 k) := by
  rw [mulf_apply, mulf_apply, rowDown1024_apply, broadcastTo_a1_ab_apply, invCol_apply]

/-- The stored block at (0, r, e) is the specification's projection of row r of the activations block (the
    specification reads only the row it is asked for, so the block's row stands for every row). -/
theorem k0_pay1_apply (v0 : Vec Ideal S1x512x1024 .f32) (v12 : Vec Ideal S1x1024 .f32) (v18 : Vec Ideal S1024x3072 .bf16)
    (v21 : Vec Ideal S1x3072 .f32) (r : Fin 512) (e : Fin 3072) :
    k0_pay1 (F := Ideal) v0 v12 v18 v21 (ix3 0 r e)
      = Cert.Spec.qkv (fun _ _ d => v0 (ix3 0 r d)) (fun e d => v18 (ix2 d e)) (fun e => v21 (ix2 0 e)) (fun d => v12 (ix2 0 d)) 0 0 e := by
  unfold k0_pay1
  refine (shapeCast_ab_1ab_apply _ _ 0 r e).trans ?_
  refine (truncf_apply (ψ := .bf16) _ bitsLt_bf16_f32 _).trans ?_
  refine (addf_apply _ _ _).trans ?_
  refine (congrArg₂ (· + ·) (proj_matmul_apply _ _ r e) (rowDown3072_apply v21 r e)).trans ?_
  unfold Cert.Spec.qkv Cert.Spec.xn Cert.Spec.inv
  refine congrArg₂ (· + ·) (Finset.sum_congr rfl fun k _ => ?_) rfl
  refine congrArg₂ (· * ·) ?_ (congrFun (shapeCast_self v18 _) (ix2 k e))
  refine (truncf_apply (ψ := .bf16) _ bitsLt_bf16_f32 _).trans ?_
  refine (normRows_apply _ v12 r k).trans ?_
  have e1 : ∀ d : Fin 1024, shapeCast S512x1024 v0 shapeCasts_S1x512x1024_S512x1024 (ix2 r d) = v0 (ix3 0 r d) :=
    fun d => shapeCast_1ab_ab_apply v0 _ r d
  simp only [e1]

end Cert.KernelIdeal.Hand

end
-- ==== Proof.Value0.lean ====
/-
  The fused projection's array after the first launch, on the extended reals. Grid point (b, s) writes the block of
  rows 512·s … 512·s + 511 of batch b; the sixteen blocks tile the array, so entry (b, r, e) is what the point
  (b, r / 512) stored at row r % 512: the projection of row (b, r) of the activations array against the staged
  weights, bias and norm weights (whole arrays, the same at every point).
-/
import proofs.«416334_j66056597012775_3_alg».proof.Proof.Region0
import proofs.«416334_j66056597012775_3_alg».proof.Proof.Store0
import proofs.«416334_j66056597012775_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz3_0 : (![0, 0, 0] : Fin 3 → Nat) = fun _ => 0 := funext fun a => by fin_cases a <;> rfl
theorem hz2_0 : (![0, 0] : Fin 2 → Nat) = fun _ => 0 := funext fun a => by fin_cases a <;> rfl

/-- The fused projection of whole arrays, entry by entry. -/
abbrev qkvWhole0 (A0 : S4x2048x1024.Idx → EReal) (A1 : S1024x3072.Idx → EReal) (A2 : S1x3072.Idx → EReal) (A3 : S1x1024.Idx → EReal) :
    S4x2048x3072.Idx → EReal := fun i =>
  Cert.Spec.qkv (fun b s d => A0 (ix3 b s d)) (fun e d => A1 (ix2 d e)) (fun e => A2 (ix2 0 e)) (fun d => A3 (ix2 0 d))
    ⟨(i 0).val, (i 0).isLt⟩ ⟨(i 1).val, (i 1).isLt⟩ ⟨(i 2).val, (i 2).isLt⟩

/-- One stored entry: if the loaded activations block holds, along the stored row, the array's row `(i 0, i 1)`, and
    the other three loaded blocks are their whole arrays, the store at `j` is the projection's entry `i`. -/
theorem store_point0 (x0 : Vec Ideal S1x512x1024 .f32) (x1 : Vec Ideal S1024x3072 .bf16) (x2 : Vec Ideal S1x3072 .f32) (x3 : Vec Ideal S1x1024 .f32)
    (A0 : S4x2048x1024.Idx → EReal) (A1 : S1024x3072.Idx → EReal) (A2 : S1x3072.Idx → EReal) (A3 : S1x1024.Idx → EReal)
    (j : S1x512x3072.Idx) (i : S4x2048x3072.Idx)
    (h0 : ∀ (y : S1x512x1024.Idx) (k : S4x2048x1024.Idx), (y 1).val = (j 1).val → (k 0).val = (i 0).val → (k 1).val = (i 1).val →
      (k 2).val = (y 2).val → x0 y = A0 k)
    (h1 : (x1 : S1024x3072.Idx → EReal) = A1) (h2 : (x2 : S1x3072.Idx → EReal) = A2) (h3 : (x3 : S1x1024.Idx → EReal) = A3)
    (hi2 : (i 2).val = (j 2).val) :
    k0_pay1 (F := Ideal) x0 x3 x1 x2 j = qkvWhole0 A0 A1 A2 A3 i := by
  subst h1 h2 h3
  obtain ⟨u, r, e, rfl⟩ : ∃ (u : Fin 1) (r : Fin 512) (e : Fin 3072), j = ix3 u r e := ⟨j 0, j 1, j 2, eq_ix3 j⟩
  obtain rfl : u = 0 := Subsingleton.elim _ _
  obtain ⟨b, s, e', rfl⟩ : ∃ (b : Fin 4) (s : Fin 2048) (e' : Fin 3072), i = ix3 b s e' := ⟨i 0, i 1, i 2, eq_ix3 i⟩
  obtain rfl : e = e' := (Fin.ext hi2 : e' = e).symm
  refine (k0_pay1_apply x0 x3 x1 x2 r e).trans ?_
  have hx : ∀ d : Fin 1024, x0 (ix3 0 r d) = A0 (ix3 b s d) := fun d => h0 (ix3 0 r d) (ix3 b s d) rfl rfl rfl rfl
  show Cert.Spec.qkv (fun _ _ d => x0 (ix3 0 r d)) _ _ _ 0 0 e = Cert.Spec.qkv (fun b s d => A0 (ix3 b s d)) _ _ _ b s e
  unfold Cert.Spec.qkv Cert.Spec.xn Cert.Spec.inv
  simp only [hx]

/-- The printed index maps over the grid: the activations' and the output's blocks sit at batch `t / 4`, row block
    `t % 4`; the weights, bias and norm weights are staged whole. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0 :=
  (by decide +kernel : ∀ t : Fin grid0.N, _)

/-- What grid point `t` writes back is block `t` of the projection of the arrays the launch was entered with. -/
theorem flushed0_4_eq (c : Dev nD) (t : Fin cfg0.N) :
    (dat0 (F := Ideal) V c).flushed 4 t
      = ((cfg0.win 4).blk t).view.read (Elt Ideal) (qkvWhole0 (V c main_arg0) (V c main_v1) (V c main_v2) (V c main_v3)) := by
  show (cfg0.win 4).cut (grid0.coords t) ((dat0 (F := Ideal) V c).after 4 t) = _
  rw [after0_4]
  unfold out0_4
  rw [View.canon_unit_zero hz3_0]
  simp only [View.ld_unit_zero (S := S1x512x1024) hz3_0, View.ld_unit_zero (S := S1024x3072) hz2_0, View.ld_unit_zero (S := S1x3072) hz2_0, View.ld_unit_zero (S := S1x1024) hz2_0]
  obtain ⟨a00, a01, a02, a10, a11, a20, a21, a30, a31, a40, a41, a42⟩ := idx_facts0 t
  funext j
  refine store_point0 (iblk0 V c 0 t) (iblk0 V c 1 t) (iblk0 V c 2 t) (iblk0 V c 3 t) (V c main_arg0) (V c main_v1) (V c main_v2) (V c main_v3)
    j (((cfg0.win 4).blk t).view.emb j) ?_ ?_ ?_ ?_ ?_
  · intro y k hy1 hk0 hk1 hk2
    have hk0' : (k 0).val = win0_4.index t (0 : Fin 3) * 1 + 1 * (j 0).val := hk0
    have hk1' : (k 1).val = win0_4.index t (1 : Fin 3) * 512 + 1 * (j 1).val := hk1
    have hy0 : (y 0).val < 1 := (y 0).isLt
    have hj0 : (j 0).val < 1 := (j 0).isLt
    show V c main_arg0 (((cfg0.win 0).blk t).view.emb y) = V c main_arg0 k
    refine congrArg (V c main_arg0) (funext fun a => Fin.ext ?_)
    match a with
    | ⟨0, _⟩ => show win0_0.index t (0 : Fin 3) * 1 + 1 * (y 0).val = (k 0).val; omega
    | ⟨1, _⟩ => show win0_0.index t (1 : Fin 3) * 512 + 1 * (y 1).val = (k 1).val; omega
    | ⟨2, _⟩ => show win0_0.index t (2 : Fin 3) * 1024 + 1 * (y 2).val = (k 2).val; omega
  · funext y
    show V c main_v1 (((cfg0.win 1).blk t).view.emb y) = V c main_v1 y
    refine congrArg (V c main_v1) (funext fun a => Fin.ext ?_)
    match a with
    | ⟨0, _⟩ => show win0_1.index t (0 : Fin 2) * 1024 + 1 * (y 0).val = (y 0).val; omega
    | ⟨1, _⟩ => show win0_1.index t (1 : Fin 2) * 3072 + 1 * (y 1).val = (y 1).val; omega
  · funext y
    show V c main_v2 (((cfg0.win 2).blk t).view.emb y) = V c main_v2 y
    refine congrArg (V c main_v2) (funext fun a => Fin.ext ?_)
    match a with
    | ⟨0, _⟩ => show win0_2.index t (0 : Fin 2) * 1 + 1 * (y 0).val = (y 0).val; omega
    | ⟨1, _⟩ => show win0_2.index t (1 : Fin 2) * 3072 + 1 * (y 1).val = (y 1).val; omega
  · funext y
    show V c main_v3 (((cfg0.win 3).blk t).view.emb y) = V c main_v3 y
    refine congrArg (V c main_v3) (funext fun a => Fin.ext ?_)
    match a with
    | ⟨0, _⟩ => show win0_3.index t (0 : Fin 2) * 1 + 1 * (y 0).val = (y 0).val; omega
    | ⟨1, _⟩ => show win0_3.index t (1 : Fin 2) * 1024 + 1 * (y 1).val = (y 1).val; omega
  · show win0_4.index t (2 : Fin 3) * 3072 + 1 * (j 2).val = (j 2).val
    omega

/-- An entry of the array is in grid point `t`'s block exactly when each coordinate is in the block's range. -/
theorem mem_blk0_4 (t : Fin cfg0.N) (i : S4x2048x3072.Idx) :
    i ∈ ((cfg0.win 4).blk t).view.set ↔ ∀ a : Fin 3, win0_4.index t a * S1x512x3072.size a ≤ (i a).val ∧ (i a).val < win0_4.index t a * S1x512x3072.size a + S1x512x3072.size a := by
  show i ∈ ((View.whole main_v4).slice (win0_4.rect t)).set ↔ _
  rw [View.set_slice_whole, Rect.mem_set_unit]
  exact Iff.rfl

/-- Every entry `(b, r, e)` is in the block of the grid point `4·b + r / 512`, which is written back. -/
theorem arr_cover0_4 (i : S4x2048x3072.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 3072 := (i 2).isLt
  have hN : cfg0.N = 16 := N_0
  obtain ⟨t, ht⟩ : ∃ t : Fin cfg0.N, t.val = 4 * (i 0).val + (i 1).val / 512 :=
    ⟨⟨4 * (i 0).val + (i 1).val / 512, by rw [hN]; omega⟩, rfl⟩
  obtain ⟨-, -, -, -, -, -, -, -, -, a40, a41, a42⟩ := idx_facts0 t
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 3072 ≤ (i 2).val ∧ (i 2).val < win0_4.index t (2 : Fin 3) * 3072 + 3072; omega

/-- The array after the launch is the projection of the arrays it was entered with: the sixteen blocks tile it. -/
theorem final0_4 (c : Dev nD) :
    (dat0 (F := Ideal) V c).arrAt 4 cfg0.N = qkvWhole0 (V c main_arg0) (V c main_v1) (V c main_v2) (V c main_v3) :=
  (dat0 (F := Ideal) V c).arrAt_eq_of_cover 4 (qkvWhole0 (V c main_arg0) (V c main_v1) (V c main_v2) (V c main_v3))
    (fun t _ => flushed0_4_eq V c t) arr_cover0_4

/-- Entry (b, s, e) of the array the first launch leaves is the specification's projection of the arrays it was
    entered with: activations `main_arg0`, transposed weights `main_v1`, bias row `main_v2`, norm-weight row `main_v3`. -/
theorem qkv_arr_apply (c : Dev nD) (b : Fin 4) (s : Fin 2048) (e : Fin 3072) :
    ((dat0 (F := Ideal) V c).arrAt 4 cfg0.N : S4x2048x3072.Idx → EReal) (ix3 b s e)
      = Cert.Spec.qkv (fun b s d => (V c main_arg0 : S4x2048x1024.Idx → EReal) (ix3 b s d))
          (fun e d => (V c main_v1 : S1024x3072.Idx → EReal) (ix2 d e))
          (fun e => (V c main_v2 : S1x3072.Idx → EReal) (ix2 0 e))
          (fun d => (V c main_v3 : S1x1024.Idx → EReal) (ix2 0 d)) b s e :=
  congrFun (final0_4 V c) (ix3 b s e)

end Cert.KernelIdeal.Hand

end
-- ==== Proof.Store1.lean ====
/-
  What the second launch stores, read at an index on the extended reals: row r of the stored block is the output row
  of query row r of the loaded query block against all 2048 loaded key rows and value rows — per head h the scores
  over the head's 64 columns scaled by 1/8, their row maximum (a fold of max from -∞), the exponentials of the
  shifted scores, the weighted sum of the value rows divided by the weights' sum; the sixteen heads side by side;
  the contraction with the loaded output weights over the 1024 columns, plus the loaded bias row.
-/
import proofs.«416334_j66056597012775_3_alg».proof.Proof.Region1
import proofs.«416334_j66056597012775_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! The lemmas of this file other than the last live in their own namespace. -/
namespace Attn

/-! ## The three contractions read at an index -/

theorem lhs_qk_n (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_c (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_n (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_c (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- Query rows against key rows: entry (r, j) sums the products over the 64 columns. -/
theorem qk_apply (q : FVec Ideal S256x64 .bf16) (k : FVec Ideal S2048x64 .bf16) (r : Fin 256) (j : Fin 2048) :
    matmul dot_S256x64_S2048x64_S256x2048_1_1_0_0_n_n none q k (constant (F := Ideal) S256x2048 .f32 0x00000000#32) (ix2 r j)
      = ∑ e : Fin 64, q (ix2 r e) * k (ix2 j e) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun e _ => ?_
  have hk := ValueIdx.contrEquiv1_symm_val dot_S256x64_S2048x64_S256x2048_1_1_0_0_n_n 64 rfl rfl e
  have el : dot_S256x64_S2048x64_S256x2048_1_1_0_0_n_n.lhsIdx (ix2 r j) ((ValueIdx.contrEquiv1 dot_S256x64_S2048x64_S256x2048_1_1_0_0_n_n 64 rfl rfl).symm e) = ix2 r e := funext fun a => Fin.ext (by
    match a with
    | ⟨0, _⟩ => exact lhs_qk_n _ _
    | ⟨1, _⟩ => exact (lhs_qk_c _ _).trans hk)
  have er : dot_S256x64_S2048x64_S256x2048_1_1_0_0_n_n.rhsIdx (ix2 r j) ((ValueIdx.contrEquiv1 dot_S256x64_S2048x64_S256x2048_1_1_0_0_n_n 64 rfl rfl).symm e) = ix2 j e := funext fun a => Fin.ext (by
    match a with
    | ⟨0, _⟩ => exact rhs_qk_n _ _
    | ⟨1, _⟩ => exact (rhs_qk_c _ _).trans hk)
  rw [el, er]

theorem lhs_pv_n (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_c (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_n (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl
theorem rhs_pv_c (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q

/-- Weights against value rows: entry (r, d) sums the products over the 2048 key rows. -/
theorem pv_apply (p : FVec Ideal S256x2048 .bf16) (v : FVec Ideal S2048x64 .bf16) (r : Fin 256) (d : Fin 64) :
    matmul dot_S256x2048_S2048x64_S256x64_1_0_0_1_n_n none p v (constant (F := Ideal) S256x64 .f32 0x00000000#32) (ix2 r d)
      = ∑ j : Fin 2048, p (ix2 r j) * v (ix2 j d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun j _ => ?_
  have hk := ValueIdx.contrEquiv1_symm_val dot_S256x2048_S2048x64_S256x64_1_0_0_1_n_n 2048 rfl rfl j
  have el : dot_S256x2048_S2048x64_S256x64_1_0_0_1_n_n.lhsIdx (ix2 r d) ((ValueIdx.contrEquiv1 dot_S256x2048_S2048x64_S256x64_1_0_0_1_n_n 2048 rfl rfl).symm j) = ix2 r j := funext fun a => Fin.ext (by
    match a with
    | ⟨0, _⟩ => exact lhs_pv_n _ _
    | ⟨1, _⟩ => exact (lhs_pv_c _ _).trans hk)
  have er : dot_S256x2048_S2048x64_S256x64_1_0_0_1_n_n.rhsIdx (ix2 r d) ((ValueIdx.contrEquiv1 dot_S256x2048_S2048x64_S256x64_1_0_0_1_n_n 2048 rfl rfl).symm j) = ix2 j d := funext fun a => Fin.ext (by
    match a with
    | ⟨0, _⟩ => exact (rhs_pv_c _ _).trans hk
    | ⟨1, _⟩ => exact rhs_pv_n _ _)
  rw [el, er]

theorem lhs_ow_n (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_ow_c (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_ow_n (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
theorem rhs_ow_c (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q

/-- The attention rows against the output weights: entry (r, e) sums the products over the 1024 columns. -/
theorem ow_apply (a : FVec Ideal S256x1024 .bf16) (w : FVec Ideal S1024x1024 .bf16) (r : Fin 256) (e : Fin 1024) :
    matmul dot_S256x1024_S1024x1024_S256x1024_1_0_0_1_n_n none a w (constant (F := Ideal) S256x1024 .f32 0x00000000#32) (ix2 r e)
      = ∑ c : Fin 1024, a (ix2 r c) * w (ix2 c e) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun c _ => ?_
  have hk := ValueIdx.contrEquiv1_symm_val dot_S256x1024_S1024x1024_S256x1024_1_0_0_1_n_n 1024 rfl rfl c
  have el : dot_S256x1024_S1024x1024_S256x1024_1_0_0_1_n_n.lhsIdx (ix2 r e) ((ValueIdx.contrEquiv1 dot_S256x1024_S1024x1024_S256x1024_1_0_0_1_n_n 1024 rfl rfl).symm c) = ix2 r c := funext fun a => Fin.ext (by
    match a with
    | ⟨0, _⟩ => exact lhs_ow_n _ _
    | ⟨1, _⟩ => exact (lhs_ow_c _ _).trans hk)
  have er : dot_S256x1024_S1024x1024_S256x1024_1_0_0_1_n_n.rhsIdx (ix2 r e) ((ValueIdx.contrEquiv1 dot_S256x1024_S1024x1024_S256x1024_1_0_0_1_n_n 1024 rfl rfl).symm c) = ix2 c e := funext fun a => Fin.ext (by
    match a with
    | ⟨0, _⟩ => exact (rhs_ow_c _ _).trans hk
    | ⟨1, _⟩ => exact rhs_ow_n _ _)
  rw [el, er]

/-! ## Row reductions, the kept column and its broadcast, read at an index -/

/-- Row r's index with column k put back on the reduced axis. -/
theorem lift_row (r : Fin 256) (k : Fin 2048) : reduces_S256x2048_S256.lift (ix1 r) k = ix2 r k :=
  funext fun c => Fin.ext (by
    match c with
    | ⟨0, _⟩ => rfl
    | ⟨1, _⟩ => rfl)

/-- A row sum is the sum over the 2048 columns. -/
theorem rowsum_apply (x : FVec Ideal S256x2048 .f32) (r : Fin 256) :
    multiReduction (F := Ideal) .add [1] S256 x 0x00000000#32 reduces_S256x2048_S256 (.inl rfl) rfl (ix1 r)
      = ∑ j : Fin 2048, x (ix2 r j) := by
  refine (Ideal.multiReduction_add_single x _ reduces_S256x2048_S256 _ _ (ix1 r)).trans ?_
  exact Finset.sum_congr rfl fun k _ => congrArg x (lift_row r k)

/-- The word of -∞ is the bottom element. -/
theorem ofBits_neg_inf : FloatOps.ofBits (F := Ideal) .f32 0xFF800000#32 = (⊥ : EReal) := by
  show Ideal.ofBits .f32 0xFF800000#32 = ⊥
  simp [Ideal.ofBits, Ideal.ieee]

/-- A row maximum is the fold of max from ⊥ over the 2048 columns. -/
theorem rowmax_apply (x : FVec Ideal S256x2048 .f32) (r : Fin 256) :
    multiReduction (F := Ideal) .maximumf [1] S256 x 0xFF800000#32 reduces_S256x2048_S256 (.inl rfl) rfl (ix1 r)
      = (Finset.univ : Finset (Fin 2048)).fold max ⊥ (fun j => x (ix2 r j)) := by
  refine (Ideal.multiReduction_maximumf_single x _ reduces_S256x2048_S256 _ _ (ix1 r)).trans ?_
  have hf : (x ∘ reduces_S256x2048_S256.lift (ix1 r)) = fun j : Fin 2048 => x (ix2 r j) :=
    funext fun k => congrArg x (lift_row r k)
  exact congrArg₂ (fun (b : EReal) (f : Fin 2048 → EReal) => (Finset.univ : Finset (Fin 2048)).fold max b f) ofBits_neg_inf hf

/-- A 256-vector kept as a column reads its entry. -/
theorem col_apply {α : Type} (v : S256.Idx → α) (r : Fin 256) (u : Fin 1) :
    shapeCast S256x1 v shapeCasts_S256_S256x1 (ix2 r u) = v (ix1 r) :=
  shapeCast_apply v _ _ _ (by
    have hu : u.val = 0 := by omega
    rw [Shape.rowMajor_val_two, Shape.rowMajor_val_one]
    show r.val = r.val * 1 + u.val
    rw [hu, Nat.mul_one, Nat.add_zero])

/-- A column laid along 2048 columns reads the row's entry. -/
theorem bcol2048_apply {α : Type} (c : S256x1.Idx → α) (r : Fin 256) (j : Fin 2048) :
    broadcastTo S256x2048 c broadcasts_S256x1_S256x2048 (ix2 r j) = c (ix2 r (0 : Fin 1)) := by
  refine broadcastTo_apply c _ (ix2 r j) (ix2 r (0 : Fin 1)) fun ax => ?_
  match ax with
  | ⟨0, _⟩ => rfl
  | ⟨1, _⟩ => rfl

/-- A column laid along 64 columns reads the row's entry. -/
theorem bcol64_apply {α : Type} (c : S256x1.Idx → α) (r : Fin 256) (d : Fin 64) :
    broadcastTo S256x64 c broadcasts_S256x1_S256x64 (ix2 r d) = c (ix2 r (0 : Fin 1)) := by
  refine broadcastTo_apply c _ (ix2 r d) (ix2 r (0 : Fin 1)) fun ax => ?_
  match ax with
  | ⟨0, _⟩ => rfl
  | ⟨1, _⟩ => rfl

/-- The exponential of a vector reads entry by entry. -/
theorem exp_apply {s : Shape} (x : FVec Ideal s .f32) (i : s.Idx) : exp x i = Ideal.exp (x i) := rfl

/-! ## One head from its three 64-column slices

The printed body spells the sixteen heads through differently cut payloads; each is, by unfolding, the same chain of
operations on the head's three slices: the scaled scores, their shift by the row maximum, the exponentials, and the
weighted sum of value rows divided by the weights' sum. -/

/-- The scaled scores of the query slice against the key slice. -/
def scoresS (qs : FVec Ideal S256x64 .bf16) (ks : FVec Ideal S2048x64 .bf16) : FVec Ideal S256x2048 .f32 :=
  mulf (matmul dot_S256x64_S2048x64_S256x2048_1_1_0_0_n_n none qs ks (constant S256x2048 .f32 0x00000000#32))
    (broadcast S256x2048 (Scalar.ofBits .f32 0x3E000000#32))

/-- Scores less their row maximum. -/
def shiftS (s : FVec Ideal S256x2048 .f32) : FVec Ideal S256x2048 .f32 :=
  subf s (broadcastTo S256x2048 (shapeCast S256x1
    (multiReduction .maximumf [1] S256 s 0xFF800000#32 reduces_S256x2048_S256 (.inl rfl) rfl) shapeCasts_S256_S256x1)
    broadcasts_S256x1_S256x2048)

/-- The weights' sums, kept as a column. -/
def denS (p : FVec Ideal S256x2048 .f32) : FVec Ideal S256x1 .f32 :=
  shapeCast S256x1 (multiReduction .add [1] S256 p 0x00000000#32 reduces_S256x2048_S256 (.inl rfl) rfl) shapeCasts_S256_S256x1

/-- The weighted sums of value rows. -/
def numS (p : FVec Ideal S256x2048 .f32) (vs : FVec Ideal S2048x64 .bf16) : FVec Ideal S256x64 .f32 :=
  matmul dot_S256x2048_S2048x64_S256x64_1_0_0_1_n_n none (truncf .bf16 p bitsLt_bf16_f32) vs (constant S256x64 .f32 0x00000000#32)

/-- The weighted sums divided by the weights' sums. -/
def finS (p : FVec Ideal S256x2048 .f32) (vs : FVec Ideal S2048x64 .bf16) : FVec Ideal S256x64 .f32 :=
  divf (numS p vs) (broadcastTo S256x64 (denS p) broadcasts_S256x1_S256x64)

/-- One head's 256 × 64 result. -/
def headS (qs : FVec Ideal S256x64 .bf16) (ks vs : FVec Ideal S2048x64 .bf16) : FVec Ideal S256x64 .f32 :=
  finS (exp (shiftS (scoresS qs ks))) vs

theorem scoresS_apply (qs : FVec Ideal S256x64 .bf16) (ks : FVec Ideal S2048x64 .bf16) (r : Fin 256) (j : Fin 2048) :
    scoresS qs ks (ix2 r j) = (∑ e : Fin 64, qs (ix2 r e) * ks (ix2 j e)) * Cert.Spec.scale := by
  unfold scoresS
  rw [mulf_apply, qk_apply, broadcast_apply]
  rfl

theorem shiftS_apply (s : FVec Ideal S256x2048 .f32) (r : Fin 256) (j : Fin 2048) :
    shiftS s (ix2 r j) = s (ix2 r j) - (Finset.univ : Finset (Fin 2048)).fold max ⊥ (fun j' => s (ix2 r j')) := by
  unfold shiftS
  rw [subf_apply, bcol2048_apply, col_apply, rowmax_apply]

theorem denS_apply (p : FVec Ideal S256x2048 .f32) (r : Fin 256) (u : Fin 1) :
    denS p (ix2 r u) = ∑ j : Fin 2048, p (ix2 r j) := by
  unfold denS
  rw [col_apply, rowsum_apply]

theorem numS_apply (p : FVec Ideal S256x2048 .f32) (vs : FVec Ideal S2048x64 .bf16) (r : Fin 256) (d : Fin 64) :
    numS p vs (ix2 r d) = ∑ j : Fin 2048, p (ix2 r j) * vs (ix2 j d) := by
  unfold numS
  rw [pv_apply]
  rfl

theorem finS_apply (p : FVec Ideal S256x2048 .f32) (vs : FVec Ideal S2048x64 .bf16) (r : Fin 256) (d : Fin 64) :
    finS p vs (ix2 r d) = Ideal.div (∑ j : Fin 2048, p (ix2 r j) * vs (ix2 j d)) (∑ j : Fin 2048, p (ix2 r j)) := by
  unfold finS
  rw [divf_apply, numS_apply, bcol64_apply, denS_apply]

/-- One head's entry from its slices' rows: the specification's once-divided entry with the head's 64 columns named
    directly. -/
def attnS (q : Fin 64 → EReal) (k v : Fin 2048 → Fin 64 → EReal) (d : Fin 64) : EReal :=
  Ideal.div
    (∑ j : Fin 2048, Ideal.exp ((∑ e : Fin 64, q e * k j e) * Cert.Spec.scale
        - (Finset.univ : Finset (Fin 2048)).fold max ⊥ (fun j' => (∑ e : Fin 64, q e * k j' e) * Cert.Spec.scale)) * v j d)
    (∑ j : Fin 2048, Ideal.exp ((∑ e : Fin 64, q e * k j e) * Cert.Spec.scale
        - (Finset.univ : Finset (Fin 2048)).fold max ⊥ (fun j' => (∑ e : Fin 64, q e * k j' e) * Cert.Spec.scale)))

theorem attnK_eq_attnS (qrow : Fin 1024 → EReal) (krows vrows : Fin 2048 → Fin 1024 → EReal) (h : Fin 16) (d : Fin 64) :
    Cert.Spec.attnK qrow krows vrows h d
      = attnS (fun e => qrow (Cert.Spec.hcol h e)) (fun j e => krows j (Cert.Spec.hcol h e))
          (fun j e => vrows j (Cert.Spec.hcol h e)) d := rfl

theorem headS_apply (qs : FVec Ideal S256x64 .bf16) (ks vs : FVec Ideal S2048x64 .bf16) (r : Fin 256) (d : Fin 64) :
    headS qs ks vs (ix2 r d)
      = attnS (fun e => qs (ix2 r e)) (fun j e => ks (ix2 j e)) (fun j e => vs (ix2 j e)) d := by
  unfold headS attnS
  rw [finS_apply]
  simp only [exp_apply, shiftS_apply, scoresS_apply]

/-! ## The sixteen printed heads are the head chain on their slices (by unfolding) -/

set_option maxRecDepth 65536 in
/-- Head 0 as printed is the head chain on the slices at column 0. -/
theorem head0_eq (v0 : Vec Ideal S1x256x1024 .bf16) (v2 v4 : Vec Ideal S1x2048x1024 .bf16) :
    k1_pay7 (F := Ideal) v0 v2 v4 = headS (extractStridedSlice S256x64 ![0, 0] (k1_pay4 v0) slices_S256x1024_o0_0_S256x64) (extractStridedSlice S2048x64 ![0, 0] (k1_pay5 v2) slices_S2048x1024_o0_0_S2048x64) (extractStridedSlice S2048x64 ![0, 0] (k1_pay6 v4) slices_S2048x1024_o0_0_S2048x64) := rfl

set_option maxRecDepth 65536 in
/-- Head 1 as printed is the head chain on the slices at column 64. -/
theorem head1_eq (v0 : Vec Ideal S1x256x1024 .bf16) (v2 v4 : Vec Ideal S1x2048x1024 .bf16) :
    k1_pay11 (F := Ideal) (k1_pay9 v0 v2 v4) (k1_pay10 v0 v2) = headS (extractStridedSlice S256x64 ![0, 64] (k1_pay4 v0) slices_S256x1024_o0_64_S256x64) (extractStridedSlice S2048x64 ![0, 64] (k1_pay5 v2) slices_S2048x1024_o0_64_S2048x64) (extractStridedSlice S2048x64 ![0, 64] (k1_pay6 v4) slices_S2048x1024_o0_64_S2048x64) := rfl

set_option maxRecDepth 65536 in
/-- Head 2 as printed is the head chain on the slices at column 128. -/
theorem head2_eq (v1 : FVec Ideal S256x1024 .bf16) (v3 v5 : FVec Ideal S2048x1024 .bf16) :
    k1_pay12 (F := Ideal) v1 v3 v5 = headS (extractStridedSlice S256x64 ![0, 128] v1 slices_S256x1024_o0_128_S256x64) (extractStridedSlice S2048x64 ![0, 128] v3 slices_S2048x1024_o0_128_S2048x64) (extractStridedSlice S2048x64 ![0, 128] v5 slices_S2048x1024_o0_128_S2048x64) := rfl

set_option maxRecDepth 65536 in
/-- Head 3 as printed is the head chain on the slices at column 192. -/
theorem head3_eq (v1 : FVec Ideal S256x1024 .bf16) (v3 v5 : FVec Ideal S2048x1024 .bf16) :
    k1_pay13 (F := Ideal) v1 v3 v5 = headS (extractStridedSlice S256x64 ![0, 192] v1 slices_S256x1024_o0_192_S256x64) (extractStridedSlice S2048x64 ![0, 192] v3 slices_S2048x1024_o0_192_S2048x64) (extractStridedSlice S2048x64 ![0, 192] v5 slices_S2048x1024_o0_192_S2048x64) := rfl

set_option maxRecDepth 65536 in
/-- Head 4 as printed is the head chain on the slices at column 256. -/
theorem head4_eq (v1 : FVec Ideal S256x1024 .bf16) (v3 v5 : FVec Ideal S2048x1024 .bf16) :
    k1_pay16 (F := Ideal) (k1_pay14 v5) (k1_pay15 v1 v3) = headS (extractStridedSlice S256x64 ![0, 256] v1 slices_S256x1024_o0_256_S256x64) (extractStridedSlice S2048x64 ![0, 256] v3 slices_S2048x1024_o0_256_S2048x64) (extractStridedSlice S2048x64 ![0, 256] v5 slices_S2048x1024_o0_256_S2048x64) := rfl

set_option maxRecDepth 65536 in
/-- Head 5 as printed is the head chain on the slices at column 320. -/
theorem head5_eq (v1 : FVec Ideal S256x1024 .bf16) (v3 v5 : FVec Ideal S2048x1024 .bf16) :
    k1_pay17 (F := Ideal) v1 v3 v5 = headS (extractStridedSlice S256x64 ![0, 320] v1 slices_S256x1024_o0_320_S256x64) (extractStridedSlice S2048x64 ![0, 320] v3 slices_S2048x1024_o0_320_S2048x64) (extractStridedSlice S2048x64 ![0, 320] v5 slices_S2048x1024_o0_320_S2048x64) := rfl

set_option maxRecDepth 65536 in
/-- Head 6 as printed is the head chain on the slices at column 384. -/
theorem head6_eq (v1 : FVec Ideal S256x1024 .bf16) (v3 v5 : FVec Ideal S2048x1024 .bf16) :
    k1_pay18 (F := Ideal) v1 v3 v5 = headS (extractStridedSlice S256x64 ![0, 384] v1 slices_S256x1024_o0_384_S256x64) (extractStridedSlice S2048x64 ![0, 384] v3 slices_S2048x1024_o0_384_S2048x64) (extractStridedSlice S2048x64 ![0, 384] v5 slices_S2048x1024_o0_384_S2048x64) := rfl

set_option maxRecDepth 65536 in
/-- Head 7 as printed is the head chain on the slices at column 448. -/
theorem head7_eq (v1 : FVec Ideal S256x1024 .bf16) (v3 v5 : FVec Ideal S2048x1024 .bf16) :
    k1_pay21 (F := Ideal) (k1_pay19 v5) (k1_pay20 v1 v3) = headS (extractStridedSlice S256x64 ![0, 448] v1 slices_S256x1024_o0_448_S256x64) (extractStridedSlice S2048x64 ![0, 448] v3 slices_S2048x1024_o0_448_S2048x64) (extractStridedSlice S2048x64 ![0, 448] v5 slices_S2048x1024_o0_448_S2048x64) := rfl

set_option maxRecDepth 65536 in
/-- Head 8 as printed is the head chain on the slices at column 512. -/
theorem head8_eq (v1 : FVec Ideal S256x1024 .bf16) (v3 v5 : FVec Ideal S2048x1024 .bf16) :
    k1_pay22 (F := Ideal) v1 v3 v5 = headS (extractStridedSlice S256x64 ![0, 512] v1 slices_S256x1024_o0_512_S256x64) (extractStridedSlice S2048x64 ![0, 512] v3 slices_S2048x1024_o0_512_S2048x64) (extractStridedSlice S2048x64 ![0, 512] v5 slices_S2048x1024_o0_512_S2048x64) := rfl

set_option maxRecDepth 65536 in
/-- Head 9 as printed is the head chain on the slices at column 576. -/
theorem head9_eq (v1 : FVec Ideal S256x1024 .bf16) (v3 v5 : FVec Ideal S2048x1024 .bf16) :
    k1_pay23 (F := Ideal) v1 v3 v5 = headS (extractStridedSlice S256x64 ![0, 576] v1 slices_S256x1024_o0_576_S256x64) (extractStridedSlice S2048x64 ![0, 576] v3 slices_S2048x1024_o0_576_S2048x64) (extractStridedSlice S2048x64 ![0, 576] v5 slices_S2048x1024_o0_576_S2048x64) := rfl

set_option maxRecDepth 65536 in
/-- Head 10 as printed is the head chain on the slices at column 640. -/
theorem head10_eq (v1 : FVec Ideal S256x1024 .bf16) (v3 v5 : FVec Ideal S2048x1024 .bf16) :
    k1_pay27 (F := Ideal) (k1_pay24 v1) (k1_pay25 v3) (k1_pay26 v5) = headS (extractStridedSlice S256x64 ![0, 640] v1 slices_S256x1024_o0_640_S256x64) (extractStridedSlice S2048x64 ![0, 640] v3 slices_S2048x1024_o0_640_S2048x64) (extractStridedSlice S2048x64 ![0, 640] v5 slices_S2048x1024_o0_640_S2048x64) := rfl

set_option maxRecDepth 65536 in
/-- Head 11 as printed is the head chain on the slices at column 704. -/
theorem head11_eq (v1 : FVec Ideal S256x1024 .bf16) (v3 v5 : FVec Ideal S2048x1024 .bf16) :
    k1_pay28 (F := Ideal) v1 v3 v5 = headS (extractStridedSlice S256x64 ![0, 704] v1 slices_S256x1024_o0_704_S256x64) (extractStridedSlice S2048x64 ![0, 704] v3 slices_S2048x1024_o0_704_S2048x64) (extractStridedSlice S2048x64 ![0, 704] v5 slices_S2048x1024_o0_704_S2048x64) := rfl

set_option maxRecDepth 65536 in
/-- Head 12 as printed is the head chain on the slices at column 768. -/
theorem head12_eq (v1 : FVec Ideal S256x1024 .bf16) (v3 v5 : FVec Ideal S2048x1024 .bf16) :
    k1_pay33 (F := Ideal) (k1_pay29 v5) (k1_pay31 v1 v3) (k1_pay32 v1 v3) (constant S256x64 .f32 0x00000000#32) = headS (extractStridedSlice S256x64 ![0, 768] v1 slices_S256x1024_o0_768_S256x64) (extractStridedSlice S2048x64 ![0, 768] v3 slices_S2048x1024_o0_768_S2048x64) (extractStridedSlice S2048x64 ![0, 768] v5 slices_S2048x1024_o0_768_S2048x64) := rfl

set_option maxRecDepth 65536 in
/-- Head 13 as printed is the head chain on the slices at column 832. -/
theorem head13_eq (v1 : FVec Ideal S256x1024 .bf16) (v3 v5 : FVec Ideal S2048x1024 .bf16) :
    k1_pay34 (F := Ideal) v1 v3 v5 = headS (extractStridedSlice S256x64 ![0, 832] v1 slices_S256x1024_o0_832_S256x64) (extractStridedSlice S2048x64 ![0, 832] v3 slices_S2048x1024_o0_832_S2048x64) (extractStridedSlice S2048x64 ![0, 832] v5 slices_S2048x1024_o0_832_S2048x64) := rfl

set_option maxRecDepth 65536 in
/-- Head 14 as printed is the head chain on the slices at column 896. -/
theorem head14_eq (v1 : FVec Ideal S256x1024 .bf16) (v3 v5 : FVec Ideal S2048x1024 .bf16) :
    k1_pay35 (F := Ideal) v1 v3 v5 = headS (extractStridedSlice S256x64 ![0, 896] v1 slices_S256x1024_o0_896_S256x64) (extractStridedSlice S2048x64 ![0, 896] v3 slices_S2048x1024_o0_896_S2048x64) (extractStridedSlice S2048x64 ![0, 896] v5 slices_S2048x1024_o0_896_S2048x64) := rfl

set_option maxRecDepth 65536 in
/-- Head 15 as printed is the head chain on the slices at column 960. -/
theorem head15_eq (v1 : FVec Ideal S256x1024 .bf16) (v3 v5 : FVec Ideal S2048x1024 .bf16) :
    k1_pay2 (F := Ideal) (exp (k1_pay37 v1 v3)) (k1_pay1 (k1_pay36 v5) (exp (k1_pay37 v1 v3))) = headS (extractStridedSlice S256x64 ![0, 960] v1 slices_S256x1024_o0_960_S256x64) (extractStridedSlice S2048x64 ![0, 960] v3 slices_S2048x1024_o0_960_S2048x64) (extractStridedSlice S2048x64 ![0, 960] v5 slices_S2048x1024_o0_960_S2048x64) := rfl

/-! ## A head's entry is the specification's -/

/-- The head chain on the three slices at column 64·h reads the specification's once-divided entry of head h. -/
theorem head_at (h : Fin 16) (off : Nat) (hoff : off = 64 * h.val)
    (v1 : FVec Ideal S256x1024 .bf16) (v3 v5 : FVec Ideal S2048x1024 .bf16)
    (s1 : S256x1024.Slices ![0, off] S256x64) (s3 s5 : S2048x1024.Slices ![0, off] S2048x64) (r : Fin 256) (d : Fin 64) :
    headS (extractStridedSlice S256x64 ![0, off] v1 s1) (extractStridedSlice S2048x64 ![0, off] v3 s3)
        (extractStridedSlice S2048x64 ![0, off] v5 s5) (ix2 r d)
      = Cert.Spec.attnK (fun c => v1 (ix2 r c)) (fun j c => v3 (ix2 j c)) (fun j c => v5 (ix2 j c)) h d := by
  subst hoff
  rw [headS_apply, attnK_eq_attnS]
  simp only [slice2_axis1_eq]
  rfl

/-! ## The loaded blocks as matrices -/

theorem pay4_apply (v0 : Vec Ideal S1x256x1024 .bf16) (r : Fin 256) (c : Fin 1024) :
    k1_pay4 (F := Ideal) v0 (ix2 r c) = v0 (ix3 0 r c) :=
  shapeCast_1ab_ab_apply v0 _ r c

theorem pay5_apply (v2 : Vec Ideal S1x2048x1024 .bf16) (j : Fin 2048) (c : Fin 1024) :
    k1_pay5 (F := Ideal) v2 (ix2 j c) = v2 (ix3 0 j c) :=
  shapeCast_1ab_ab_apply v2 _ j c

theorem pay6_apply (v4 : Vec Ideal S1x2048x1024 .bf16) (j : Fin 2048) (c : Fin 1024) :
    k1_pay6 (F := Ideal) v4 (ix2 j c) = v4 (ix3 0 j c) :=
  shapeCast_1ab_ab_apply v4 _ j c

/-! ## Sixteen heads side by side -/

/-- Column c of the sixteen 64-column pieces side by side is column c mod 64 of piece c / 64. -/
theorem concat16_apply (o0 o1 o2 o3 o4 o5 o6 o7 o8 o9 o10 o11 o12 o13 o14 o15 : FVec Ideal S256x64 .f32) (r : Fin 256) (c : Fin 1024) :
    concatenate S256x1024 1 [⟨S256x64, o0⟩, ⟨S256x64, o1⟩, ⟨S256x64, o2⟩, ⟨S256x64, o3⟩, ⟨S256x64, o4⟩, ⟨S256x64, o5⟩, ⟨S256x64, o6⟩, ⟨S256x64, o7⟩, ⟨S256x64, o8⟩, ⟨S256x64, o9⟩, ⟨S256x64, o10⟩, ⟨S256x64, o11⟩, ⟨S256x64, o12⟩, ⟨S256x64, o13⟩, ⟨S256x64, o14⟩, ⟨S256x64, o15⟩] concatenates_S256x64_S256x64_S256x64_S256x64_S256x64_S256x64_S256x64_S256x64_S256x64_S256x64_S256x64_S256x64_S256x64_S256x64_S256x64_S256x64_S256x1024_d1 (ix2 r c)
      = (![o0, o1, o2, o3, o4, o5, o6, o7, o8, o9, o10, o11, o12, o13, o14, o15] : Fin 16 → FVec Ideal S256x64 .f32) (Cert.Spec.headOf c) (ix2 r (Cert.Spec.withinHead c)) :=
  concatenate_ofFn_apply (t := S256x1024) (s₁ := S256x64) (1 : Fin S256x1024.rank) (N := 16)
    (![o0, o1, o2, o3, o4, o5, o6, o7, o8, o9, o10, o11, o12, o13, o14, o15] : Fin 16 → FVec Ideal S256x64 .f32) concatenates_S256x64_S256x64_S256x64_S256x64_S256x64_S256x64_S256x64_S256x64_S256x64_S256x64_S256x64_S256x64_S256x64_S256x64_S256x64_S256x64_S256x1024_d1 rfl 64 rfl (ix2 r c) (Cert.Spec.headOf c) rfl
    (ix2 r (Cert.Spec.withinHead c)) rfl
    (fun b hb => match b with
      | ⟨0, _⟩ => rfl
      | ⟨1, _⟩ => absurd rfl hb)

/-! ## The projection and the bias -/

/-- The output projection of the attention rows, with the bias row, stored as a [1, 256, 1024] block. -/
def outS (a : FVec Ideal S256x1024 .f32) (v280 : Vec Ideal S1024x1024 .bf16) (v283 : Vec Ideal S1x1024 .f32) :
    FVec Ideal S1x256x1024 .f32 :=
  shapeCast S1x256x1024
    (addf (matmul dot_S256x1024_S1024x1024_S256x1024_1_0_0_1_n_n none (truncf .bf16 a bitsLt_bf16_f32)
        (shapeCast S1024x1024 v280 shapeCasts_S1024x1024_S1024x1024 : FVec Ideal S1024x1024 .bf16)
        (constant S256x1024 .f32 0x00000000#32))
      (broadcastTo S256x1024 (shapeCast S1x1024 (shapeCast S1024 v283 shapeCasts_S1x1024_S1024 : FVec Ideal S1024 .f32) shapeCasts_S1024_S1x1024)
        broadcasts_S1x1024_S256x1024))
    shapeCasts_S256x1024_S1x256x1024

theorem pay3_eq (a : FVec Ideal S256x1024 .f32) (v280 : Vec Ideal S1024x1024 .bf16) (v283 : Vec Ideal S1x1024 .f32) :
    k1_pay3 (F := Ideal) a v280 v283 = outS a v280 v283 := rfl

theorem outS_apply (a : FVec Ideal S256x1024 .f32) (v280 : Vec Ideal S1024x1024 .bf16) (v283 : Vec Ideal S1x1024 .f32)
    (r : Fin 256) (e : Fin 1024) :
    outS a v280 v283 (ix3 0 r e) = (∑ c : Fin 1024, a (ix2 r c) * v280 (ix2 c e)) + v283 (ix2 0 e) := by
  unfold outS
  rw [shapeCast_ab_1ab_apply, addf_apply, ow_apply, shapeCast_self, broadcastTo_1b_ab_apply, shapeCast_shapeCast]
  rfl

/-- Column c of the sixteen pieces side by side, each piece's row r known entry by entry. -/
theorem concat16_eq (o0 o1 o2 o3 o4 o5 o6 o7 o8 o9 o10 o11 o12 o13 o14 o15 : FVec Ideal S256x64 .f32) (r : Fin 256) (c : Fin 1024) (A : Fin 16 → Fin 64 → EReal)
    (h0 : ∀ d : Fin 64, o0 (ix2 r d) = A 0 d)
    (h1 : ∀ d : Fin 64, o1 (ix2 r d) = A 1 d)
    (h2 : ∀ d : Fin 64, o2 (ix2 r d) = A 2 d)
    (h3 : ∀ d : Fin 64, o3 (ix2 r d) = A 3 d)
    (h4 : ∀ d : Fin 64, o4 (ix2 r d) = A 4 d)
    (h5 : ∀ d : Fin 64, o5 (ix2 r d) = A 5 d)
    (h6 : ∀ d : Fin 64, o6 (ix2 r d) = A 6 d)
    (h7 : ∀ d : Fin 64, o7 (ix2 r d) = A 7 d)
    (h8 : ∀ d : Fin 64, o8 (ix2 r d) = A 8 d)
    (h9 : ∀ d : Fin 64, o9 (ix2 r d) = A 9 d)
    (h10 : ∀ d : Fin 64, o10 (ix2 r d) = A 10 d)
    (h11 : ∀ d : Fin 64, o11 (ix2 r d) = A 11 d)
    (h12 : ∀ d : Fin 64, o12 (ix2 r d) = A 12 d)
    (h13 : ∀ d : Fin 64, o13 (ix2 r d) = A 13 d)
    (h14 : ∀ d : Fin 64, o14 (ix2 r d) = A 14 d)
    (h15 : ∀ d : Fin 64, o15 (ix2 r d) = A 15 d) :
    concatenate S256x1024 1 [⟨S256x64, o0⟩, ⟨S256x64, o1⟩, ⟨S256x64, o2⟩, ⟨S256x64, o3⟩, ⟨S256x64, o4⟩, ⟨S256x64, o5⟩, ⟨S256x64, o6⟩, ⟨S256x64, o7⟩, ⟨S256x64, o8⟩, ⟨S256x64, o9⟩, ⟨S256x64, o10⟩, ⟨S256x64, o11⟩, ⟨S256x64, o12⟩, ⟨S256x64, o13⟩, ⟨S256x64, o14⟩, ⟨S256x64, o15⟩] concatenates_S256x64_S256x64_S256x64_S256x64_S256x64_S256x64_S256x64_S256x64_S256x64_S256x64_S256x64_S256x64_S256x64_S256x64_S256x64_S256x64_S256x1024_d1 (ix2 r c)
      = A (Cert.Spec.headOf c) (Cert.Spec.withinHead c) := by
  refine (concat16_apply o0 o1 o2 o3 o4 o5 o6 o7 o8 o9 o10 o11 o12 o13 o14 o15 r c).trans ?_
  generalize Cert.Spec.headOf c = h
  match h with
  | ⟨0, _⟩ => exact h0 _
  | ⟨1, _⟩ => exact h1 _
  | ⟨2, _⟩ => exact h2 _
  | ⟨3, _⟩ => exact h3 _
  | ⟨4, _⟩ => exact h4 _
  | ⟨5, _⟩ => exact h5 _
  | ⟨6, _⟩ => exact h6 _
  | ⟨7, _⟩ => exact h7 _
  | ⟨8, _⟩ => exact h8 _
  | ⟨9, _⟩ => exact h9 _
  | ⟨10, _⟩ => exact h10 _
  | ⟨11, _⟩ => exact h11 _
  | ⟨12, _⟩ => exact h12 _
  | ⟨13, _⟩ => exact h13 _
  | ⟨14, _⟩ => exact h14 _
  | ⟨15, _⟩ => exact h15 _
  | ⟨n + 16, hn⟩ => exact absurd hn (by omega)

/-! ## The stored value -/

set_option maxRecDepth 65536 in
/-- The stored value is the projection of the sixteen printed heads side by side (by unfolding). -/
theorem k1_store_eq (v0 : Vec Ideal S1x256x1024 .bf16) (v2 v4 : Vec Ideal S1x2048x1024 .bf16) (v280 : Vec Ideal S1024x1024 .bf16)
    (v283 : Vec Ideal S1x1024 .f32) :
    k1_store (F := Ideal) v0 v2 v4 v280 v283
      = outS (concatenate S256x1024 1 [⟨S256x64, k1_pay7 (F := Ideal) v0 v2 v4⟩,
          ⟨S256x64, k1_pay11 (F := Ideal) (k1_pay9 v0 v2 v4) (k1_pay10 v0 v2)⟩,
          ⟨S256x64, k1_pay12 (F := Ideal) (k1_pay4 v0) (k1_pay5 v2) (k1_pay6 v4)⟩,
          ⟨S256x64, k1_pay13 (F := Ideal) (k1_pay4 v0) (k1_pay5 v2) (k1_pay6 v4)⟩,
          ⟨S256x64, k1_pay16 (F := Ideal) (k1_pay14 (k1_pay6 v4)) (k1_pay15 (k1_pay4 v0) (k1_pay5 v2))⟩,
          ⟨S256x64, k1_pay17 (F := Ideal) (k1_pay4 v0) (k1_pay5 v2) (k1_pay6 v4)⟩,
          ⟨S256x64, k1_pay18 (F := Ideal) (k1_pay4 v0) (k1_pay5 v2) (k1_pay6 v4)⟩,
          ⟨S256x64, k1_pay21 (F := Ideal) (k1_pay19 (k1_pay6 v4)) (k1_pay20 (k1_pay4 v0) (k1_pay5 v2))⟩,
          ⟨S256x64, k1_pay22 (F := Ideal) (k1_pay4 v0) (k1_pay5 v2) (k1_pay6 v4)⟩,
          ⟨S256x64, k1_pay23 (F := Ideal) (k1_pay4 v0) (k1_pay5 v2) (k1_pay6 v4)⟩,
          ⟨S256x64, k1_pay27 (F := Ideal) (k1_pay24 (k1_pay4 v0)) (k1_pay25 (k1_pay5 v2)) (k1_pay26 (k1_pay6 v4))⟩,
          ⟨S256x64, k1_pay28 (F := Ideal) (k1_pay4 v0) (k1_pay5 v2) (k1_pay6 v4)⟩,
          ⟨S256x64, k1_pay33 (F := Ideal) (k1_pay29 (k1_pay6 v4)) (k1_pay31 (k1_pay4 v0) (k1_pay5 v2)) (k1_pay32 (k1_pay4 v0) (k1_pay5 v2)) (constant S256x64 .f32 0x00000000#32)⟩,
          ⟨S256x64, k1_pay34 (F := Ideal) (k1_pay4 v0) (k1_pay5 v2) (k1_pay6 v4)⟩,
          ⟨S256x64, k1_pay35 (F := Ideal) (k1_pay4 v0) (k1_pay5 v2) (k1_pay6 v4)⟩,
          ⟨S256x64, k1_pay2 (F := Ideal) (exp (k1_pay37 (k1_pay4 v0) (k1_pay5 v2))) (k1_pay1 (k1_pay36 (k1_pay6 v4)) (exp (k1_pay37 (k1_pay4 v0) (k1_pay5 v2))))⟩]
          concatenates_S256x64_S256x64_S256x64_S256x64_S256x64_S256x64_S256x64_S256x64_S256x64_S256x64_S256x64_S256x64_S256x64_S256x64_S256x64_S256x64_S256x1024_d1) v280 v283 := rfl

/-- The stored block at (0, r, e), the three loaded blocks read as matrices. -/
theorem k1_store_apply_mat (v0 : Vec Ideal S1x256x1024 .bf16) (v2 v4 : Vec Ideal S1x2048x1024 .bf16) (v280 : Vec Ideal S1024x1024 .bf16)
    (v283 : Vec Ideal S1x1024 .f32) (r : Fin 256) (e : Fin 1024) :
    k1_store (F := Ideal) v0 v2 v4 v280 v283 (ix3 0 r e)
      = Cert.Spec.outK (fun c => k1_pay4 (F := Ideal) v0 (ix2 r c)) (fun j c => k1_pay5 (F := Ideal) v2 (ix2 j c))
          (fun j c => k1_pay6 (F := Ideal) v4 (ix2 j c)) (fun e c => v280 (ix2 c e)) (fun e => v283 (ix2 0 e)) e := by
  rw [k1_store_eq, outS_apply]
  refine congrArg (fun s : EReal => s + v283 (ix2 0 e)) (Finset.sum_congr rfl fun c _ => ?_)
  refine congrArg (fun a : EReal => a * v280 (ix2 c e)) ?_
  exact concat16_eq _ _ _ _ _ _ _ _ _ _ _ _ _ _ _ _ r c
    (Cert.Spec.attnK (fun c => k1_pay4 (F := Ideal) v0 (ix2 r c)) (fun j c => k1_pay5 (F := Ideal) v2 (ix2 j c))
      (fun j c => k1_pay6 (F := Ideal) v4 (ix2 j c)))
    (fun d => (congrFun (head0_eq v0 v2 v4) (ix2 r d)).trans (head_at 0 0 rfl _ _ _ _ _ _ r d))
    (fun d => (congrFun (head1_eq v0 v2 v4) (ix2 r d)).trans (head_at 1 64 rfl _ _ _ _ _ _ r d))
    (fun d => (congrFun (head2_eq _ _ _) (ix2 r d)).trans (head_at 2 128 rfl _ _ _ _ _ _ r d))
    (fun d => (congrFun (head3_eq _ _ _) (ix2 r d)).trans (head_at 3 192 rfl _ _ _ _ _ _ r d))
    (fun d => (congrFun (head4_eq _ _ _) (ix2 r d)).trans (head_at 4 256 rfl _ _ _ _ _ _ r d))
    (fun d => (congrFun (head5_eq _ _ _) (ix2 r d)).trans (head_at 5 320 rfl _ _ _ _ _ _ r d))
    (fun d => (congrFun (head6_eq _ _ _) (ix2 r d)).trans (head_at 6 384 rfl _ _ _ _ _ _ r d))
    (fun d => (congrFun (head7_eq _ _ _) (ix2 r d)).trans (head_at 7 448 rfl _ _ _ _ _ _ r d))
    (fun d => (congrFun (head8_eq _ _ _) (ix2 r d)).trans (head_at 8 512 rfl _ _ _ _ _ _ r d))
    (fun d => (congrFun (head9_eq _ _ _) (ix2 r d)).trans (head_at 9 576 rfl _ _ _ _ _ _ r d))
    (fun d => (congrFun (head10_eq _ _ _) (ix2 r d)).trans (head_at 10 640 rfl _ _ _ _ _ _ r d))
    (fun d => (congrFun (head11_eq _ _ _) (ix2 r d)).trans (head_at 11 704 rfl _ _ _ _ _ _ r d))
    (fun d => (congrFun (head12_eq _ _ _) (ix2 r d)).trans (head_at 12 768 rfl _ _ _ _ _ _ r d))
    (fun d => (congrFun (head13_eq _ _ _) (ix2 r d)).trans (head_at 13 832 rfl _ _ _ _ _ _ r d))
    (fun d => (congrFun (head14_eq _ _ _) (ix2 r d)).trans (head_at 14 896 rfl _ _ _ _ _ _ r d))
    (fun d => (congrFun (head15_eq _ _ _) (ix2 r d)).trans (head_at 15 960 rfl _ _ _ _ _ _ r d))

end Attn

open Attn in
/-- The stored block at (0, r, e) is the specification's once-divided output entry for query row r. -/
theorem k1_store_apply (v0 : Vec Ideal S1x256x1024 .bf16) (v2 v4 : Vec Ideal S1x2048x1024 .bf16) (v280 : Vec Ideal S1024x1024 .bf16)
    (v283 : Vec Ideal S1x1024 .f32) (r : Fin 256) (e : Fin 1024) :
    k1_store (F := Ideal) v0 v2 v4 v280 v283 (ix3 0 r e)
      = Cert.Spec.outK (fun c => v0 (ix3 0 r c)) (fun j c => v2 (ix3 0 j c)) (fun j c => v4 (ix3 0 j c))
          (fun e c => v280 (ix2 c e)) (fun e => v283 (ix2 0 e)) e := by
  have h := k1_store_apply_mat v0 v2 v4 v280 v283 r e
  rw [show (fun c => k1_pay4 (F := Ideal) v0 (ix2 r c)) = fun c => v0 (ix3 0 r c) from funext (pay4_apply v0 r),
    show (fun j c => k1_pay5 (F := Ideal) v2 (ix2 j c)) = fun j c => v2 (ix3 0 j c) from funext fun j => funext (pay5_apply v2 j),
    show (fun j c => k1_pay6 (F := Ideal) v4 (ix2 j c)) = fun j c => v4 (ix3 0 j c) from funext fun j => funext (pay6_apply v4 j)] at h
  exact h

end Cert.KernelIdeal.Hand

end
-- ==== Proof.Value1.lean ====
/-
  The result array after the second launch, on the extended reals. Grid point (b, s) writes the block of rows
  256·s … 256·s + 255 of batch b; the thirty-two blocks tile the array, so entry (b, r, e) is what the point
  (b, r / 256) stored at row r % 256: the output row of query row (b, r) — columns 0 … 1023 of the fused projection —
  against the batch's key rows (columns 1024 … 2047) and value rows (columns 2048 … 3071), the staged output weights
  and bias (whole arrays, the same at every point).
-/
import proofs.«416334_j66056597012775_3_alg».proof.Proof.Region1
import proofs.«416334_j66056597012775_3_alg».proof.Proof.Store1
import proofs.«416334_j66056597012775_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Spec (band0 band1 band2)

/-! ## Where the windows' blocks sit -/

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices at grid point `t` = 8·b + s: the query window and the output window sit at (b, s, 0), the key
    window at (b, 0, 1), the value window at (b, 0, 2), the weights and the bias at the origin. -/
theorem blockIdx1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 1
    ∧ win1_2.index t (0 : Fin 3) = t.val / 8 ∧ win1_2.index t (1 : Fin 3) = 0 ∧ win1_2.index t (2 : Fin 3) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 8 ∧ win1_5.index t (1 : Fin 3) = t.val % 8 ∧ win1_5.index t (2 : Fin 3) = 0 :=
  (by decide +kernel : ∀ t : Fin grid1.N, _)

variable (V : (c : Dev nD) → (b : Ref sig .tc) → Buf (Elt Ideal) ((c : Thread nD τ).loc b))

/-! ## The input blocks as entries of the arrays -/

/-- The query block at point `t`: rows 256·(t % 8) … of batch t / 8, columns 0 … 1023 of the fused projection. -/
theorem qblk_apply (c : Dev nD) (t : Fin cfg1.N) (bb : Fin 4) (sb : Fin 8) (hb : bb.val = t.val / 8) (hs : sb.val = t.val % 8)
    (r : Fin 256) (k : Fin 1024) :
    (iblk1 (F := Ideal) V c 0 t : Vec Ideal S1x256x1024 .bf16) (ix3 (0 : Fin 1) r k)
      = (V c main_v4 : S4x2048x3072.Idx → EReal) (ix3 bb (⟨256 * sb.val + r.val, by omega⟩ : Fin 2048) (band0 k)) := by
  obtain ⟨f0, f1, f2, -⟩ := blockIdx1 t
  unfold iblk1
  rw [View.read_apply]
  show V c main_v4 _ = V c main_v4 _
  congr 1
  funext a
  apply Fin.ext
  match a with
  | ⟨0, _⟩ => show win1_0.index t (0 : Fin 3) * 1 + 1 * (0 : Nat) = bb.val; omega
  | ⟨1, _⟩ => show win1_0.index t (1 : Fin 3) * 256 + 1 * r.val = 256 * sb.val + r.val; omega
  | ⟨2, _⟩ => show win1_0.index t (2 : Fin 3) * 1024 + 1 * k.val = k.val; omega

/-- The key block at point `t`: all rows of batch t / 8, columns 1024 … 2047. -/
theorem kblk_apply (c : Dev nD) (t : Fin cfg1.N) (bb : Fin 4) (hb : bb.val = t.val / 8) (j : Fin 2048) (k : Fin 1024) :
    (iblk1 (F := Ideal) V c 1 t : Vec Ideal S1x2048x1024 .bf16) (ix3 (0 : Fin 1) j k)
      = (V c main_v4 : S4x2048x3072.Idx → EReal) (ix3 bb j (band1 k)) := by
  obtain ⟨-, -, -, f0, f1, f2, -⟩ := blockIdx1 t
  unfold iblk1
  rw [View.read_apply]
  show V c main_v4 _ = V c main_v4 _
  congr 1
  funext a
  apply Fin.ext
  match a with
  | ⟨0, _⟩ => show win1_1.index t (0 : Fin 3) * 1 + 1 * (0 : Nat) = bb.val; omega
  | ⟨1, _⟩ => show win1_1.index t (1 : Fin 3) * 2048 + 1 * j.val = j.val; omega
  | ⟨2, _⟩ => show win1_1.index t (2 : Fin 3) * 1024 + 1 * k.val = 1024 + k.val; omega

/-- The value block at point `t`: all rows of batch t / 8, columns 2048 … 3071. -/
theorem vblk_apply (c : Dev nD) (t : Fin cfg1.N) (bb : Fin 4) (hb : bb.val = t.val / 8) (j : Fin 2048) (k : Fin 1024) :
    (iblk1 (F := Ideal) V c 2 t : Vec Ideal S1x2048x1024 .bf16) (ix3 (0 : Fin 1) j k)
      = (V c main_v4 : S4x2048x3072.Idx → EReal) (ix3 bb j (band2 k)) := by
  obtain ⟨-, -, -, -, -, -, f0, f1, f2, -⟩ := blockIdx1 t
  unfold iblk1
  rw [View.read_apply]
  show V c main_v4 _ = V c main_v4 _
  congr 1
  funext a
  apply Fin.ext
  match a with
  | ⟨0, _⟩ => show win1_2.index t (0 : Fin 3) * 1 + 1 * (0 : Nat) = bb.val; omega
  | ⟨1, _⟩ => show win1_2.index t (1 : Fin 3) * 2048 + 1 * j.val = j.val; omega
  | ⟨2, _⟩ => show win1_2.index t (2 : Fin 3) * 1024 + 1 * k.val = 2048 + k.val; omega

/-- The weights block at every point is the whole transposed weights array. -/
theorem wblk_apply (c : Dev nD) (t : Fin cfg1.N) (k e : Fin 1024) :
    (iblk1 (F := Ideal) V c 3 t : Vec Ideal S1024x1024 .bf16) (ix2 k e)
      = (V c main_v6 : S1024x1024.Idx → EReal) (ix2 k e) := by
  obtain ⟨-, -, -, -, -, -, -, -, -, f0, f1, -⟩ := blockIdx1 t
  unfold iblk1
  rw [View.read_apply]
  show V c main_v6 _ = V c main_v6 _
  congr 1
  funext a
  apply Fin.ext
  match a with
  | ⟨0, _⟩ => show win1_3.index t (0 : Fin 2) * 1024 + 1 * k.val = k.val; omega
  | ⟨1, _⟩ => show win1_3.index t (1 : Fin 2) * 1024 + 1 * e.val = e.val; omega

/-- The bias block at every point is the whole bias row. -/
theorem bblk_apply (c : Dev nD) (t : Fin cfg1.N) (e : Fin 1024) :
    (iblk1 (F := Ideal) V c 4 t : Vec Ideal S1x1024 .f32) (ix2 (0 : Fin 1) e)
      = (V c main_v7 : S1x1024.Idx → EReal) (ix2 (0 : Fin 1) e) := by
  obtain ⟨-, -, -, -, -, -, -, -, -, -, -, f0, f1, -⟩ := blockIdx1 t
  unfold iblk1
  rw [View.read_apply]
  show V c main_v7 _ = V c main_v7 _
  congr 1
  funext a
  apply Fin.ext
  match a with
  | ⟨0, _⟩ => show win1_4.index t (0 : Fin 2) * 1 + 1 * (0 : Nat) = 0; omega
  | ⟨1, _⟩ => show win1_4.index t (1 : Fin 2) * 1024 + 1 * e.val = e.val; omega

/-! ## What a point stores is a block of one whole-array function -/

/-- The specification's output entry does not see which proofs bound its coordinates. -/
theorem outKQ_congr (Q : Fin 4 → Fin 2048 → Fin 3072 → EReal) (W : Fin 1024 → Fin 1024 → EReal) (B : Fin 1024 → EReal)
    {b b' : Fin 4} {s s' : Fin 2048} {e e' : Fin 1024} (hb : b.val = b'.val) (hs : s.val = s'.val) (he : e.val = e'.val) :
    Cert.Spec.outKQ Q W B b s e = Cert.Spec.outKQ Q W B b' s' e' := by
  obtain rfl := Fin.ext hb; obtain rfl := Fin.ext hs; obtain rfl := Fin.ext he; rfl

/-- The array the launch leaves, as one function of the arrays it was entered with. -/
def outWhole1 (c : Dev nD) : S4x2048x1024.Idx → EReal := fun i =>
  Cert.Spec.outKQ (fun b s e => (V c main_v4 : S4x2048x3072.Idx → EReal) (ix3 b s e))
    (fun e c' => (V c main_v6 : S1024x1024.Idx → EReal) (ix2 c' e))
    (fun e => (V c main_v7 : S1x1024.Idx → EReal) (ix2 0 e))
    (⟨(i 0).val, (i 0).isLt⟩ : Fin 4) (⟨(i 1).val, (i 1).isLt⟩ : Fin 2048) (⟨(i 2).val, (i 2).isLt⟩ : Fin 1024)

/-- The stored block over blocks that read the arrays where the windows sit: row `r` of the block at batch `bb`,
    row block `sb`, is the output row of query row 256·sb + r of the batch. -/
theorem store_apply (v0 : Vec Ideal S1x256x1024 .bf16) (v2 v4 : Vec Ideal S1x2048x1024 .bf16) (v280 : Vec Ideal S1024x1024 .bf16)
    (v283 : Vec Ideal S1x1024 .f32) (A : S4x2048x3072.Idx → EReal) (W : S1024x1024.Idx → EReal) (B : S1x1024.Idx → EReal)
    (bb : Fin 4) (sb : Fin 8)
    (h0 : ∀ (r : Fin 256) (k : Fin 1024), v0 (ix3 (0 : Fin 1) r k) = A (ix3 bb (⟨256 * sb.val + r.val, by omega⟩ : Fin 2048) (band0 k)))
    (h2 : ∀ (j : Fin 2048) (k : Fin 1024), v2 (ix3 (0 : Fin 1) j k) = A (ix3 bb j (band1 k)))
    (h4 : ∀ (j : Fin 2048) (k : Fin 1024), v4 (ix3 (0 : Fin 1) j k) = A (ix3 bb j (band2 k)))
    (h280 : ∀ k e : Fin 1024, v280 (ix2 k e) = W (ix2 k e))
    (h283 : ∀ e : Fin 1024, v283 (ix2 (0 : Fin 1) e) = B (ix2 (0 : Fin 1) e))
    (r : Fin 256) (e : Fin 1024) :
    k1_store (F := Ideal) v0 v2 v4 v280 v283 (ix3 (0 : Fin 1) r e)
      = Cert.Spec.outKQ (fun b s e => A (ix3 b s e)) (fun e c' => W (ix2 c' e)) (fun e => B (ix2 (0 : Fin 1) e))
          bb (⟨256 * sb.val + r.val, by omega⟩ : Fin 2048) e := by
  rw [k1_store_apply]
  unfold Cert.Spec.outKQ
  rw [show (fun c => v0 (ix3 (0 : Fin 1) r c)) = fun c => A (ix3 bb (⟨256 * sb.val + r.val, by omega⟩ : Fin 2048) (band0 c)) from
      funext fun c => h0 r c,
    show (fun j c => v2 (ix3 (0 : Fin 1) j c)) = fun j c => A (ix3 bb j (band1 c)) from funext fun j => funext fun c => h2 j c,
    show (fun j c => v4 (ix3 (0 : Fin 1) j c)) = fun j c => A (ix3 bb j (band2 c)) from funext fun j => funext fun c => h4 j c,
    show (fun e c => v280 (ix2 c e)) = fun e c => W (ix2 c e) from funext fun e => funext fun c => h280 c e,
    show (fun e => v283 (ix2 (0 : Fin 1) e)) = fun e => B (ix2 (0 : Fin 1) e) from funext fun e => h283 e]

/-- What point `t` stores, at an index of its block, is the whole-array function at that index's place in the array. -/
theorem point_apply (c : Dev nD) (t : Fin cfg1.N) (j : S1x256x1024.Idx) :
    k1_store (F := Ideal) (iblk1 V c 0 t) (iblk1 V c 1 t) (iblk1 V c 2 t) (iblk1 V c 3 t) (iblk1 V c 4 t) j
      = outWhole1 V c (((cfg1.win 5).blk t).view.emb j) := by
  obtain ⟨a, r, e, rfl⟩ : ∃ (a : Fin 1) (r : Fin 256) (e : Fin 1024), j = ix3 a r e := ⟨j 0, j 1, j 2, eq_ix3 j⟩
  obtain rfl : a = 0 := Subsingleton.elim _ _
  have hN : t.val < 32 := lt_of_lt_of_eq t.isLt N_1
  have f := blockIdx1 t
  refine (store_apply (iblk1 V c 0 t) (iblk1 V c 1 t) (iblk1 V c 2 t) (iblk1 V c 3 t) (iblk1 V c 4 t)
    (V c main_v4) (V c main_v6) (V c main_v7) (⟨t.val / 8, by omega⟩ : Fin 4) (⟨t.val % 8, by omega⟩ : Fin 8)
    (fun r k => qblk_apply V c t _ _ rfl rfl r k) (fun j k => kblk_apply V c t _ rfl j k) (fun j k => vblk_apply V c t _ rfl j k)
    (fun k e => wblk_apply V c t k e) (fun e => bblk_apply V c t e) r e).trans ?_
  unfold outWhole1
  refine outKQ_congr _ _ _ ?_ ?_ ?_
  · show t.val / 8 = win1_5.index t (0 : Fin 3) * 1 + 1 * (0 : Nat); omega
  · show 256 * (t.val % 8) + r.val = win1_5.index t (1 : Fin 3) * 256 + 1 * r.val; omega
  · show e.val = win1_5.index t (2 : Fin 3) * 1024 + 1 * e.val; omega

/-- What point `t` writes back is block `t` of the whole-array function. -/
theorem flushed1_eq (c : Dev nD) (t : Fin cfg1.N) :
    (dat1 (F := Ideal) V c).flushed 5 t = ((cfg1.win 5).blk t).view.read (Elt Ideal) (outWhole1 V c) := by
  show (cfg1.win 5).cut (grid1.coords t) ((dat1 (F := Ideal) V c).after 5 t) = _
  rw [after1_5]
  unfold out1_5
  rw [View.canon_unit_zero zero3]
  simp only [View.ld_unit_zero (S := S1x256x1024) zero3, View.ld_unit_zero (S := S1x2048x1024) zero3,
    View.ld_unit_zero (S := S1024x1024) zero2, View.ld_unit_zero (S := S1x1024) zero2]
  funext j
  exact point_apply V c t j

/-! ## The blocks tile the array -/

/-- An index of the array is in point `t`'s block iff each coordinate is in the block's range on its axis. -/
theorem mem_blk1 (t : Fin cfg1.N) (i : S4x2048x1024.Idx) :
    i ∈ ((cfg1.win 5).blk t).view.set ↔ ∀ a : Fin 3, win1_5.index t a * S1x256x1024.size a ≤ (i a).val
      ∧ (i a).val < win1_5.index t a * S1x256x1024.size a + S1x256x1024.size a := by
  show i ∈ ((View.whole main_v8).slice (win1_5.rect t)).set ↔ _
  rw [View.set_slice_whole, Rect.mem_set_unit]
  exact Iff.rfl

/-- Row `r` of batch `b` is in the block of point 8·b + r / 256. -/
theorem cover1 (i : S4x2048x1024.Idx) :
    ∃ t : Fin cfg1.N, (cfg1.win 5).flush t = true ∧ i ∈ ((cfg1.win 5).blk t).view.set := by
  have h0 : (i 0).val < 4 := (i 0).isLt
  have h1 : (i 1).val < 2048 := (i 1).isLt
  have h2 : (i 2).val < 1024 := (i 2).isLt
  let t : Fin cfg1.N := ⟨8 * (i 0).val + (i 1).val / 256, by rw [show cfg1.N = 32 from N_1]; omega⟩
  have ht : t.val = 8 * (i 0).val + (i 1).val / 256 := rfl
  obtain ⟨-, -, -, -, -, -, -, -, -, -, -, -, -, f0, f1, f2⟩ := blockIdx1 t
  refine ⟨t, flush1_5 t, ?_⟩
  rw [mem_blk1]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- So the array ends holding the whole-array function. -/
theorem out_arr_eq (c : Dev nD) : (dat1 (F := Ideal) V c).arrAt 5 cfg1.N = outWhole1 V c :=
  (dat1 (F := Ideal) V c).arrAt_eq_of_cover 5 (outWhole1 V c) (fun t _ => flushed1_eq V c t) cover1

/-- Entry (b, s, e) of the array the second launch leaves is the specification's once-divided output entry off the
    arrays it was entered with: the fused projection `main_v4`, transposed output weights `main_v6`, bias row `main_v7`. -/
theorem out_arr_apply (c : Dev nD) (b : Fin 4) (s : Fin 2048) (e : Fin 1024) :
    ((dat1 (F := Ideal) V c).arrAt 5 cfg1.N : S4x2048x1024.Idx → EReal) (ix3 b s e)
      = Cert.Spec.outKQ (fun b s e => (V c main_v4 : S4x2048x3072.Idx → EReal) (ix3 b s e))
          (fun e c' => (V c main_v6 : S1024x1024.Idx → EReal) (ix2 c' e))
          (fun e => (V c main_v7 : S1x1024.Idx → EReal) (ix2 0 e)) b s e := by
  rw [out_arr_eq V c]
  rfl

end Cert.KernelIdeal.Hand

end
-- ==== Proof.RefQkv.lean ====
/-
  The reference's fused projection, read at an index: the value its first twenty operations leave (squares, the row
  sum, the quotient by 1024, plus the constant, the reciprocal root, the two products, the contraction with the
  weight matrix over the 1024 columns, plus the broadcast bias) is `Spec.qkv` of the argument arrays.
-/
import proofs.«416334_j66056597012775_3_alg».proof.Proof.Gen.ReferenceIdeal.Read
import proofs.«416334_j66056597012775_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## The index maps at explicit coordinates -/

/-- The row sum at (b, s) reads column k of row (b, s). -/
theorem idx_v1_ix (b : Fin 4) (s : Fin 2048) (k : Fin 1024) : idx_main_v1 (ix2 b s) k = ix3 b s k :=
  funext fun a => Fin.ext (by match a with | ⟨0, _⟩ => rfl | ⟨1, _⟩ => rfl | ⟨2, _⟩ => rfl)

/-- The row statistic kept with a unit last axis reads the statistic of row (b, s). -/
theorem idx_v2_ix (b : Fin 4) (s : Fin 2048) (c : Fin 1) : idx_main_v2 (ix3 b s c) = ix2 b s :=
  funext fun a => Fin.ext (by match a with | ⟨0, _⟩ => rfl | ⟨1, _⟩ => rfl)

/-- The statistic broadcast along the columns reads the unit-axis entry of row (b, s). -/
theorem idx_v8_ix (b : Fin 4) (s : Fin 2048) (d : Fin 1024) : idx_main_v8 (ix3 b s d) = ix3 b s (0 : Fin 1) :=
  funext fun a => Fin.ext (by match a with | ⟨0, _⟩ => rfl | ⟨1, _⟩ => rfl | ⟨2, _⟩ => rfl)

/-- The norm weight broadcast over rows reads column d. -/
theorem idx_v11_ix (b : Fin 4) (s : Fin 2048) (d : Fin 1024) :
    idx_main_v11 (ix3 b s d) = ix3 (0 : Fin 1) (0 : Fin 1) d :=
  funext fun a => Fin.ext (by match a with | ⟨0, _⟩ => rfl | ⟨1, _⟩ => rfl | ⟨2, _⟩ => rfl)

theorem idx_v10_ix (p q : Fin 1) (d : Fin 1024) : idx_main_v10 (ix3 p q d) = ix1 d :=
  funext fun a => Fin.ext (by match a with | ⟨0, _⟩ => rfl)

/-- The contraction at (b, s, e) pairs column k of row (b, s) with column k of weight row e. -/
theorem lidx_v13_ix (b : Fin 4) (s : Fin 2048) (e : Fin 3072) (k : Fin 1024) :
    lidx_main_v13 (ix3 b s e) k = ix3 b s k :=
  funext fun a => Fin.ext (by match a with | ⟨0, _⟩ => rfl | ⟨1, _⟩ => rfl | ⟨2, _⟩ => rfl)

theorem ridx_v13_ix (b : Fin 4) (s : Fin 2048) (e : Fin 3072) (k : Fin 1024) :
    ridx_main_v13 (ix3 b s e) k = ix2 e k :=
  funext fun a => Fin.ext (by match a with | ⟨0, _⟩ => rfl | ⟨1, _⟩ => rfl)

/-- The bias broadcast over rows reads entry e. -/
theorem idx_v15_ix (b : Fin 4) (s : Fin 2048) (e : Fin 3072) :
    idx_main_v15 (ix3 b s e) = ix3 (0 : Fin 1) (0 : Fin 1) e :=
  funext fun a => Fin.ext (by match a with | ⟨0, _⟩ => rfl | ⟨1, _⟩ => rfl | ⟨2, _⟩ => rfl)

theorem idx_v14_ix (p q : Fin 1) (e : Fin 3072) : idx_main_v14 (ix3 p q e) = ix1 e :=
  funext fun a => Fin.ext (by match a with | ⟨0, _⟩ => rfl)

/-! ## The stages -/

/-- The row sum of squares: zero plus the sum over the 1024 columns of the entry times itself. -/
theorem v1_apply (x0 : (⟨S4x2048x1024, .f32⟩ : BufTy).Contents (Elt Ideal)) (b : Fin 4) (s : Fin 2048) :
    val_main_v1 (F := Ideal) x0 (ix2 b s) = ∑ d : Fin 1024, x0 (ix3 b s d) * x0 (ix3 b s d) := by
  rw [val_main_v1_apply, val_main_cst_apply, Ideal.ofBits_def, Ideal.ofBits_zero_f32, zero_add]
  refine Finset.sum_congr rfl fun k _ => ?_
  rw [idx_v1_ix, val_main_v0_apply, Ideal.mulf_def]

/-- The reciprocal root of the mean square plus the constant, at any entry of row (b, s). -/
theorem v7_apply (x0 : (⟨S4x2048x1024, .f32⟩ : BufTy).Contents (Elt Ideal)) (b : Fin 4) (s : Fin 2048) (c : Fin 1) :
    val_main_v7 (F := Ideal) x0 (ix3 b s c) = Cert.Spec.inv (fun b s d => x0 (ix3 b s d)) b s := by
  rw [val_main_v7_apply, val_main_v6_apply, val_main_v4_apply, val_main_v2_apply, val_main_v3_apply, val_main_v5_apply,
    val_main_cst_0_apply, val_main_cst_1_apply, idx_v2_ix, v1_apply]
  simp only [Ideal.hostUnary_rsqrt_def, Ideal.addf_def, Ideal.hostDivf_def, Ideal.ofBits_def]
  rfl

/-- The normalised row entry: the entry times the row's reciprocal root times the norm weight. -/
theorem v12_apply (x0 : (⟨S4x2048x1024, .f32⟩ : BufTy).Contents (Elt Ideal)) (x3 : (⟨S1024, .f32⟩ : BufTy).Contents (Elt Ideal))
    (b : Fin 4) (s : Fin 2048) (d : Fin 1024) :
    val_main_v12 (F := Ideal) x0 x3 (ix3 b s d)
      = Cert.Spec.xn (fun b s d => x0 (ix3 b s d)) (fun d => x3 (ix1 d)) b s d := by
  rw [val_main_v12_apply, val_main_v9_apply, val_main_v8_apply, val_main_v11_apply, val_main_v10_apply,
    idx_v8_ix, idx_v11_ix, idx_v10_ix, v7_apply]
  simp only [Ideal.mulf_def]
  rfl

/-- The reference's projection stage at (b, s, e) is the specification's. -/
theorem qkv_apply (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024, .f32⟩ : BufTy).Contents (Elt Ideal))
    (b : Fin 4) (s : Fin 2048) (e : Fin 3072) :
    val_main_v16 (F := Ideal) x0 x1 x2 x3 (ix3 b s e)
      = Cert.Spec.qkv (fun b s d => x0 (ix3 b s d)) (fun e d => x1 (ix2 e d)) (fun e => x2 (ix1 e)) (fun d => x3 (ix1 d)) b s e := by
  rw [val_main_v16_apply, val_main_v13_apply, val_main_v15_apply, val_main_v14_apply, idx_v15_ix, idx_v14_ix,
    Ideal.addf_def]
  unfold Cert.Spec.qkv
  refine congrArg (· + x2 (ix1 e)) (Finset.sum_congr rfl fun k _ => ?_)
  rw [lidx_v13_ix, ridx_v13_ix, v12_apply]

end Cert.ReferenceIdeal.RefValue

end
-- ==== Proof.RefAttn.lean ====
/-
  The reference's attention and output projection, read at an index over its projection stage: the three bands
  sliced out of the fused projection and split into sixteen heads, the scores' contraction over a head's 64 columns
  scaled by 1/8, the row maximum (a fold of `max` from -∞, then `max` with -∞ once more), the exponentials of
  the shifted scores, their sum, every weight divided by it, the contraction with the value rows, the heads laid
  side by side again, the contraction with the output weights over the 1024 columns, plus the broadcast bias.
-/
import proofs.«416334_j66056597012775_3_alg».proof.Proof.Gen.ReferenceIdeal.Read
import proofs.«416334_j66056597012775_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open Cert.Spec (band0 band1 band2 hcol headOf withinHead)

/-! ## The composed index functions at explicit coordinates -/

/-- Splitting a band's 1024 columns into sixteen heads of 64: entry (b, s, h, d) is column `64·h + d` of row (b, s). -/
theorem idx20 (b : Fin 4) (s : Fin 2048) (h : Fin 16) (d : Fin 64) :
    idx_main_v20 (ix4 b s h d) = ix3 b s (hcol h d) :=
  funext fun a => Fin.ext (by
    have hb := b.isLt; have hs := s.isLt; have hh := h.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = 64 * h.val + d.val; omega)

/-- Swapping the row and head axes. -/
theorem idx21 (b : Fin 4) (h : Fin 16) (s : Fin 2048) (d : Fin 64) :
    idx_main_v21 (ix4 b h s d) = ix4 b s h d :=
  funext fun a => Fin.ext (by match a with | ⟨0, _⟩ => rfl | ⟨1, _⟩ => rfl | ⟨2, _⟩ => rfl | ⟨3, _⟩ => rfl)

/-- Laying the sixteen heads side by side again: column `c` is entry `c % 64` of head `c / 64`. -/
theorem idx42 (b : Fin 4) (s : Fin 2048) (c : Fin 1024) :
    idx_main_v42 (ix3 b s c) = ix4 b s (headOf c) (withinHead c) :=
  funext fun a => Fin.ext (by
    have hb := b.isLt; have hs := s.isLt; have hc := c.isLt
    match a with
    | ⟨0, _⟩ => show ((b.val * 2048 + s.val) * 1024 + c.val) / 2097152 = b.val; omega
    | ⟨1, _⟩ => show ((b.val * 2048 + s.val) * 1024 + c.val) / 1024 % 2048 = s.val; omega
    | ⟨2, _⟩ => show ((b.val * 2048 + s.val) * 1024 + c.val) / 64 % 16 = c.val / 64; omega
    | ⟨3, _⟩ => show ((b.val * 2048 + s.val) * 1024 + c.val) % 64 = c.val % 64; omega)

/-- A column is column `c % 64` of head `c / 64`. -/
theorem hcol_head (c : Fin 1024) : hcol (headOf c) (withinHead c) = c :=
  Fin.ext (by show 64 * (c.val / 64) + c.val % 64 = c.val; omega)

/-- The reduced index (b, h, s) with coordinate `k` put back on the last axis is (b, h, s, k). -/
theorem lift29 (hr : S4x16x2048x2048.Reduces [3] S4x16x2048) (b : Fin 4) (h : Fin 16) (s : Fin 2048)
    (k : Fin (S4x16x2048x2048.size 3)) : hr.lift (ix3 b h s) k = ix4 b h s (⟨k.val, k.isLt⟩ : Fin 2048) := by
  funext c; apply Fin.ext
  fin_cases c <;> rfl

/-- The pattern of -∞ denotes the least extended real. -/
theorem ofBits_negInf : Ideal.ofBits .f32 0xFF800000#32 = (⊥ : EReal) := by simp [Ideal.ofBits, Ideal.ieee]

/-! ## The stages over a reading `Q` of the projection -/

section Stages

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024, .f32⟩ : BufTy).Contents (Elt Ideal))
  (Q : Fin 4 → Fin 2048 → Fin 3072 → EReal)
  (hQ : ∀ b s e, val_main_v16 (F := Ideal) x0 x1 x2 x3 (ix3 b s e) = Q b s e)
include hQ

/-- The query band: the projection's first 1024 columns. -/
theorem band0_apply (b : Fin 4) (s : Fin 2048) (c : Fin 1024) :
    val_main_v17 (F := Ideal) x0 x1 x2 x3 (ix3 b s c) = Q b s (band0 c) := by
  rw [val_main_v17_apply, show idx_main_v17 (ix3 b s c) = ix3 b s (band0 c) from
    funext fun a => Fin.ext (by match a with | ⟨0, _⟩ => rfl | ⟨1, _⟩ => rfl | ⟨2, _⟩ => rfl), hQ]

/-- The key band: the next 1024 columns. -/
theorem band1_apply (b : Fin 4) (s : Fin 2048) (c : Fin 1024) :
    val_main_v18 (F := Ideal) x0 x1 x2 x3 (ix3 b s c) = Q b s (band1 c) := by
  rw [val_main_v18_apply, show idx_main_v18 (ix3 b s c) = ix3 b s (band1 c) from
    funext fun a => Fin.ext (by match a with | ⟨0, _⟩ => rfl | ⟨1, _⟩ => rfl | ⟨2, _⟩ => rfl), hQ]

/-- The value band: the last 1024 columns. -/
theorem band2_apply (b : Fin 4) (s : Fin 2048) (c : Fin 1024) :
    val_main_v19 (F := Ideal) x0 x1 x2 x3 (ix3 b s c) = Q b s (band2 c) := by
  rw [val_main_v19_apply, show idx_main_v19 (ix3 b s c) = ix3 b s (band2 c) from
    funext fun a => Fin.ext (by match a with | ⟨0, _⟩ => rfl | ⟨1, _⟩ => rfl | ⟨2, _⟩ => rfl), hQ]

/-- The queries by head: entry (b, h, s, d) is column `64·h + d` of the query band's row (b, s). -/
theorem qh_apply (b : Fin 4) (h : Fin 16) (s : Fin 2048) (d : Fin 64) :
    val_main_v21 (F := Ideal) x0 x1 x2 x3 (ix4 b h s d) = Q b s (band0 (hcol h d)) := by
  rw [val_main_v21_apply, idx21, val_main_v20_apply, idx20, band0_apply x0 x1 x2 x3 Q hQ]

/-- The keys by head. -/
theorem kh_apply (b : Fin 4) (h : Fin 16) (s : Fin 2048) (d : Fin 64) :
    val_main_v23 (F := Ideal) x0 x1 x2 x3 (ix4 b h s d) = Q b s (band1 (hcol h d)) := by
  rw [val_main_v23_apply, show idx_main_v23 (ix4 b h s d) = ix4 b s h d from idx21 b h s d, val_main_v22_apply,
    show idx_main_v22 (ix4 b s h d) = ix3 b s (hcol h d) from idx20 b s h d, band1_apply x0 x1 x2 x3 Q hQ]

/-- The values by head. -/
theorem vh_apply (b : Fin 4) (h : Fin 16) (s : Fin 2048) (d : Fin 64) :
    val_main_v25 (F := Ideal) x0 x1 x2 x3 (ix4 b h s d) = Q b s (band2 (hcol h d)) := by
  rw [val_main_v25_apply, show idx_main_v25 (ix4 b h s d) = ix4 b s h d from idx21 b h s d, val_main_v24_apply,
    show idx_main_v24 (ix4 b s h d) = ix3 b s (hcol h d) from idx20 b s h d, band2_apply x0 x1 x2 x3 Q hQ]

/-- The scaled scores: row `s` against key row `j` in head `h`, contracted over the head's 64 columns, times 1/8. -/
theorem score_apply (b : Fin 4) (h : Fin 16) (s j : Fin 2048) :
    val_main_v28 (F := Ideal) x0 x1 x2 x3 (ix4 b h s j)
      = Cert.Spec.score (fun c => Q b s (band0 c)) (fun j c => Q b j (band1 c)) h j := by
  rw [val_main_v28_apply, val_main_v26_apply, val_main_v27_apply, val_main_cst_2_apply]
  unfold Cert.Spec.score Cert.Spec.scale
  simp only [Ideal.mulf_def, Ideal.ofBits_def]
  refine congrArg (· * _) (Finset.sum_congr rfl fun k _ => ?_)
  rw [show lidx_main_v26 (ix4 b h s j) k = ix4 b h s k from
      funext fun a => Fin.ext (by match a with | ⟨0, _⟩ => rfl | ⟨1, _⟩ => rfl | ⟨2, _⟩ => rfl | ⟨3, _⟩ => rfl),
    show ridx_main_v26 (ix4 b h s j) k = ix4 b h j k from
      funext fun a => Fin.ext (by match a with | ⟨0, _⟩ => rfl | ⟨1, _⟩ => rfl | ⟨2, _⟩ => rfl | ⟨3, _⟩ => rfl),
    qh_apply x0 x1 x2 x3 Q hQ, kh_apply x0 x1 x2 x3 Q hQ]

/-- The fold of `max` from -∞ over the key rows' scores. -/
theorem rowmax_apply (b : Fin 4) (h : Fin 16) (s : Fin 2048) :
    val_main_v29 (F := Ideal) x0 x1 x2 x3 (ix3 b h s)
      = Cert.Spec.smax (fun c => Q b s (band0 c)) (fun j c => Q b j (band1 c)) h := by
  have hr : S4x16x2048x2048.Reduces [3] S4x16x2048 := by decide
  unfold val_main_v29
  rw [Host.reduce_eq_fold_single FloatOps.maximumf _ _ reducesTo_S4x16x2048x2048_S4x16x2048_d3 hr h_S_,
    val_main_cst_3_apply, Ideal.ofBits_def, ofBits_negInf]
  have hf : (val_main_v28 (F := Ideal) x0 x1 x2 x3 ∘ hr.lift (ix3 b h s))
      = fun j : Fin 2048 => Cert.Spec.score (fun c => Q b s (band0 c)) (fun j c => Q b j (band1 c)) h j :=
    funext fun k => by
      show val_main_v28 (F := Ideal) x0 x1 x2 x3 (hr.lift (ix3 b h s) k) = _
      rw [lift29, score_apply x0 x1 x2 x3 Q hQ]
      rfl
  exact congrArg (fun f => Finset.fold max (⊥ : EReal) f (Finset.univ : Finset (Fin 2048))) hf

/-- The row maximum: `max` with -∞ once more changes nothing. -/
theorem smax_apply (b : Fin 4) (h : Fin 16) (s : Fin 2048) :
    val_main_v31 (F := Ideal) x0 x1 x2 x3 (ix3 b h s)
      = Cert.Spec.smax (fun c => Q b s (band0 c)) (fun j c => Q b j (band1 c)) h := by
  rw [val_main_v31_apply, val_main_v30_apply, val_main_cst_4_apply, Ideal.maximumf_def, Ideal.ofBits_def, ofBits_negInf,
    max_eq_right bot_le, rowmax_apply x0 x1 x2 x3 Q hQ]

/-- The unnormalised weights: the exponentials of the scores shifted by the row maximum. -/
theorem wgt_apply (b : Fin 4) (h : Fin 16) (s j : Fin 2048) :
    val_main_v35 (F := Ideal) x0 x1 x2 x3 (ix4 b h s j)
      = Cert.Spec.wgt (fun c => Q b s (band0 c)) (fun j c => Q b j (band1 c)) h j := by
  rw [val_main_v35_apply, val_main_v34_apply, val_main_v33_apply, val_main_v32_apply,
    show idx_main_v32 (idx_main_v33 (ix4 b h s j)) = ix3 b h s from
      funext fun a => Fin.ext (by match a with | ⟨0, _⟩ => rfl | ⟨1, _⟩ => rfl | ⟨2, _⟩ => rfl),
    score_apply x0 x1 x2 x3 Q hQ, smax_apply x0 x1 x2 x3 Q hQ, Ideal.hostUnary_exp_def, Ideal.subf_def]
  rfl

/-- The sum of a row's weights. -/
theorem den_apply (b : Fin 4) (h : Fin 16) (s : Fin 2048) :
    val_main_v36 (F := Ideal) x0 x1 x2 x3 (ix3 b h s)
      = Cert.Spec.den (fun c => Q b s (band0 c)) (fun j c => Q b j (band1 c)) h := by
  rw [val_main_v36_apply, val_main_cst_5_apply, Ideal.ofBits_def, Ideal.ofBits_zero_f32, zero_add]
  unfold Cert.Spec.den
  refine Finset.sum_congr rfl fun k _ => ?_
  rw [show idx_main_v36 (ix3 b h s) k = ix4 b h s k from
      funext fun a => Fin.ext (by match a with | ⟨0, _⟩ => rfl | ⟨1, _⟩ => rfl | ⟨2, _⟩ => rfl | ⟨3, _⟩ => rfl),
    wgt_apply x0 x1 x2 x3 Q hQ]

/-- One head's attention entry: every weight divided by the row's sum, then contracted with the value rows. -/
theorem attn_apply (b : Fin 4) (h : Fin 16) (s : Fin 2048) (d : Fin 64) :
    val_main_v40 (F := Ideal) x0 x1 x2 x3 (ix4 b h s d)
      = Cert.Spec.attnR (fun c => Q b s (band0 c)) (fun j c => Q b j (band1 c)) (fun j c => Q b j (band2 c)) h d := by
  rw [val_main_v40_apply]
  unfold Cert.Spec.attnR
  refine Finset.sum_congr rfl fun k _ => ?_
  rw [show lidx_main_v40 (ix4 b h s d) k = ix4 b h s k from
      funext fun a => Fin.ext (by match a with | ⟨0, _⟩ => rfl | ⟨1, _⟩ => rfl | ⟨2, _⟩ => rfl | ⟨3, _⟩ => rfl),
    show ridx_main_v40 (ix4 b h s d) k = ix4 b h k d from
      funext fun a => Fin.ext (by match a with | ⟨0, _⟩ => rfl | ⟨1, _⟩ => rfl | ⟨2, _⟩ => rfl | ⟨3, _⟩ => rfl),
    val_main_v39_apply, val_main_v38_apply, val_main_v37_apply,
    show idx_main_v37 (idx_main_v38 (ix4 b h s k)) = ix3 b h s from
      funext fun a => Fin.ext (by match a with | ⟨0, _⟩ => rfl | ⟨1, _⟩ => rfl | ⟨2, _⟩ => rfl),
    wgt_apply x0 x1 x2 x3 Q hQ, den_apply x0 x1 x2 x3 Q hQ, vh_apply x0 x1 x2 x3 Q hQ, Ideal.hostDivf_def]

/-- The heads side by side: column `c` of row (b, s) is entry `c % 64` of head `c / 64`. -/
theorem heads_apply (b : Fin 4) (s : Fin 2048) (c : Fin 1024) :
    val_main_v42 (F := Ideal) x0 x1 x2 x3 (ix3 b s c)
      = Cert.Spec.attnR (fun c => Q b s (band0 c)) (fun j c => Q b j (band1 c)) (fun j c => Q b j (band2 c)) (headOf c) (withinHead c) := by
  rw [val_main_v42_apply, idx42, val_main_v41_apply,
    show idx_main_v41 (ix4 b s (headOf c) (withinHead c)) = ix4 b (headOf c) s (withinHead c) from
      funext fun a => Fin.ext (by match a with | ⟨0, _⟩ => rfl | ⟨1, _⟩ => rfl | ⟨2, _⟩ => rfl | ⟨3, _⟩ => rfl),
    attn_apply x0 x1 x2 x3 Q hQ]

end Stages

/-- The reference's result at (b, s, e), over ANY reading `Q` of its projection stage, is the softmax-weighted
    output entry of the specification. -/
theorem out_apply (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (Q : Fin 4 → Fin 2048 → Fin 3072 → EReal)
    (hQ : ∀ b s e, val_main_v16 (F := Ideal) x0 x1 x2 x3 (ix3 b s e) = Q b s e)
    (b : Fin 4) (s : Fin 2048) (e : Fin 1024) :
    val_main_v46 (F := Ideal) x0 x1 x2 x3 x4 x5 (ix3 b s e)
      = Cert.Spec.outRQ Q (fun e c => x4 (ix2 e c)) (fun e => x5 (ix1 e)) b s e := by
  rw [val_main_v46_apply, val_main_v43_apply, val_main_v45_apply, val_main_v44_apply,
    show idx_main_v44 (idx_main_v45 (ix3 b s e)) = ix1 e from
      funext fun a => Fin.ext (by match a with | ⟨0, _⟩ => rfl), Ideal.addf_def]
  unfold Cert.Spec.outRQ Cert.Spec.outR
  refine congrArg (· + _) (Finset.sum_congr rfl fun k _ => ?_)
  rw [show lidx_main_v43 (ix3 b s e) k = ix3 b s k from
      funext fun a => Fin.ext (by match a with | ⟨0, _⟩ => rfl | ⟨1, _⟩ => rfl | ⟨2, _⟩ => rfl),
    show ridx_main_v43 (ix3 b s e) k = ix2 e k from
      funext fun a => Fin.ext (by match a with | ⟨0, _⟩ => rfl | ⟨1, _⟩ => rfl),
    heads_apply x0 x1 x2 x3 Q hQ]

end Cert.ReferenceIdeal.RefValue

end
-- ==== Proof.Algebra.lean ====
/-
  The one law between the two programs: dividing a weighted sum once by the sum of the weights is dividing every
  weight first, when the scores are finite. For a finite query row and finite key rows a head's scores are real, so
  is their maximum; every weight `exp (score - max)` is then a positive real and so is the weights' sum `den`.
  Division by a positive real is multiplication by a nonnegative real, which distributes over extended-real sums
  and commutes with the other factor. Also here: the fused projection of finite inputs is finite (the mean square
  is a nonnegative real, plus a positive constant it is positive, its reciprocal root real; sums and products of
  reals are real).
-/
import proofs.«416334_j66056597012775_3_alg».proof.Proof.Spec
import Idealize.ShloMosaic.PureOps.Ideal.Laws
import Mathlib.Data.EReal.Operations
import Mathlib.Data.EReal.Inv

noncomputable section

namespace Cert.Spec

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from `⊥` over a nonempty family of reals is a real. -/
theorem fold_max_coe {ι : Type*} {s : Finset ι} (hs : s.Nonempty) (f : ι → ℝ) :
    ∃ m : ℝ, s.fold max ⊥ (fun i => (f i : EReal)) = (m : EReal) := by
  induction hs using Finset.Nonempty.cons_induction with
  | singleton a => exact ⟨f a, by rw [Finset.fold_singleton, max_bot_right]⟩
  | cons a s ha hs ih =>
    obtain ⟨m, hm⟩ := ih
    exact ⟨max (f a) m, by rw [Finset.fold_cons, hm, EReal.coe_strictMono.monotone.map_max]⟩

/-- The row length is the real 1024. -/
theorem c1024_eq : c1024 = ((1024 : ℝ) : EReal) := by
  unfold c1024
  simp [Ideal.ofBits, Ideal.ieee, -EReal.coe_mul]; norm_num

/-- The score scale is the real 1/8. -/
theorem scale_eq : scale = ((1 / 8 : ℝ) : EReal) := by
  unfold scale
  simp [Ideal.ofBits, Ideal.ieee, -EReal.coe_mul]; norm_num

/-- The additive constant is a positive real. -/
theorem eps_pos : ∃ r : ℝ, 0 < r ∧ eps = (r : EReal) := by
  unfold eps
  refine ⟨((2 ^ 23 + 2606508 : ℕ) : ℝ) * (2 : ℝ) ^ ((110 : ℤ) - 127 - 23), by positivity, ?_⟩
  simp [Ideal.ofBits, Ideal.ieee, -EReal.coe_mul]

/-- The fused projection of finite inputs is finite. -/
theorem qkv_finite (x : Fin 4 → Fin 2048 → Fin 1024 → EReal) (win : Fin 3072 → Fin 1024 → EReal) (bin : Fin 3072 → EReal)
    (wn : Fin 1024 → EReal) (hx : ∀ b s d, ∃ r : ℝ, x b s d = (r : EReal)) (hwin : ∀ e d, ∃ r : ℝ, win e d = (r : EReal))
    (hbin : ∀ e, ∃ r : ℝ, bin e = (r : EReal)) (hwn : ∀ d, ∃ r : ℝ, wn d = (r : EReal)) :
    ∀ b s e, ∃ r : ℝ, qkv x win bin wn b s e = (r : EReal) := by
  choose xr hxr using hx
  choose wr hwr using hwin
  choose br hbr using hbin
  choose nr hnr using hwn
  obtain ⟨ε, hε, heps⟩ := eps_pos
  intro b s e
  obtain ⟨ir, hir⟩ : ∃ r : ℝ, inv x b s = (r : EReal) := by
    unfold inv
    simp only [hxr, ← EReal.coe_mul, ← coe_sum, c1024_eq, heps]
    rw [Ideal.div_coe (by norm_num), ← EReal.coe_mul, ← EReal.coe_add, Ideal.rsqrt_coe]
    have hpos : 0 < (∑ d, xr b s d * xr b s d) * (1 / 1024) + ε := by
      have : 0 ≤ ∑ d, xr b s d * xr b s d := Finset.sum_nonneg (fun d _ => mul_self_nonneg _)
      positivity
    rw [if_neg (not_lt.mpr hpos.le), if_neg hpos.ne']
    exact ⟨_, rfl⟩
  unfold qkv xn
  simp only [hxr, hwr, hbr, hnr, hir, ← EReal.coe_mul, ← coe_sum, ← EReal.coe_add]
  exact ⟨_, rfl⟩

/-- For a finite query row and finite key rows the once-divided attention entry is the softmax-weighted one
    (whatever the value rows hold). -/
theorem attnK_eq_attnR (qrow : Fin 1024 → EReal) (krows vrows : Fin 2048 → Fin 1024 → EReal)
    (hq : ∀ c, ∃ r : ℝ, qrow c = (r : EReal)) (hk : ∀ j c, ∃ r : ℝ, krows j c = (r : EReal))
    (hv : ∀ j c, ∃ r : ℝ, vrows j c = (r : EReal))
    (h : Fin 16) (d : Fin 64) : attnK qrow krows vrows h d = attnR qrow krows vrows h d := by
  choose qr hqr using hq
  choose kr hkr using hk
  choose vr hvr using hv
  have hscore : ∀ j, score qrow krows h j
      = (((∑ e : Fin 64, qr (hcol h e) * kr j (hcol h e)) * (1 / 8) : ℝ) : EReal) := by
    intro j
    unfold score
    simp only [hqr, hkr, scale_eq, ← EReal.coe_mul, ← coe_sum]
  obtain ⟨m, hm⟩ : ∃ m : ℝ, smax qrow krows h = (m : EReal) := by
    unfold smax
    simp only [hscore]
    exact fold_max_coe Finset.univ_nonempty _
  obtain ⟨w, hwpos, hw⟩ : ∃ w : Fin 2048 → ℝ, (∀ j, 0 < w j) ∧ ∀ j, wgt qrow krows h j = (w j : EReal) := by
    refine ⟨fun j => Real.exp ((∑ e : Fin 64, qr (hcol h e) * kr j (hcol h e)) * (1 / 8) - m),
      fun j => Real.exp_pos _, fun j => ?_⟩
    unfold wgt
    rw [hscore, hm, ← EReal.coe_sub, Ideal.exp_coe]
  have hD : 0 < ∑ j, w j := Finset.sum_pos (fun j _ => hwpos j) Finset.univ_nonempty
  have hden : den qrow krows h = ((∑ j, w j : ℝ) : EReal) := by
    unfold den
    simp only [hw, ← coe_sum]
  unfold attnK attnR
  simp only [hden, Ideal.div_coe hD.ne', hw, hvr, ← EReal.coe_mul, ← coe_sum]
  congr 1
  rw [Finset.sum_mul]
  exact Finset.sum_congr rfl (fun j _ => by ring)

/-- Hence the two output entries off a finite fused projection agree. -/
theorem outKQ_eq_outRQ (Q : Fin 4 → Fin 2048 → Fin 3072 → EReal) (wout : Fin 1024 → Fin 1024 → EReal) (bout : Fin 1024 → EReal)
    (hQ : ∀ b s e, ∃ r : ℝ, Q b s e = (r : EReal)) (b : Fin 4) (s : Fin 2048) (e : Fin 1024) :
    outKQ Q wout bout b s e = outRQ Q wout bout b s e := by
  unfold outKQ outRQ outK outR
  simp only [attnK_eq_attnR _ _ _ (fun c => hQ b s _) (fun j c => hQ b j _) (fun j c => hQ b j _)]

end Cert.Spec

end
-- ==== Proof.Finite.lean ====
/-
  The precondition read: a memory of which "every float input is finite" holds has a real number at every entry of
  all six argument arrays. The predicate compares each entry's absolute value with +∞ and folds the comparisons with
  "and" over each array and across the arrays; an extended real whose absolute value is below +∞ is a real.
-/
import proofs.«416334_j66056597012775_3_alg».proof.Pre_finite_inputs
import proofs.«416334_j66056597012775_3_alg».proof.Proof.Gen.Pre_finite_inputs
import Idealize.ShloMosaic.PureOps.Ideal.Laws
import Idealize.ShloMosaic.Lib.ReduceAll
import Idealize.ShloMosaic.Lib.ValueIdx

noncomputable section

namespace Cert.Proof.Finite

open Idealize.ShloMosaic Cert.Pre_finite_inputs

/-- The scalar shape has one index. -/
instance subsingleton_S_ : Subsingleton S_.Idx := ⟨fun a b => funext fun d => d.elim0⟩

/-- The f32 pattern with the exponent all ones and no fraction is +∞. -/
theorem ofBits_inf : Ideal.ofBits .f32 0x7F800000#32 = (⊤ : EReal) := by
  simp [Ideal.ofBits, Ideal.ieee]

/-- An extended real whose absolute value (the larger of it and its negative) is below +∞ is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- One array's part of the predicate: the "and" over all its entries of "the absolute value is below +∞" being
    one, every entry is a real. -/
theorem all_real {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .olt (Host.absf a) (broadcastInDim s ![] hb (constant S_ .f32 0x7F800000#32)))
      (constantI S_ 1 1#1) hr hu ValueIdx.ix0 = 1#1) (i : s.Idx) : ∃ r : ℝ, a i = (r : EReal) :=
  real_of_abs_lt (a i) (Host.reduce_andi_all _ _ hr hu ValueIdx.ix0 e i)

variable [hP : Cert.Pre_finite_inputs.Facts]

/-- Where the finiteness predicate is all ones, every entry of every argument array is a real number. -/
theorem finite_of_fn (a0 : FVec Ideal S4x2048x1024 .f32) (a1 : FVec Ideal S3072x1024 .f32) (a2 : FVec Ideal S3072 .f32)
    (a3 : FVec Ideal S1024 .f32) (a4 : FVec Ideal S1024x1024 .f32) (a5 : FVec Ideal S1024 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1, andi] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨all_real _ _ _ a0 e0, all_real _ _ _ a1 e1, all_real _ _ _ a2 e2, all_real _ _ _ a3 e3, all_real _ _ _ a4 e4,
    all_real _ _ _ a5 e5⟩

end Cert.Proof.Finite

end
-- ==== Proof.Assemble.lean ====
/-
  The two programs' results joined. The kernel's result array (what the second launch leaves) is, entry by entry, the
  once-divided output of the specification over the fused projection of the argument arrays; the reference's result
  is the softmax-weighted output over the same projection. For finite inputs the projection is finite, and on a
  finite projection the two outputs agree.
-/
import proofs.«416334_j66056597012775_3_alg».proof.Defs
import proofs.«416334_j66056597012775_3_alg».proof.Proof.KDefs
import proofs.«416334_j66056597012775_3_alg».proof.Proof.HostVals
import proofs.«416334_j66056597012775_3_alg».proof.Proof.Value0
import proofs.«416334_j66056597012775_3_alg».proof.Proof.Value1
import proofs.«416334_j66056597012775_3_alg».proof.Proof.RefQkv
import proofs.«416334_j66056597012775_3_alg».proof.Proof.RefAttn
import proofs.«416334_j66056597012775_3_alg».proof.Proof.Algebra
import proofs.«416334_j66056597012775_3_alg».proof.Proof.Finite
import proofs.«416334_j66056597012775_3_alg».proof.Proof.Gen.Pre_finite_inputs

set_option maxRecDepth 16384

noncomputable section

namespace Cert.Proof.Assemble

open Idealize.ShloMosaic Idealize.ShloMosaic.TcCoe Idealize.SL.Sem Idealize.ShloMosaic.ValueIdx

/-! ## The argument arrays as functions of coordinates -/

section Args

variable (a0 : (⟨3, ![4, 2048, 1024]⟩ : Shape).Idx → EReal) (a1 : (⟨2, ![3072, 1024]⟩ : Shape).Idx → EReal)
  (a2 : (⟨1, ![3072]⟩ : Shape).Idx → EReal) (a3 : (⟨1, ![1024]⟩ : Shape).Idx → EReal)
  (a4 : (⟨2, ![1024, 1024]⟩ : Shape).Idx → EReal) (a5 : (⟨1, ![1024]⟩ : Shape).Idx → EReal)

/-- The fused projection of the argument arrays. -/
def Qof : Fin 4 → Fin 2048 → Fin 3072 → EReal :=
  Cert.Spec.qkv (fun b s d => a0 (ix3 b s d)) (fun e d => a1 (ix2 e d)) (fun e => a2 (ix1 e)) (fun d => a3 (ix1 d))

/-- The once-divided output of the argument arrays. -/
def outKof (b : Fin 4) (s : Fin 2048) (e : Fin 1024) : EReal :=
  Cert.Spec.outKQ (Qof a0 a1 a2 a3) (fun e c => a4 (ix2 e c)) (fun e => a5 (ix1 e)) b s e

/-- The softmax-weighted output of the argument arrays. -/
def outRof (b : Fin 4) (s : Fin 2048) (e : Fin 1024) : EReal :=
  Cert.Spec.outRQ (Qof a0 a1 a2 a3) (fun e c => a4 (ix2 e c)) (fun e => a5 (ix1 e)) b s e

/-- For finite arrays the two outputs agree. -/
theorem outKof_eq_outRof (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) (b : Fin 4) (s : Fin 2048) (e : Fin 1024) :
    outKof a0 a1 a2 a3 a4 a5 b s e = outRof a0 a1 a2 a3 a4 a5 b s e :=
  Cert.Spec.outKQ_eq_outRQ _ _ _
    (Cert.Spec.qkv_finite _ _ _ _ (fun b s d => h0 _) (fun e d => h1 _) (fun e => h2 _) (fun d => h3 _)) b s e

end Args

/-! ## The kernel's result array -/

section KernelValue

open Cert.KernelIdeal Cert.KernelIdeal.Gen Cert.KernelIdeal.Hand

variable (m : (ℓ : Loc nD τ sig) → Buf (Elt Ideal) ℓ)

/-- The array the first launch leaves is the fused projection of the argument arrays. -/
theorem qkvArr_apply (c : Dev nD) (b : Fin 4) (s : Fin 2048) (e : Fin 3072) :
    (qkvArr m c : S4x2048x3072.Idx → EReal) (ix3 b s e)
      = Qof (m ((c.tc : Thread nD τ).loc main_arg0)) (m ((c.tc : Thread nD τ).loc main_arg1)) (m ((c.tc : Thread nD τ).loc main_arg2))
          (m ((c.tc : Thread nD τ).loc main_arg3)) b s e := by
  unfold qkvArr Qof
  refine (qkv_arr_apply (Hand.V1 m) c b s e).trans ?_
  have e0 : (fun (b : Fin 4) (s : Fin 2048) (d : Fin 1024) => (Hand.V1 m c main_arg0 : S4x2048x1024.Idx → EReal) (ix3 b s d))
      = fun b s d => (m ((c.tc : Thread nD τ).loc main_arg0) : S4x2048x1024.Idx → EReal) (ix3 b s d) :=
    funext fun b => funext fun s => funext fun d => congrFun (V1_arg0 m c) (ix3 b s d)
  have e1 : (fun (e : Fin 3072) (d : Fin 1024) => (Hand.V1 m c main_v1 : S1024x3072.Idx → EReal) (ix2 d e))
      = fun e d => (m ((c.tc : Thread nD τ).loc main_arg1) : S3072x1024.Idx → EReal) (ix2 e d) :=
    funext fun e => funext fun d => V1_v1_apply m c d e
  have e2 : (fun (e : Fin 3072) => (Hand.V1 m c main_v2 : S1x3072.Idx → EReal) (ix2 0 e))
      = fun e => (m ((c.tc : Thread nD τ).loc main_arg2) : S3072.Idx → EReal) (ix1 e) :=
    funext fun e => V1_v2_apply m c e
  have e3 : (fun (d : Fin 1024) => (Hand.V1 m c main_v3 : S1x1024.Idx → EReal) (ix2 0 d))
      = fun d => (m ((c.tc : Thread nD τ).loc main_arg3) : S1024.Idx → EReal) (ix1 d) :=
    funext fun d => V1_v3_apply m c d
  rw [e0, e1, e2, e3]

/-- The array the second launch leaves is the once-divided output of the argument arrays. -/
theorem outArr_apply (c : Dev nD) (b : Fin 4) (s : Fin 2048) (e : Fin 1024) :
    (outArr m c : S4x2048x1024.Idx → EReal) (ix3 b s e)
      = outKof (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) b s e := by
  unfold outArr outKof
  refine (out_arr_apply (Hand.V3 m) c b s e).trans ?_
  have e4 : (fun (b : Fin 4) (s : Fin 2048) (e : Fin 3072) => (Hand.V3 m c main_v4 : S4x2048x3072.Idx → EReal) (ix3 b s e))
      = Qof (m ((c.tc : Thread nD τ).loc main_arg0)) (m ((c.tc : Thread nD τ).loc main_arg1)) (m ((c.tc : Thread nD τ).loc main_arg2))
          (m ((c.tc : Thread nD τ).loc main_arg3)) :=
    funext fun b => funext fun s => funext fun e => (congrFun (V3_v4 m c) (ix3 b s e)).trans (qkvArr_apply m c b s e)
  have e6 : (fun (e c' : Fin 1024) => (Hand.V3 m c main_v6 : S1024x1024.Idx → EReal) (ix2 c' e))
      = fun e c' => (m ((c.tc : Thread nD τ).loc main_arg4) : S1024x1024.Idx → EReal) (ix2 e c') :=
    funext fun e => funext fun c' => V3_v6_apply m c c' e
  have e7 : (fun (e : Fin 1024) => (Hand.V3 m c main_v7 : S1x1024.Idx → EReal) (ix2 0 e))
      = fun e => (m ((c.tc : Thread nD τ).loc main_arg5) : S1024.Idx → EReal) (ix1 e) :=
    funext fun e => V3_v7_apply m c e
  rw [e4, e6, e7]

end KernelValue

/-! ## The reference's result array -/

section ReferenceValue

open Cert.ReferenceIdeal Cert.ReferenceIdeal.Gen

variable (m' : (ℓ : Loc nD τ sig) → Buf (Elt Ideal) ℓ)

/-- The reference's result is the softmax-weighted output of its argument arrays. -/
theorem refOut_apply (c : Dev nD) (b : Fin 4) (s : Fin 2048) (e : Fin 1024) :
    (Cert.ReferenceIdeal.Value.res_main_v46 m' c : S4x2048x1024.Idx → EReal) (ix3 b s e)
      = outRof (m' ((c.tc : Thread nD τ).loc main_arg0)) (m' ((c.tc : Thread nD τ).loc main_arg1)) (m' ((c.tc : Thread nD τ).loc main_arg2))
          (m' ((c.tc : Thread nD τ).loc main_arg3)) (m' ((c.tc : Thread nD τ).loc main_arg4)) (m' ((c.tc : Thread nD τ).loc main_arg5)) b s e := by
  rw [Cert.ReferenceIdeal.Read.val_main_v46_eq]
  exact Cert.ReferenceIdeal.RefValue.out_apply _ _ _ _ _ _ _ (fun b s e => Cert.ReferenceIdeal.RefValue.qkv_apply _ _ _ _ b s e) b s e

end ReferenceValue

end Cert.Proof.Assemble

end
-- ==== Proof.KRun.lean ====
/-
  The whole program's run, at any float instance: the host operations before the first launch (the weight matrix
  transposed and narrowed, the bias and the norm weights as rows), the first launch, the host operations before the
  second (the output weights transposed and narrowed, the bias as a row), the second launch. Every weakly fair
  execution terminates, the result buffer holds what the second launch's write-backs leave, and the six argument
  arrays hold what they were launched with.
-/
import proofs.«416334_j66056597012775_3_alg».proof.Proof.KDefs
import proofs.«416334_j66056597012775_3_alg».proof.Proof.Region0
import proofs.«416334_j66056597012775_3_alg».proof.Proof.Region1
import proofs.«416334_j66056597012775_3_alg».proof.Proof.Gen.KernelIdeal.Regions
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## What each item leaves alone -/

theorem U1_of (c : Dev nD) (r : Ref sig .tc) (h : r ∉ hostOps0_W) : U1 m c r = U0 m c r :=
  StableHlo.after_of_writes_sub hostOps0 _ hostOps0_writes h
theorem U2_of (c : Dev nD) (r : Ref sig .tc) (h : r ≠ main_v4) : U2 m c r = U1 m c r := by
  unfold U2
  exact Function.update_of_ne (StableHlo.devRef_ne_of_ne h : (Proc.devRef .tc r : DevRef τ sig) ≠ Proc.devRef .tc main_v4) _ _
theorem U2_self (c : Dev nD) : U2 m c main_v4 = qkvArr m c := by
  unfold U2; exact Function.update_self _ _ _
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v8) : U4 m c r = U3 m c r := by
  unfold U4
  exact Function.update_of_ne (StableHlo.devRef_ne_of_ne h : (Proc.devRef .tc r : DevRef τ sig) ≠ Proc.devRef .tc main_v8) _ _
theorem U4_self (c : Dev nD) : U4 m c main_v8 = outArr m c := by
  unfold U4; exact Function.update_self _ _ _

/-- An argument array is written by no host operation and is no launch's output: it ends as launched. -/
theorem U4_arg (c : Dev nD) (r : Ref sig .tc) (h8 : r ≠ main_v8) (h1 : r ∉ hostOps1_W) (h4 : r ≠ main_v4) (h0 : r ∉ hostOps0_W) :
    U4 m c r = m ((c : Thread nD τ).loc r) :=
  (U4_of m c r h8).trans <| (U3_of m c r h1).trans <| (U2_of m c r h4).trans <| (U1_of m c r h0).trans rfl

/-! ## The first launch's arrays at its exit -/

/-- Each array of the first launch holds after it what the launch's write-backs leave: an input what it held, the
    output the fused projection. -/
theorem hF0 (c : Dev nD) : ∀ w : Fin cfg0.W, (dat0 (V1 m) c).arrAt w cfg0.N = U2 m c (Pipeline.arrRef spec0 w)
  | ⟨0, _⟩ => (((dat0 (V1 m) c).arrAt_in 0 rfl _).trans (A_eq0 (V1 m) c 0)).trans (U2_of m c _ (by decide)).symm
  | ⟨1, _⟩ => (((dat0 (V1 m) c).arrAt_in 1 rfl _).trans (A_eq0 (V1 m) c 1)).trans (U2_of m c _ (by decide)).symm
  | ⟨2, _⟩ => (((dat0 (V1 m) c).arrAt_in 2 rfl _).trans (A_eq0 (V1 m) c 2)).trans (U2_of m c _ (by decide)).symm
  | ⟨3, _⟩ => (((dat0 (V1 m) c).arrAt_in 3 rfl _).trans (A_eq0 (V1 m) c 3)).trans (U2_of m c _ (by decide)).symm
  | ⟨4, _⟩ => (U2_self m c).symm
/-- Every other buffer holds what it held. -/
theorem hrest0 (c : Dev nD) (b : Ref sig .tc) (hb : b ∉ Finset.univ.image (Pipeline.arrRef spec0)) : U2 m c b = U1 m c b :=
  U2_of m c b fun e => hb (e ▸ Finset.mem_image.mpr ⟨4, Finset.mem_univ _, rfl⟩)

/-! ## The proof data family and the thread state -/

/-- Both launches' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `U4`, the generator register at some state. -/
abbrev Tₙ (c : Dev nD) : sProp 𝕄 := iprop(StableHlo.held (c : Thread nD τ) (Pipeline.ucRefs τ sig) (U4 m c) ∗ ∃ r, prngReg c r)

/-! ## The second launch's arrays: three windows on one buffer

The fused projection's buffer is read by three windows, at a half and two quarters of it; the other three arrays are
whole buffers of their own. -/

section SharedArrays

variable (V : (c : Dev nD) → (b : Ref sig .tc) → Buf (Elt F) ((c : Thread nD τ).loc b))

set_option backward.isDefEq.respectTransparency.types false in
/-- The second launch's arrays at contents `G`, window by window. -/
theorem arrays1_eq (c : Dev nD) (G : (w : Fin cfg1.W) → Buf (Elt F) ((cfg1.win w).arr.view.loc (c.tc : Thread nD τ))) :
    ((dat1 V c).arrays G : sProp 𝕄) = iprop(
      (((c : Thread nD τ).loc main_v4) ↦{fullShare.left} G 0) ∗ (((c : Thread nD τ).loc main_v4) ↦{fullShare.right.left} G 1)
      ∗ (((c : Thread nD τ).loc main_v4) ↦{fullShare.right.right} G 2) ∗ (((c : Thread nD τ).loc main_v6) ↦{fullShare} G 3)
      ∗ (((c : Thread nD τ).loc main_v7) ↦{fullShare} G 4) ∗ (((c : Thread nD τ).loc main_v8) ↦{fullShare} G 5)) := by
  unfold Dat.arrays
  rw [bigSep_W1, (arr_whole1 0).set_eq_univ, (arr_whole1 3).set_eq_univ, (arr_whole1 4).set_eq_univ, (arr_whole1 5).set_eq_univ]
  rfl

/-- The distinct buffers behind the second launch's windows, one by one. -/
theorem arrBufs1_eq (c : Dev nD) (W : (b : Ref sig .tc) → Buf (Elt F) ((c : Thread nD τ).loc b)) :
    (Pipeline.arrBufs spec1 c W : sProp 𝕄) = iprop(
      (((c : Thread nD τ).loc main_v4) ↦{fullShare} W main_v4) ∗ (((c : Thread nD τ).loc main_v6) ↦{fullShare} W main_v6)
      ∗ (((c : Thread nD τ).loc main_v7) ↦{fullShare} W main_v7) ∗ (((c : Thread nD τ).loc main_v8) ↦{fullShare} W main_v8)) := by
  unfold Pipeline.arrBufs
  exact bigSep_eq_bigSepL_of_eq [main_v4, main_v6, main_v7, main_v8] (by decide) (by decide) _

end SharedArrays

section SharedArrays2

variable (V : (c : Dev nD) → (b : Ref sig .tc) → Buf (Elt F) ((c : Thread nD τ).loc b))

/-- A whole buffer is its half and its two quarters, all at the same contents. -/
theorem pointsTo_three (ℓ : Loc nD τ sig) (f : Buf (Elt F) ℓ) :
    (ℓ ↦{fullShare} f : sProp 𝕄) ⊣⊢ iprop((ℓ ↦{fullShare.left} f) ∗ (ℓ ↦{fullShare.right.left} f) ∗ ℓ ↦{fullShare.right.right} f) := by
  constructor
  · iintro H
    ihave H := (pointsTo_share (PosShare.mem_left_op_right fullShare)).1 $$ H
    icases H with ⟨Hl, Hr⟩
    ihave Hr := (pointsTo_share (PosShare.mem_left_op_right fullShare.right)).1 $$ Hr
    icases Hr with ⟨Hrl, Hrr⟩
    isplitl [Hl]; · iexact Hl
    isplitl [Hrl] <;> iassumption
  · iintro ⟨Hl, Hrl, Hrr⟩
    iapply (pointsTo_share (PosShare.mem_left_op_right fullShare)).2
    isplitl [Hl]; · iexact Hl
    iapply (pointsTo_share (PosShare.mem_left_op_right fullShare.right)).2
    isplitl [Hrl] <;> iassumption

set_option backward.isDefEq.respectTransparency.types false in
/-- ENTRY: the four buffers behind the windows, whole at `W`, are the six windows' arrays at `W`: the fused
    projection's buffer splits into the three shares its windows read at. -/
theorem arrays1_of_arrBufs (c : Dev nD) (W : (b : Ref sig .tc) → Buf (Elt F) ((c : Thread nD τ).loc b)) :
    (Pipeline.arrBufs spec1 c W : sProp 𝕄) ⊢ (dat1 V c).arrays fun w => W (Pipeline.arrRef spec1 w) := by
  rw [arrBufs1_eq, arrays1_eq]
  iintro ⟨H4, H6, H7, H8⟩
  ihave H4 := (pointsTo_three _ _).1 $$ H4
  icases H4 with ⟨Ha, Hb, Hc⟩
  isplitl [Ha]; · iexact Ha
  isplitl [Hb]; · iexact Hb
  isplitl [Hc]; · iexact Hc
  isplitl [H6]; · iexact H6
  isplitl [H7]; · iexact H7
  iexact H8

set_option backward.isDefEq.respectTransparency.types false in
/-- EXIT: the six windows' arrays at `W` are the four buffers whole at `W`: the three shares of the fused
    projection's buffer, at one contents, rejoin. -/
theorem arrBufs1_of_arrays (c : Dev nD) (W : (b : Ref sig .tc) → Buf (Elt F) ((c : Thread nD τ).loc b)) :
    ((dat1 V c).arrays fun w => W (Pipeline.arrRef spec1 w)) ⊢ (Pipeline.arrBufs spec1 c W : sProp 𝕄) := by
  rw [arrBufs1_eq, arrays1_eq]
  iintro ⟨Ha, Hb, Hc, H6, H7, H8⟩
  isplitl [Ha Hb Hc]
  · iapply (pointsTo_three _ _).2
    isplitl [Ha]; · iexact Ha
    isplitl [Hb]; · iexact Hb
    iexact Hc
  isplitl [H6]; · iexact H6
  isplitl [H7]; · iexact H7
  iexact H8

end SharedArrays2

/-! ## The second launch's arrays at its exit -/

/-- Each array of the second launch holds after it what the launch's write-backs leave: an input what it held (the
    fused projection under each of its three windows), the output the result. -/
theorem hF1 (c : Dev nD) : ∀ w : Fin cfg1.W, (dat1 (V3 m) c).arrAt w cfg1.N = U4 m c (Pipeline.arrRef spec1 w)
  | ⟨0, _⟩ => (((dat1 (V3 m) c).arrAt_in 0 rfl _).trans (A_eq1 (V3 m) c 0)).trans (U4_of m c _ (by decide)).symm
  | ⟨1, _⟩ => (((dat1 (V3 m) c).arrAt_in 1 rfl _).trans (A_eq1 (V3 m) c 1)).trans (U4_of m c _ (by decide)).symm
  | ⟨2, _⟩ => (((dat1 (V3 m) c).arrAt_in 2 rfl _).trans (A_eq1 (V3 m) c 2)).trans (U4_of m c _ (by decide)).symm
  | ⟨3, _⟩ => (((dat1 (V3 m) c).arrAt_in 3 rfl _).trans (A_eq1 (V3 m) c 3)).trans (U4_of m c _ (by decide)).symm
  | ⟨4, _⟩ => (((dat1 (V3 m) c).arrAt_in 4 rfl _).trans (A_eq1 (V3 m) c 4)).trans (U4_of m c _ (by decide)).symm
  | ⟨5, _⟩ => (U4_self m c).symm
/-- Every other buffer holds what it held. -/
theorem hrest1 (c : Dev nD) (b : Ref sig .tc) (hb : b ∉ Finset.univ.image (Pipeline.arrRef spec1)) : U4 m c b = U3 m c b :=
  U4_of m c b fun e => hb (e ▸ Finset.mem_image.mpr ⟨5, Finset.mem_univ _, rfl⟩)

/-! ## The launches as items -/

set_option backward.isDefEq.respectTransparency.types false in
/-- THE FIRST LAUNCH over the thread state: entered with every unscoped buffer at `U1`, left with them at `U2`. Its
    five arrays are distinct buffers: they split out of the unscoped buffers at entry and go back, the output at
    the fused projection, at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => U2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered with every unscoped buffer at `U3`, left with them at `U4`.
    Three of its windows read one buffer: at entry that buffer splits into a half and two quarters, one per window;
    the windows never write it, so at exit the three shares hold one contents and rejoin. The output's buffer comes
    back at the result. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0) ∗ Pipeline.unscopedRest spec1 c (V3 m c)) := by
      rw [Pipeline.unscopedBufs_split₀ cfgs 1 winFacts₀1.arr_unscoped c (V3 m c)]
      exact sep_mono (arrays1_of_arrBufs (V3 m) c (V3 m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V3 m c))
        ⊢ (unscopedBufs (Ix := Unit) (Name := ℕ) (U := UR sig nD τ) (Lvl := ℕ) c (fun b : Ref sig .tc => U4 m c b) : sProp 𝕄) := by
      rw [Pipeline.unscopedBufs_split₀ cfgs 1 winFacts₀1.arr_unscoped c (fun b : Ref sig .tc => U4 m c b),
        show ((pdats m 1 c).arrAt · cfg1.N) = fun w => (fun b : Ref sig .tc => U4 m c b) (Pipeline.arrRef spec1 w) from funext (hF1 m c)]
      refine sep_mono (arrBufs1_of_arrays (V3 m) c fun b : Ref sig .tc => U4 m c b) (Entails.of_eq ?_)
      unfold Pipeline.unscopedRest
      exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's four items in order: a host stretch from its boundary's contents, a launch, and again. -/
abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m) ]
/-- The program is the run of its items. -/
theorem main_run (c : Dev nD) : main (F := F) c = Pipeline.Seg.run (segs m) := (main_chain c).trans (by chain_rfl)

end Run

open Run in
set_option backward.isDefEq.respectTransparency.types false in
/-- Every weakly fair execution of the program from memory `m` with zero counters terminates; the result buffer
    ends at `outArr` and every argument array as launched. -/
theorem run_main : θ_run (defs (F := F)) (onTc (τ := τ) (main (F := F))) ⟨m, fun _ => 0, ρ⟩ (fun r => ∀ c : Dev nD,
      r.2.mem ((c.tc : Thread nD τ).loc main_v8) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (Run.segs m)
    (fun c Q => by rw [main_run m c])
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h c =>
      ⟨(h c _ (mem_uc main_v8 (by decide))).trans (U4_self m c),
        (h c _ (mem_uc main_arg0 (by decide))).trans (U4_arg m c main_arg0 (by decide) (by decide) (by decide) (by decide)),
        (h c _ (mem_uc main_arg1 (by decide))).trans (U4_arg m c main_arg1 (by decide) (by decide) (by decide) (by decide)),
        (h c _ (mem_uc main_arg2 (by decide))).trans (U4_arg m c main_arg2 (by decide) (by decide) (by decide) (by decide)),
        (h c _ (mem_uc main_arg3 (by decide))).trans (U4_arg m c main_arg3 (by decide) (by decide) (by decide) (by decide)),
        (h c _ (mem_uc main_arg4 (by decide))).trans (U4_arg m c main_arg4 (by decide) (by decide) (by decide) (by decide)),
        (h c _ (mem_uc main_arg5 (by decide))).trans (U4_arg m c main_arg5 (by decide) (by decide) (by decide) (by decide))⟩)

end Cert.KernelIdeal.Hand

end
-- ==== Proof.BitsRegion0.lean ====
/-
  The first launch (row normalisation and the fused projection), one grid point at a time, at any float instance.
  A grid point (b, s) stages rows 512·s … 512·s + 511 of batch b of the activations, the whole transposed weight
  matrix, the bias row and the norm-weight row, and writes back one 512 × 3072 block of the projection: the
  single store's value `k0_pay1` of the four loaded blocks. The body neither owes nor signals anything.
-/
import proofs.«416334_j66056597012775_3_alg».proof.Proof.Gen.Kernel.Launch
import proofs.«416334_j66056597012775_3_alg».proof.Proof.Gen.Kernel.Skeleton
import proofs.«416334_j66056597012775_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input window's buffer -/

/-- Input window 0's current staging buffer holds its block at every grid point, whether or not the block was
    transferred there: where it was not, the window's block index has not moved since the previous point, and the
    body leaves the buffer as it found it. For any proof data whose array is `V`'s and whose body keeps the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every grid point, whether or not the block was
    transferred there: where it was not, the window's block index has not moved since the previous point, and the
    body leaves the buffer as it found it. For any proof data whose array is `V`'s and whose body keeps the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every grid point, whether or not the block was
    transferred there: where it was not, the window's block index has not moved since the previous point, and the
    body leaves the buffer as it found it. For any proof data whose array is `V`'s and whose body keeps the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every grid point, whether or not the block was
    transferred there: where it was not, the window's block index has not moved since the previous point, and the
    body leaves the buffer as it found it. For any proof data whose array is `V`'s and whose body keeps the block. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole staging buffer -/

abbrev r0_0 : Rect S1x512x1024 := Rect.unit (s := S1x512x1024) ![0, 0, 0] S1x512x1024.size inb_S1x512x1024_S1x512x1024_0_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S1x1024 := Rect.unit (s := S1x1024) ![0, 0] S1x1024.size inb_S1x1024_S1x1024_0_0
abbrev r0_4 : Rect S1x512x3072 := Rect.unit (s := S1x512x3072) ![0, 0, 0] S1x512x3072.size inb_S1x512x3072_S1x512x3072_0_0_0

/-- The output window's staging buffer after the body: its one store, of the projection of the loaded blocks
    (activations `x0`, weights `x1`, bias `x2`, norm weights `x3`). -/
def out0_4 (x0 : Vec F S1x512x1024 .f32) (x1 : Vec F S1024x3072 .bf16) (x2 : Vec F S1x3072 .f32) (x3 : Vec F S1x1024 .f32) : Vec F S1x512x3072 .bf16 :=
  View.canon [⟨r0_4, k0_pay1 (View.ld x0 r0_0) (View.ld x3 r0_3) (View.ld x1 r0_1) (View.ld x2 r0_2)⟩]

/-- The one store is of the whole output buffer, so every index of it is written. -/
theorem cover0_4 (p0 : Vec F S1x512x3072 .bf16) (y : S1x512x3072.Idx) :
    ∃ pc ∈ ([⟨r0_4, p0⟩] : List (View.Piece (Elt F) S1x512x3072 .bf16)), y ∈ pc.1.set :=
  View.cover_of_tiled [⟨r0_4, p0⟩] S1x512x3072.size (by rfl) y

/-! ## The body's triple -/

set_option maxHeartbeats 1000000 in
/-- The kernel body on whole staging buffers — the four inputs' reading `x0 … x3`, the output's holding anything —
    runs to the continuation with the inputs' unchanged and the output's reading `out0_4 x0 x1 x2 x3`: four whole
    loads, a load of the output whose value is dropped, and one store over the whole output. -/
theorem sound_kernel0 (c : Dev nD) (E : Set ℕ) (i : grid0.Coords)
    (arg2 : Memref sig .tc .vmem S1x512x1024 .f32) (harg2 : arg2.IsWhole) (arg3 : Memref sig .tc .vmem S1024x3072 .bf16) (harg3 : arg3.IsWhole)
    (arg4 : Memref sig .tc .vmem S1x3072 .f32) (harg4 : arg4.IsWhole) (arg5 : Memref sig .tc .vmem S1x1024 .f32) (harg5 : arg5.IsWhole)
    (arg6 : Memref sig .tc .vmem S1x512x3072 .bf16) (harg6 : arg6.IsWhole)
    (x0 : Vec F S1x512x1024 .f32) (x1 : Vec F S1024x3072 .bf16) (x2 : Vec F S1x3072 .f32) (x3 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__qkv_rmsnorm_kernel i arg2 harg2 arg3 harg3 arg4 harg4 arg5 harg5 arg6 harg6) K := by
  simp only [cc0__qkv_rmsnorm_kernel_eq_skeleton]; unfold cc0__qkv_rmsnorm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The launch's proof data -/

/-- The arrays as the launch finds them; after the body at point `t` each input's buffer at its block and the
    output's at `out0_4` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is handed at point `t`: the invariant, nothing owed, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any grid point: the inputs' buffers hold their blocks, so the body's triple applies; the invariant
    and what is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body at every grid point takes the staged blocks to the staged blocks and the output block above. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  The second launch (attention over sixteen heads, then the output projection), one grid point at a time, at any
  float instance. A grid point (b, s) stages query rows 256·s … 256·s + 255 of batch b (columns 0 … 1023 of the
  fused projection), all 2048 key rows and all 2048 value rows of the batch (columns 1024 … 2047 and 2048 … 3071 of
  the SAME array), the transposed output weights and the bias row, and writes back one 256 × 1024 block. The three
  input windows on the fused projection read it at three disjoint shares of its buffer. The body neither owes nor
  signals anything.
-/
import proofs.«416334_j66056597012775_3_alg».proof.Proof.Gen.Kernel.Launch
import proofs.«416334_j66056597012775_3_alg».proof.Proof.Gen.Kernel.Skeleton
import proofs.«416334_j66056597012775_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the store take a whole staging buffer -/

abbrev r1_0 : Rect S1x256x1024 := Rect.unit (s := S1x256x1024) ![0, 0, 0] S1x256x1024.size inb_S1x256x1024_S1x256x1024_0_0_0
abbrev r1_1 : Rect S1x2048x1024 := Rect.unit (s := S1x2048x1024) ![0, 0, 0] S1x2048x1024.size inb_S1x2048x1024_S1x2048x1024_0_0_0
abbrev r1_3 : Rect S1024x1024 := Rect.unit (s := S1024x1024) ![0, 0] S1024x1024.size inb_S1024x1024_S1024x1024_0_0
abbrev r1_4 : Rect S1x1024 := Rect.unit (s := S1x1024) ![0, 0] S1x1024.size inb_S1x1024_S1x1024_0_0

/-! ## The stored value as one function of the five loaded blocks

The printed body is cut into six parts at fixed statement counts, so a head's computation may straddle two parts;
this is the parts' dataflow written out once: `v1`, `v3`, `v5` the query, key and value blocks as matrices, then
per head its 256 × 64 result (`v22`, `v39`, …, `v277`), their concatenation, and the projection. -/

/-- What the body stores into the output window's staging buffer, from the query block `v0`, the key block `v2`,
    the value block `v4`, the transposed output weights `v280` and the bias row `v283`. -/
def k1_store (v0 : Vec F S1x256x1024 .bf16) (v2 v4 : Vec F S1x2048x1024 .bf16) (v280 : Vec F S1024x1024 .bf16) (v283 : Vec F S1x1024 .f32) :
    FVec F S1x256x1024 .f32 :=
  have v1 : FVec F S256x1024 .bf16 := k1_pay4 v0
  have v3 : FVec F S2048x1024 .bf16 := k1_pay5 v2
  have v5 : FVec F S2048x1024 .bf16 := k1_pay6 v4
  have v22 : FVec F S256x64 .f32 := k1_pay7 v0 v2 v4
  have v37 : FVec F S256x64 .f32 := k1_pay9 v0 v2 v4
  have v38 : FVec F S256x64 .f32 := k1_pay10 v0 v2
  have v39 : FVec F S256x64 .f32 := k1_pay11 v37 v38
  have v56 : FVec F S256x64 .f32 := k1_pay12 v1 v3 v5
  have v73 : FVec F S256x64 .f32 := k1_pay13 v1 v3 v5
  have v76 : FVec F S2048x64 .bf16 := k1_pay14 v5
  have v84 : FVec F S256x2048 .f32 := k1_pay15 v1 v3
  have v90 : FVec F S256x64 .f32 := k1_pay16 v76 v84
  have v107 : FVec F S256x64 .f32 := k1_pay17 v1 v3 v5
  have v124 : FVec F S256x64 .f32 := k1_pay18 v1 v3 v5
  have v127 : FVec F S2048x64 .bf16 := k1_pay19 v5
  have v130 : FVec F S256x2048 .f32 := k1_pay20 v1 v3
  have v141 : FVec F S256x64 .f32 := k1_pay21 v127 v130
  have v158 : FVec F S256x64 .f32 := k1_pay22 v1 v3 v5
  have v175 : FVec F S256x64 .f32 := k1_pay23 v1 v3 v5
  have v176 : FVec F S256x64 .bf16 := k1_pay24 v1
  have v177 : FVec F S2048x64 .bf16 := k1_pay25 v3
  have v178 : FVec F S2048x64 .bf16 := k1_pay26 v5
  have v192 : FVec F S256x64 .f32 := k1_pay27 v176 v177 v178
  have v209 : FVec F S256x64 .f32 := k1_pay28 v1 v3 v5
  have v212 : FVec F S2048x64 .bf16 := k1_pay29 v5
  have v222 : FVec F S256x1 .f32 := k1_pay31 v1 v3
  have v223 : FVec F S256x2048 .bf16 := k1_pay32 v1 v3
  have cst_71 : FVec F S256x64 .f32 := constant S256x64 .f32 0x00000000#32
  have v226 : FVec F S256x64 .f32 := k1_pay33 v212 v222 v223 cst_71
  have v243 : FVec F S256x64 .f32 := k1_pay34 v1 v3 v5
  have v260 : FVec F S256x64 .f32 := k1_pay35 v1 v3 v5
  have v263 : FVec F S2048x64 .bf16 := k1_pay36 v5
  have v270 : FVec F S256x2048 .f32 := k1_pay37 v1 v3
  have v271 : FVec F S256x2048 .f32 := exp v270
  have v275 : FVec F S256x64 .f32 := k1_pay1 v263 v271
  have v277 : FVec F S256x64 .f32 := k1_pay2 v271 v275
  have v278 : FVec F S256x1024 .f32 := concatenate S256x1024 1 [⟨S256x64, v22⟩, ⟨S256x64, v39⟩, ⟨S256x64, v56⟩, ⟨S256x64, v73⟩, ⟨S256x64, v90⟩, ⟨S256x64, v107⟩, ⟨S256x64, v124⟩, ⟨S256x64, v141⟩, ⟨S256x64, v158⟩, ⟨S256x64, v175⟩, ⟨S256x64, v192⟩, ⟨S256x64, v209⟩, ⟨S256x64, v226⟩, ⟨S256x64, v243⟩, ⟨S256x64, v260⟩, ⟨S256x64, v277⟩] concatenates_S256x64_S256x64_S256x64_S256x64_S256x64_S256x64_S256x64_S256x64_S256x64_S256x64_S256x64_S256x64_S256x64_S256x64_S256x64_S256x64_S256x1024_d1
  k1_pay3 v278 v280 v283

/-- The output window's staging buffer after the body: its one store. (`x0` queries, `x1` keys, `x2` values,
    `x3` output weights, `x4` bias.) -/
def out1_5 (x0 : Vec F S1x256x1024 .bf16) (x1 x2 : Vec F S1x2048x1024 .bf16) (x3 : Vec F S1024x1024 .bf16) (x4 : Vec F S1x1024 .f32) : Vec F S1x256x1024 .f32 :=
  View.canon [⟨r1_0, k1_store (View.ld x0 r1_0) (View.ld x1 r1_1) (View.ld x2 r1_1) (View.ld x3 r1_3) (View.ld x4 r1_4)⟩]

/-! ## The launch's proof data -/

/-- The share of the fused projection's buffer each of its three input windows reads at: a half and two quarters. -/
def q1 : Fin cfg1.W → PosShare TreeShare
  | ⟨0, _⟩ => fullShare.left
  | ⟨1, _⟩ => fullShare.right.left
  | ⟨2, _⟩ => fullShare.right.right
  | ⟨3, _⟩ => fullShare
  | ⟨4, _⟩ => fullShare
  | ⟨5, _⟩ => fullShare

/-- The arrays as the launch finds them; after the body at point `t` each input's buffer at its block and the
    output's at `out1_5` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-! ## What an input window's staging buffer holds when the body is called

An input window is never written by the body and is never idle, and its blocks are not clipped; so whether or not the
pipeline fetched it at this point (windows 1 and 2 are fetched only when the batch changes, windows 3 and 4 once),
its current buffer holds its block at this point: unfetched, the block index has not moved since the last fetch. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The one store covers the output buffer -/

/-- The stored rectangle is the whole buffer. -/
theorem cover1_5 (p0 : Vec F S1x256x1024 .f32) (y : S1x256x1024.Idx) :
    ∃ pc ∈ ([⟨r1_0, p0⟩] : List (View.Piece (Elt F) S1x256x1024 .f32)), y ∈ pc.1.set :=
  View.cover_of_tiled [⟨r1_0, p0⟩] S1x256x1024.size (by rfl) y

/-! ## The body's triple -/

set_option maxHeartbeats 4000000 in
set_option maxRecDepth 65536 in
/-- On whole staging memrefs, the five inputs' at contents `x0 … x4` and the output's at anything, the body runs to
    the continuation holding the inputs' as they were and the output's at `out1_5 x0 x1 x2 x3 x4`: the first part
    loads the query, key and value buffers, the next five parts only compute, and the tail loads the weights and the
    bias and stores the projection over the whole output buffer. The stored value is `k1_store` of the five loads:
    both are the same applications of the same payloads, the parts' returns threaded through. -/
theorem sound_kernel1 (c : Dev nD) (E : Set ℕ) (i : grid1.Coords)
    (arg2 : Memref sig .tc .vmem S1x256x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x256x1024 .f32) (harg7 : arg7.IsWhole)
    (x0 : Vec F S1x256x1024 .bf16) (x1 x2 : Vec F S1x2048x1024 .bf16) (x3 : Vec F S1024x1024 .bf16) (x4 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__attn_outproj_kernel i arg2 harg2 arg3 harg3 arg4 harg4 arg5 harg5 arg6 harg6 arg7 harg7) K := by
  simp only [cc1__attn_outproj_kernel_eq_skeleton]; unfold cc1__attn_outproj_kernel_skel
  simp only [k1_part1_eq_skeleton, k1_part2_eq_skeleton, k1_part3_eq_skeleton, k1_part4_eq_skeleton, k1_part5_eq_skeleton,
    k1_part6_eq_skeleton]
  unfold k1_part1_skel k1_part2_skel k1_part3_skel k1_part4_skel k1_part5_skel k1_part6_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  sl_unfold_run_names
  refine (View.read_writes_eq_canon _ _ _ (cover1_5 _)).trans ?_
  unfold out1_5 k1_store
  first | rfl | fail "closing rfl failed"

/-! ## The body obligation -/

/-- What the body is called with at point `t`: the invariant, what the core owes, and each window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same invariant and debt, each buffer at what the body leaves in it. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every grid point takes the staged blocks to the staged blocks and the output block above. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsKDefs.lean ====
/-
  The buffers' contents at each boundary of the program, at any float instance: at launch; after the host operations
  before the first launch (the weight matrix transposed and narrowed, the bias and the norm weights as rows); after the
  first launch (only the fused projection's buffer has changed, to what the launch's write-backs leave); after the host
  operations before the second launch (the output weights transposed and narrowed, the bias as a row); after the second
  launch (only the result buffer has changed).
-/
import proofs.«416334_j66056597012775_3_alg».proof.Proof.BitsRegion0
import proofs.«416334_j66056597012775_3_alg».proof.Proof.BitsRegion1

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ)

/-- At launch. -/
abbrev U0 (c : Dev nD) : Valuation τ sig (Elt F) := fun b => m (c, b)
/-- After the first host stretch: the first launch's entry. -/
abbrev U1 (c : Dev nD) : Valuation τ sig (Elt F) := StableHlo.after hostOps0 (U0 m c)
/-- The same read at the TensorCore's references. -/
abbrev V1 (c : Dev nD) (b : Ref sig .tc) : Buf (Elt F) ((c : Thread nD τ).loc b) := U1 m c b
/-- The fused projection's array as the first launch's write-backs leave it. -/
def qkvArr (c : Dev nD) : Buf (Elt F) ((c : Thread nD τ).loc main_v4) := (dat0 (V1 m) c).arrAt 4 cfg0.N
/-- After the first launch: only the fused projection's buffer has changed. -/
def U2 (c : Dev nD) : Valuation τ sig (Elt F) := Function.update (U1 m c) main_v4 (qkvArr m c)
/-- After the second host stretch: the second launch's entry. -/
abbrev U3 (c : Dev nD) : Valuation τ sig (Elt F) := StableHlo.after hostOps1 (U2 m c)
/-- The same read at the TensorCore's references. -/
abbrev V3 (c : Dev nD) (b : Ref sig .tc) : Buf (Elt F) ((c : Thread nD τ).loc b) := U3 m c b
/-- The result array as the second launch's write-backs leave it. -/
def outArr (c : Dev nD) : Buf (Elt F) ((c : Thread nD τ).loc main_v8) := (dat1 (V3 m) c).arrAt 5 cfg1.N
/-- After the second launch: only the result buffer has changed. -/
def U4 (c : Dev nD) : Valuation τ sig (Elt F) := Function.update (U3 m c) main_v8 (outArr m c)

end Cert.Kernel.Hand

end
-- ==== Proof.BitsKRun.lean ====
/-
  The whole program's run, at any float instance: the host operations before the first launch (the weight matrix
  transposed and narrowed, the bias and the norm weights as rows), the first launch, the host operations before the
  second (the output weights transposed and narrowed, the bias as a row), the second launch. Every weakly fair
  execution terminates, the result buffer holds what the second launch's write-backs leave, and the six argument
  arrays hold what they were launched with.
-/
import proofs.«416334_j66056597012775_3_alg».proof.Proof.BitsKDefs
import proofs.«416334_j66056597012775_3_alg».proof.Proof.BitsRegion0
import proofs.«416334_j66056597012775_3_alg».proof.Proof.BitsRegion1
import proofs.«416334_j66056597012775_3_alg».proof.Proof.Gen.Kernel.Regions
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! ## What each item leaves alone -/

theorem U1_of (c : Dev nD) (r : Ref sig .tc) (h : r ∉ hostOps0_W) : U1 m c r = U0 m c r :=
  StableHlo.after_of_writes_sub hostOps0 _ hostOps0_writes h
theorem U2_of (c : Dev nD) (r : Ref sig .tc) (h : r ≠ main_v4) : U2 m c r = U1 m c r := by
  unfold U2
  exact Function.update_of_ne (StableHlo.devRef_ne_of_ne h : (Proc.devRef .tc r : DevRef τ sig) ≠ Proc.devRef .tc main_v4) _ _
theorem U2_self (c : Dev nD) : U2 m c main_v4 = qkvArr m c := by
  unfold U2; exact Function.update_self _ _ _
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v8) : U4 m c r = U3 m c r := by
  unfold U4
  exact Function.update_of_ne (StableHlo.devRef_ne_of_ne h : (Proc.devRef .tc r : DevRef τ sig) ≠ Proc.devRef .tc main_v8) _ _
theorem U4_self (c : Dev nD) : U4 m c main_v8 = outArr m c := by
  unfold U4; exact Function.update_self _ _ _

/-- An argument array is written by no host operation and is no launch's output: it ends as launched. -/
theorem U4_arg (c : Dev nD) (r : Ref sig .tc) (h8 : r ≠ main_v8) (h1 : r ∉ hostOps1_W) (h4 : r ≠ main_v4) (h0 : r ∉ hostOps0_W) :
    U4 m c r = m ((c : Thread nD τ).loc r) :=
  (U4_of m c r h8).trans <| (U3_of m c r h1).trans <| (U2_of m c r h4).trans <| (U1_of m c r h0).trans rfl

/-! ## The first launch's arrays at its exit -/

/-- Each array of the first launch holds after it what the launch's write-backs leave: an input what it held, the
    output the fused projection. -/
theorem hF0 (c : Dev nD) : ∀ w : Fin cfg0.W, (dat0 (V1 m) c).arrAt w cfg0.N = U2 m c (Pipeline.arrRef spec0 w)
  | ⟨0, _⟩ => (((dat0 (V1 m) c).arrAt_in 0 rfl _).trans (A_eq0 (V1 m) c 0)).trans (U2_of m c _ (by decide)).symm
  | ⟨1, _⟩ => (((dat0 (V1 m) c).arrAt_in 1 rfl _).trans (A_eq0 (V1 m) c 1)).trans (U2_of m c _ (by decide)).symm
  | ⟨2, _⟩ => (((dat0 (V1 m) c).arrAt_in 2 rfl _).trans (A_eq0 (V1 m) c 2)).trans (U2_of m c _ (by decide)).symm
  | ⟨3, _⟩ => (((dat0 (V1 m) c).arrAt_in 3 rfl _).trans (A_eq0 (V1 m) c 3)).trans (U2_of m c _ (by decide)).symm
  | ⟨4, _⟩ => (U2_self m c).symm
/-- Every other buffer holds what it held. -/
theorem hrest0 (c : Dev nD) (b : Ref sig .tc) (hb : b ∉ Finset.univ.image (Pipeline.arrRef spec0)) : U2 m c b = U1 m c b :=
  U2_of m c b fun e => hb (e ▸ Finset.mem_image.mpr ⟨4, Finset.mem_univ _, rfl⟩)

/-! ## The proof data family and the thread state -/

/-- Both launches' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at `U4`, the generator register at some state. -/
abbrev Tₙ (c : Dev nD) : sProp 𝕄 := iprop(StableHlo.held (c : Thread nD τ) (Pipeline.ucRefs τ sig) (U4 m c) ∗ ∃ r, prngReg c r)

/-! ## The second launch's arrays: three windows on one buffer

The fused projection's buffer is read by three windows, at a half and two quarters of it; the other three arrays are
whole buffers of their own. -/

section SharedArrays

variable (V : (c : Dev nD) → (b : Ref sig .tc) → Buf (Elt F) ((c : Thread nD τ).loc b))

set_option backward.isDefEq.respectTransparency.types false in
/-- The second launch's arrays at contents `G`, window by window. -/
theorem arrays1_eq (c : Dev nD) (G : (w : Fin cfg1.W) → Buf (Elt F) ((cfg1.win w).arr.view.loc (c.tc : Thread nD τ))) :
    ((dat1 V c).arrays G : sProp 𝕄) = iprop(
      (((c : Thread nD τ).loc main_v4) ↦{fullShare.left} G 0) ∗ (((c : Thread nD τ).loc main_v4) ↦{fullShare.right.left} G 1)
      ∗ (((c : Thread nD τ).loc main_v4) ↦{fullShare.right.right} G 2) ∗ (((c : Thread nD τ).loc main_v6) ↦{fullShare} G 3)
      ∗ (((c : Thread nD τ).loc main_v7) ↦{fullShare} G 4) ∗ (((c : Thread nD τ).loc main_v8) ↦{fullShare} G 5)) := by
  unfold Dat.arrays
  rw [bigSep_W1, (arr_whole1 0).set_eq_univ, (arr_whole1 3).set_eq_univ, (arr_whole1 4).set_eq_univ, (arr_whole1 5).set_eq_univ]
  rfl

/-- The distinct buffers behind the second launch's windows, one by one. -/
theorem arrBufs1_eq (c : Dev nD) (W : (b : Ref sig .tc) → Buf (Elt F) ((c : Thread nD τ).loc b)) :
    (Pipeline.arrBufs spec1 c W : sProp 𝕄) = iprop(
      (((c : Thread nD τ).loc main_v4) ↦{fullShare} W main_v4) ∗ (((c : Thread nD τ).loc main_v6) ↦{fullShare} W main_v6)
      ∗ (((c : Thread nD τ).loc main_v7) ↦{fullShare} W main_v7) ∗ (((c : Thread nD τ).loc main_v8) ↦{fullShare} W main_v8)) := by
  unfold Pipeline.arrBufs
  exact bigSep_eq_bigSepL_of_eq [main_v4, main_v6, main_v7, main_v8] (by decide) (by decide) _

end SharedArrays

section SharedArrays2

variable (V : (c : Dev nD) → (b : Ref sig .tc) → Buf (Elt F) ((c : Thread nD τ).loc b))

/-- A whole buffer is its half and its two quarters, all at the same contents. -/
theorem pointsTo_three (ℓ : Loc nD τ sig) (f : Buf (Elt F) ℓ) :
    (ℓ ↦{fullShare} f : sProp 𝕄) ⊣⊢ iprop((ℓ ↦{fullShare.left} f) ∗ (ℓ ↦{fullShare.right.left} f) ∗ ℓ ↦{fullShare.right.right} f) := by
  constructor
  · iintro H
    ihave H := (pointsTo_share (PosShare.mem_left_op_right fullShare)).1 $$ H
    icases H with ⟨Hl, Hr⟩
    ihave Hr := (pointsTo_share (PosShare.mem_left_op_right fullShare.right)).1 $$ Hr
    icases Hr with ⟨Hrl, Hrr⟩
    isplitl [Hl]; · iexact Hl
    isplitl [Hrl] <;> iassumption
  · iintro ⟨Hl, Hrl, Hrr⟩
    iapply (pointsTo_share (PosShare.mem_left_op_right fullShare)).2
    isplitl [Hl]; · iexact Hl
    iapply (pointsTo_share (PosShare.mem_left_op_right fullShare.right)).2
    isplitl [Hrl] <;> iassumption

set_option backward.isDefEq.respectTransparency.types false in
/-- ENTRY: the four buffers behind the windows, whole at `W`, are the six windows' arrays at `W`: the fused
    projection's buffer splits into the three shares its windows read at. -/
theorem arrays1_of_arrBufs (c : Dev nD) (W : (b : Ref sig .tc) → Buf (Elt F) ((c : Thread nD τ).loc b)) :
    (Pipeline.arrBufs spec1 c W : sProp 𝕄) ⊢ (dat1 V c).arrays fun w => W (Pipeline.arrRef spec1 w) := by
  rw [arrBufs1_eq, arrays1_eq]
  iintro ⟨H4, H6, H7, H8⟩
  ihave H4 := (pointsTo_three _ _).1 $$ H4
  icases H4 with ⟨Ha, Hb, Hc⟩
  isplitl [Ha]; · iexact Ha
  isplitl [Hb]; · iexact Hb
  isplitl [Hc]; · iexact Hc
  isplitl [H6]; · iexact H6
  isplitl [H7]; · iexact H7
  iexact H8

set_option backward.isDefEq.respectTransparency.types false in
/-- EXIT: the six windows' arrays at `W` are the four buffers whole at `W`: the three shares of the fused
    projection's buffer, at one contents, rejoin. -/
theorem arrBufs1_of_arrays (c : Dev nD) (W : (b : Ref sig .tc) → Buf (Elt F) ((c : Thread nD τ).loc b)) :
    ((dat1 V c).arrays fun w => W (Pipeline.arrRef spec1 w)) ⊢ (Pipeline.arrBufs spec1 c W : sProp 𝕄) := by
  rw [arrBufs1_eq, arrays1_eq]
  iintro ⟨Ha, Hb, Hc, H6, H7, H8⟩
  isplitl [Ha Hb Hc]
  · iapply (pointsTo_three _ _).2
    isplitl [Ha]; · iexact Ha
    isplitl [Hb]; · iexact Hb
    iexact Hc
  isplitl [H6]; · iexact H6
  isplitl [H7]; · iexact H7
  iexact H8

end SharedArrays2

/-! ## The second launch's arrays at its exit -/

/-- Each array of the second launch holds after it what the launch's write-backs leave: an input what it held (the
    fused projection under each of its three windows), the output the result. -/
theorem hF1 (c : Dev nD) : ∀ w : Fin cfg1.W, (dat1 (V3 m) c).arrAt w cfg1.N = U4 m c (Pipeline.arrRef spec1 w)
  | ⟨0, _⟩ => (((dat1 (V3 m) c).arrAt_in 0 rfl _).trans (A_eq1 (V3 m) c 0)).trans (U4_of m c _ (by decide)).symm
  | ⟨1, _⟩ => (((dat1 (V3 m) c).arrAt_in 1 rfl _).trans (A_eq1 (V3 m) c 1)).trans (U4_of m c _ (by decide)).symm
  | ⟨2, _⟩ => (((dat1 (V3 m) c).arrAt_in 2 rfl _).trans (A_eq1 (V3 m) c 2)).trans (U4_of m c _ (by decide)).symm
  | ⟨3, _⟩ => (((dat1 (V3 m) c).arrAt_in 3 rfl _).trans (A_eq1 (V3 m) c 3)).trans (U4_of m c _ (by decide)).symm
  | ⟨4, _⟩ => (((dat1 (V3 m) c).arrAt_in 4 rfl _).trans (A_eq1 (V3 m) c 4)).trans (U4_of m c _ (by decide)).symm
  | ⟨5, _⟩ => (U4_self m c).symm
/-- Every other buffer holds what it held. -/
theorem hrest1 (c : Dev nD) (b : Ref sig .tc) (hb : b ∉ Finset.univ.image (Pipeline.arrRef spec1)) : U4 m c b = U3 m c b :=
  U4_of m c b fun e => hb (e ▸ Finset.mem_image.mpr ⟨5, Finset.mem_univ _, rfl⟩)

/-! ## The launches as items -/

set_option backward.isDefEq.respectTransparency.types false in
/-- THE FIRST LAUNCH over the thread state: entered with every unscoped buffer at `U1`, left with them at `U2`. Its
    five arrays are distinct buffers: they split out of the unscoped buffers at entry and go back, the output at
    the fused projection, at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => U2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND LAUNCH over the thread state: entered with every unscoped buffer at `U3`, left with them at `U4`.
    Three of its windows read one buffer: at entry that buffer splits into a half and two quarters, one per window;
    the windows never write it, so at exit the three shares hold one contents and rejoin. The output's buffer comes
    back at the result. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0) ∗ Pipeline.unscopedRest spec1 c (V3 m c)) := by
      rw [Pipeline.unscopedBufs_split₀ cfgs 1 winFacts₀1.arr_unscoped c (V3 m c)]
      exact sep_mono (arrays1_of_arrBufs (V3 m) c (V3 m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V3 m c))
        ⊢ (unscopedBufs (Ix := Unit) (Name := ℕ) (U := UR sig nD τ) (Lvl := ℕ) c (fun b : Ref sig .tc => U4 m c b) : sProp 𝕄) := by
      rw [Pipeline.unscopedBufs_split₀ cfgs 1 winFacts₀1.arr_unscoped c (fun b : Ref sig .tc => U4 m c b),
        show ((pdats m 1 c).arrAt · cfg1.N) = fun w => (fun b : Ref sig .tc => U4 m c b) (Pipeline.arrRef spec1 w) from funext (hF1 m c)]
      refine sep_mono (arrBufs1_of_arrays (V3 m) c fun b : Ref sig .tc => U4 m c b) (Entails.of_eq ?_)
      unfold Pipeline.unscopedRest
      exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's four items in order: a host stretch from its boundary's contents, a launch, and again. -/
abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m) ]
/-- The program is the run of its items. -/
theorem main_run (c : Dev nD) : main (F := F) c = Pipeline.Seg.run (segs m) := (main_chain c).trans (by chain_rfl)

end Run

open Run in
set_option backward.isDefEq.respectTransparency.types false in
/-- Every weakly fair execution of the program from memory `m` with zero counters terminates; the result buffer
    ends at `outArr` and every argument array as launched. -/
theorem run_main : θ_run (defs (F := F)) (onTc (τ := τ) (main (F := F))) ⟨m, fun _ => 0, ρ⟩ (fun r => ∀ c : Dev nD,
      r.2.mem ((c.tc : Thread nD τ).loc main_v8) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (Run.segs m)
    (fun c Q => by rw [main_run m c])
    (by simp only [Run.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h c =>
      ⟨(h c _ (mem_uc main_v8 (by decide))).trans (U4_self m c),
        (h c _ (mem_uc main_arg0 (by decide))).trans (U4_arg m c main_arg0 (by decide) (by decide) (by decide) (by decide)),
        (h c _ (mem_uc main_arg1 (by decide))).trans (U4_arg m c main_arg1 (by decide) (by decide) (by decide) (by decide)),
        (h c _ (mem_uc main_arg2 (by decide))).trans (U4_arg m c main_arg2 (by decide) (by decide) (by decide) (by decide)),
        (h c _ (mem_uc main_arg3 (by decide))).trans (U4_arg m c main_arg3 (by decide) (by decide) (by decide) (by decide)),
        (h c _ (mem_uc main_arg4 (by decide))).trans (U4_arg m c main_arg4 (by decide) (by decide) (by decide) (by decide)),
        (h c _ (mem_uc main_arg5 (by decide))).trans (U4_arg m c main_arg5 (by decide) (by decide) (by decide) (by decide))⟩)

end Cert.Kernel.Hand

end
-- ==== Proof.Claims.lean ====
/-
  The five claims. Each program's frame is its run with the result dropped: the kernel's two-launch run (at the word
  level and on the extended reals) and the reference's run of its host operations. The idealized kernel is the kernel's
  own text read on the extended reals. And on the extended reals, from memories that agree on the six finite argument
  arrays, the kernel's result array (the once-divided attention output of the fused projection) and the reference's
  (the softmax-weighted one) are equal entry by entry.
-/
import proofs.«416334_j66056597012775_3_alg».proof.Defs
import proofs.«416334_j66056597012775_3_alg».proof.Proof.Assemble
import proofs.«416334_j66056597012775_3_alg».proof.Proof.KRun
import proofs.«416334_j66056597012775_3_alg».proof.Proof.BitsKRun
import proofs.«416334_j66056597012775_3_alg».proof.Proof.Gen.Kernel
import proofs.«416334_j66056597012775_3_alg».proof.Proof.Gen.KernelIdeal
import proofs.«416334_j66056597012775_3_alg».proof.Proof.Gen.ReferenceIdeal
import proofs.«416334_j66056597012775_3_alg».proof.Proof.Gen.ReferenceIdeal.Run
import proofs.«416334_j66056597012775_3_alg».proof.Proof.Gen.Pre_finite_inputs

set_option maxRecDepth 16384

noncomputable section

namespace Cert.Proof.Claims

open Idealize.ShloMosaic Idealize.ShloMosaic.TcCoe Idealize.SL.Sem Idealize.ShloMosaic.ValueIdx

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result array is the kernel's, when the memories agree on finite arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Value.res_main_v46 m' c : (⟨3, ![4, 2048, 1024]⟩ : Shape).Idx → EReal)
      = (Cert.KernelIdeal.Hand.outArr m c : (⟨3, ![4, 2048, 1024]⟩ : Shape).Idx → EReal) := by
  obtain ⟨f0, f1, f2, f3, f4, f5⟩ := Cert.Proof.Finite.finite_of_fn _ _ _ _ _ _ (hpre c)
  refine funext fun (i : (⟨3, ![4, 2048, 1024]⟩ : Shape).Idx) => ?_
  obtain ⟨b, s, e, rfl⟩ : ∃ (b : Fin 4) (s : Fin 2048) (e : Fin 1024), i = ix3 b s e := ⟨i 0, i 1, i 2, eq_ix3 i⟩
  refine (Cert.Proof.Assemble.refOut_apply m' c b s e).trans ?_
  refine Eq.trans ?_ (Cert.Proof.Assemble.outArr_apply m c b s e).symm
  rw [h0, h1, h2, h3, h4, h5]
  exact (Cert.Proof.Assemble.outKof_eq_outRof _ _ _ _ _ _ f0 f1 f2 f3 b s e).symm

theorem algebraic : Cert.algebraic_KernelIdeal_ReferenceIdeal := by
  intro m ρ m' ρ' hpre hagree
  refine ⟨fun c => Cert.KernelIdeal.Hand.outArr m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  exact result_eq m m' hpre c (hagree c).1 (hagree c).2.1 (hagree c).2.2.1 (hagree c).2.2.2.1 (hagree c).2.2.2.2.1 (hagree c).2.2.2.2.2

end Cert.Proof.Claims

end
-- ==== Proof.lean ====
/-
  Two programs, one function. The kernel normalises each activation row by the reciprocal root of its mean square,
  projects it to queries, keys and values in a first launch, and in a second launch runs sixteen-head attention — the
  scores scaled, shifted by their row maximum and exponentiated, the weighted sum of value rows divided ONCE by the
  weights' sum — followed by the output projection. The reference does the same with jnp operations and divides every
  weight by the sum first (a softmax). On the extended reals, for finite inputs, the weights' sum is a positive real, so
  the two orders of division agree; every other step is the same operation on the same numbers. The frames are the
  programs' runs with the results dropped; the idealization rewrote nothing.
-/
import proofs.«416334_j66056597012775_3_alg».proof.Defs
import proofs.«416334_j66056597012775_3_alg».proof.Proof.Claims
import proofs.«416334_j66056597012775_3_alg».proof.Proof.Gen.Kernel
import proofs.«416334_j66056597012775_3_alg».proof.Proof.Gen.KernelIdeal
import proofs.«416334_j66056597012775_3_alg».proof.Proof.Gen.ReferenceIdeal
import proofs.«416334_j66056597012775_3_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
